-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x2048 : Shape := ⟨2, ![16384, 2048]⟩
abbrev S16384x2048x1 : Shape := ⟨3, ![16384, 2048, 1]⟩
abbrev S1024x2048 : Shape := ⟨2, ![1024, 2048]⟩
abbrev S2048 : Shape := ⟨1, ![2048]⟩
abbrev S4096x2048 : Shape := ⟨2, ![4096, 2048]⟩
abbrev S2048x2048 : Shape := ⟨2, ![2048, 2048]⟩
abbrev S1 : Shape := ⟨1, ![1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S16384x2048x1 : S_.BroadcastsInDim S16384x2048x1 (![] : Fin 0 → Fin S16384x2048x1.rank)
  reducesTo_S16384x2048x1_S_d0_1_2 : S16384x2048x1.ReducesTo [0, 1, 2] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S2048 .f32) (main_arg15 : FVec F S2048x2048 .f32) (main_arg16 : FVec F S2048 .f32) (main_arg17 : FVec F S1 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x2048 .f32 := Host.absf main_arg15
  let main_cst_28 : FVec F S_ .f32 := constant S_ .f32 0x7F800000#32
  let main_v75 : FVec F S2048x2048 .f32 := broadcastInDim S2048x2048 ![] bcast_S_S2048x2048 main_cst_28
  let main_v76 : IVec S2048x2048 1 := cmpf .olt main_v74 main_v75
  let main_c_29 : IVec S_ 1 := constantI S_ 1 1#1
  let main_v77 : IVec S_ 1 := (fun x v => Host.reduce IntOp.andi x v reducesTo_S2048x2048_S_d0_1 h_S_) main_v76 main_c_29
  let main_v78 : IVec S_ 1 := andi main_v73 main_v77
  let main_v79 : FVec F S2048 .f32 := Host.absf main_arg16
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S4096x2048 .f32) (main_arg12 : FVec F S2048 .f32) (main_arg13 : FVec F S4096x2048 .f32) (main_arg14 : FVec F S2048 .f32) (main_arg15 : FVec F S2048x2048 .f32) (main_arg16 : FVec F S2048 .f32) (main_arg17 : FVec F S1 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S4096x2048 .f32 := Host.absf main_arg11
  let main_cst_20 : FVec F S_ .f32 := constant S_ .f32 0x7F800000#32
  let main_v55 : FVec F S4096x2048 .f32 := broadcastInDim S4096x2048 ![] bcast_S_S4096x2048 main_cst_20
  let main_v56 : IVec S4096x2048 1 := cmpf .olt main_v54 main_v55
  let main_c_21 : IVec S_ 1 := constantI S_ 1 1#1
  let main_v57 : IVec S_ 1 := (fun x v => Host.reduce IntOp.andi x v reducesTo_S4096x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S4096x2048 .f32 := Host.absf main_arg13
  let main_cst_24 : FVec F S_ .f32 := constant S_ .f32 0x7F800000#32
  let main_v65 : FVec F S4096x2048 .f32 := broadcastInDim S4096x2048 ![] bcast_S_S4096x2048 main_cst_24
  let main_v66 : IVec S4096x2048 1 := cmpf .olt main_v64 main_v65
  let main_c_25 : IVec S_ 1 := constantI S_ 1 1#1
  let main_v67 : IVec S_ 1 := (fun x v => Host.reduce IntOp.andi x v reducesTo_S4096x2048_S_d0_1 h_S_) main_v66 main_c_25
  fn_part4 (F := F) main_arg14 main_arg15 main_arg16 main_arg17 main_v63 main_v67

def fn_part2 {F : FTy → Type} [FloatOps F] (main_arg7 : FVec F S4096x2048 .f32) (main_arg8 : FVec F S2048 .f32) (main_arg9 : FVec F S4096x2048 .f32) (main_arg10 : FVec F S2048 .f32) (main_arg11 : FVec F S4096x2048 .f32) (main_arg12 : FVec F S2048 .f32) (main_arg13 : FVec F S4096x2048 .f32) (main_arg14 : FVec F S2048 .f32) (main_arg15 : FVec F S2048x2048 .f32) (main_arg16 : FVec F S2048 .f32) (main_arg17 : FVec F S1 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_arg17 main_v48 main_v49 main_v50

def fn_part1 {F : FTy → Type} [FloatOps F] (main_arg4 : FVec F S16384x2048x1 .f32) (main_arg5 : FVec F S1024x2048 .f32) (main_arg6 : FVec F S2048 .f32) (main_arg7 : FVec F S4096x2048 .f32) (main_arg8 : FVec F S2048 .f32) (main_arg9 : FVec F S4096x2048 .f32) (main_arg10 : FVec F S2048 .f32) (main_arg11 : FVec F S4096x2048 .f32) (main_arg12 : FVec F S2048 .f32) (main_arg13 : FVec F S4096x2048 .f32) (main_arg14 : FVec F S2048 .f32) (main_arg15 : FVec F S2048x2048 .f32) (main_arg16 : FVec F S2048 .f32) (main_arg17 : FVec F S1 .f32) (main_v13 : IVec S_ 1) (main_v16 : IVec S16384x2048 1) : IVec S_ 1 :=
  let main_c_5 : IVec S_ 1 := constantI S_ 1 1#1
  let main_v17 : IVec S_ 1 := (fun x v => Host.reduce IntOp.andi x v reducesTo_S16384x2048_S_d0_1 h_S_) main_v16 main_c_5
  let main_v18 : IVec S_ 1 := andi main_v13 main_v17
  let main_v19 : FVec F S16384x2048x1 .f32 := Host.absf main_arg4
  let main_cst_6 : FVec F S_ .f32 := constant S_ .f32 0x7F800000#32
  let main_v20 : FVec F S16384x2048x1 .f32 := broadcastInDim S16384x2048x1 ![] bcast_S_S16384x2048x1 main_cst_6
  let main_v21 : IVec S16384x2048x1 1 := cmpf .olt main_v19 main_v20
  let main_c_7 : IVec S_ 1 := constantI S_ 1 1#1
  let main_v22 : IVec S_ 1 := (fun x v => Host.reduce IntOp.andi x v reducesTo_S16384x2048x1_S_d0_1_2 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x1024 .f32) (main_arg1 : FVec F S16384x2048 .f32) (main_arg2 : FVec F S16384x2048 .f32) (main_arg3 : FVec F S16384x2048 .f32) (main_arg4 : FVec F S16384x2048x1 .f32) (main_arg5 : FVec F S1024x2048 .f32) (main_arg6 : FVec F S2048 .f32) (main_arg7 : FVec F S4096x2048 .f32) (main_arg8 : FVec F S2048 .f32) (main_arg9 : FVec F S4096x2048 .f32) (main_arg10 : FVec F S2048 .f32) (main_arg11 : FVec F S4096x2048 .f32) (main_arg12 : FVec F S2048 .f32) (main_arg13 : FVec F S4096x2048 .f32) (main_arg14 : FVec F S2048 .f32) (main_arg15 : FVec F S2048x2048 .f32) (main_arg16 : FVec F S2048 .f32) (main_arg17 : FVec F S1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x2048 .f32 := Host.absf main_arg1
  let main_cst_0 : FVec F S_ .f32 := constant S_ .f32 0x7F800000#32
  let main_v5 : FVec F S16384x2048 .f32 := broadcastInDim S16384x2048 ![] bcast_S_S16384x2048 main_cst_0
  let main_v6 : IVec S16384x2048 1 := cmpf .olt main_v4 main_v5
  let main_c_1 : IVec S_ 1 := constantI S_ 1 1#1
  let main_v7 : IVec S_ 1 := (fun x v => Host.reduce IntOp.andi x v reducesTo_S16384x2048_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S16384x2048 .f32 := Host.absf main_arg3
  let main_cst_4 : FVec F S_ .f32 := constant S_ .f32 0x7F800000#32
  let main_v15 : FVec F S16384x2048 .f32 := broadcastInDim S16384x2048 ![] bcast_S_S16384x2048 main_cst_4
  let main_v16 : IVec S16384x2048 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x1024 : Shape := ⟨2, ![16384, 1024]⟩
abbrev S16384x2048 : Shape := ⟨2, ![16384, 2048]⟩
abbrev S16384x2048x1 : Shape := ⟨3, ![16384, 2048, 1]⟩
abbrev S1024x2048 : Shape := ⟨2, ![1024, 2048]⟩
abbrev S2048 : Shape := ⟨1, ![2048]⟩
abbrev S4096x2048 : Shape := ⟨2, ![4096, 2048]⟩
abbrev S2048x2048 : Shape := ⟨2, ![2048, 2048]⟩
abbrev S1 : Shape := ⟨1, ![1]⟩
abbrev S1x2048 : Shape := ⟨2, ![1, 2048]⟩
abbrev S1x1 : Shape := ⟨2, ![1, 1]⟩
abbrev S512x1024 : Shape := ⟨2, ![512, 1024]⟩
abbrev S512x2048 : Shape := ⟨2, ![512, 2048]⟩
abbrev S512x128 : Shape := ⟨2, ![512, 128]⟩
abbrev S2048x128 : Shape := ⟨2, ![2048, 128]⟩
abbrev S1x128 : Shape := ⟨2, ![1, 128]⟩

abbrev nBuf : Space → Nat
  | .hbm => 36
  | .vmem => 51
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S16384x2048x1, .f32⟩
  | .hbm, ⟨5, _⟩ => ⟨S1024x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S4096x2048, .f32⟩
  | .hbm, ⟨12, _⟩ => ⟨S2048, .f32⟩
  | .hbm, ⟨13, _⟩ => ⟨S4096x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S1, .f32⟩
  | .hbm, ⟨18, _⟩ => ⟨S1024x2048, .bf16⟩
  | .hbm, ⟨19, _⟩ => ⟨S2048x2048, .bf16⟩
  | .hbm, ⟨20, _⟩ => ⟨S4096x2048, .bf16⟩
  | .hbm, ⟨21, _⟩ => ⟨S4096x2048, .bf16⟩
  | .hbm, ⟨22, _⟩ => ⟨S4096x2048, .bf16⟩
  | .hbm, ⟨23, _⟩ => ⟨S4096x2048, .bf16⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x1, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S1x1, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .bf16⟩
  | .local _ .vmem, ⟨31, _⟩ => ⟨S2048x128, .bf16⟩
  | .local _ .vmem, ⟨32, _⟩ => ⟨S2048x128, .bf16⟩
  | .local _ .vmem, ⟨33, _⟩ => ⟨S2048x128, .bf16⟩
  | .local _ .vmem, ⟨34, _⟩ => ⟨S2048x128, .bf16⟩
  | .local _ .vmem, ⟨35, _⟩ => ⟨S2048x128, .bf16⟩
  | .local _ .vmem, ⟨36, _⟩ => ⟨S2048x128, .bf16⟩
  | .local _ .vmem, ⟨37, _⟩ => ⟨S2048x128, .bf16⟩
  | .local _ .vmem, ⟨38, _⟩ => ⟨S2048x128, .bf16⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S512x128, .f32⟩
  | .local _ .vmem, ⟨48, _⟩ => ⟨S512x128, .f32⟩
  | .local _ .vmem, ⟨49, _⟩ => ⟨S512x128, .f32⟩
  | .local _ .vmem, ⟨50, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc2_stg9_0 : Ref sig .tc := ⟨.vmem, 29, rfl⟩
abbrev cc2_stg9_1 : Ref sig .tc := ⟨.vmem, 30, rfl⟩
abbrev cc2_stg10_0 : Ref sig .tc := ⟨.vmem, 31, rfl⟩
abbrev cc2_stg10_1 : Ref sig .tc := ⟨.vmem, 32, rfl⟩
abbrev cc2_stg11_0 : Ref sig .tc := ⟨.vmem, 33, rfl⟩
abbrev cc2_stg11_1 : Ref sig .tc := ⟨.vmem, 34, rfl⟩
abbrev cc2_stg12_0 : Ref sig .tc := ⟨.vmem, 35, rfl⟩
abbrev cc2_stg12_1 : Ref sig .tc := ⟨.vmem, 36, rfl⟩
abbrev cc2_stg13_0 : Ref sig .tc := ⟨.vmem, 37, rfl⟩
abbrev cc2_stg13_1 : Ref sig .tc := ⟨.vmem, 38, rfl⟩
abbrev cc2_stg14_0 : Ref sig .tc := ⟨.vmem, 39, rfl⟩
abbrev cc2_stg14_1 : Ref sig .tc := ⟨.vmem, 40, rfl⟩
abbrev cc2_stg15_0 : Ref sig .tc := ⟨.vmem, 41, rfl⟩
abbrev cc2_stg15_1 : Ref sig .tc := ⟨.vmem, 42, rfl⟩
abbrev cc2_stg16_0 : Ref sig .tc := ⟨.vmem, 43, rfl⟩
abbrev cc2_stg16_1 : Ref sig .tc := ⟨.vmem, 44, rfl⟩
abbrev cc2_stg17_0 : Ref sig .tc := ⟨.vmem, 45, rfl⟩
abbrev cc2_stg17_1 : Ref sig .tc := ⟨.vmem, 46, rfl⟩
abbrev cc2_stg18_0 : Ref sig .tc := ⟨.vmem, 47, rfl⟩
abbrev cc2_stg18_1 : Ref sig .tc := ⟨.vmem, 48, rfl⟩
abbrev cc2_stg19_0 : Ref sig .tc := ⟨.vmem, 49, rfl⟩
abbrev cc2_stg19_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem7_1 : DmaSem sig := 26
abbrev cc2_sem8_0 : DmaSem sig := 27
abbrev cc2_sem8_1 : DmaSem sig := 28
abbrev cc2_sem9_0 : DmaSem sig := 29
abbrev cc2_sem9_1 : DmaSem sig := 30
abbrev cc2_sem10_0 : DmaSem sig := 31
abbrev cc2_sem10_1 : DmaSem sig := 32
abbrev cc2_sem11_0 : DmaSem sig := 33
abbrev cc2_sem11_1 : DmaSem sig := 34
abbrev cc2_sem12_0 : DmaSem sig := 35
abbrev cc2_sem12_1 : DmaSem sig := 36
abbrev cc2_sem13_0 : DmaSem sig := 37
abbrev cc2_sem13_1 : DmaSem sig := 38
abbrev cc2_sem14_0 : DmaSem sig := 39
abbrev cc2_sem14_1 : DmaSem sig := 40
abbrev cc2_sem15_0 : DmaSem sig := 41
abbrev cc2_sem15_1 : DmaSem sig := 42
abbrev cc2_sem16_0 : DmaSem sig := 43
abbrev cc2_sem16_1 : DmaSem sig := 44
abbrev cc2_sem17_0 : DmaSem sig := 45
abbrev cc2_sem17_1 : DmaSem sig := 46
abbrev cc2_sem18_0 : DmaSem sig := 47
abbrev cc2_sem18_1 : DmaSem sig := 48
abbrev cc2_sem19_0 : DmaSem sig := 49
abbrev cc2_sem19_1 : DmaSem sig := 50

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![32, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_7 (i : grid2.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_9 (i : grid2.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_11 (i : grid2.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_13 (i : grid2.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_16 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_17 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_18 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_19 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S2048x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S2048x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![false, true]

abbrev stage2_8 : Fin 2 → Memref sig .tc .vmem S2048x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![false, true]

abbrev stage2_9 : Fin 2 → Memref sig .tc .vmem S2048x128 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![false, true]

abbrev stage2_10 : Fin 2 → Memref sig .tc .vmem S2048x128 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![false, true]

abbrev stage2_11 : Fin 2 → Memref sig .tc .vmem S2048x128 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![false, true]

abbrev stage2_12 : Fin 2 → Memref sig .tc .vmem S2048x128 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![false, true]

abbrev stage2_13 : Fin 2 → Memref sig .tc .vmem S2048x128 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![false, true]

abbrev stage2_14 : Fin 2 → Memref sig .tc .vmem S1x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![false, true]

abbrev stage2_15 : Fin 2 → Memref sig .tc .vmem S1x128 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![false, true]

abbrev stage2_16 : Fin 2 → Memref sig .tc .vmem S1x128 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![false, true]

abbrev stage2_17 : Fin 2 → Memref sig .tc .vmem S1x128 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![false, true]

abbrev stage2_18 : Fin 2 → Memref sig .tc .vmem S512x128 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true, true]

abbrev stage2_19 : Fin 2 → Memref sig .tc .vmem S512x128 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true, true]

class Facts₀ : Prop where
  bitsLt_bf16_f32 : FTy.bits .bf16 < FTy.bits .f32
  shapeCasts_S2048_S1x2048 : S2048.ShapeCasts S1x2048
  shapeCasts_S1_S1x1 : S1.ShapeCasts S1x1
  shapeCasts_S16384x2048x1_S16384x2048 : S16384x2048x1.ShapeCasts S16384x2048
  inb_S512x1024_S512x1024_0_0 : ∀ a, (![0, 0] : Fin 2 → Nat) a + S512x1024.size a ≤ S512x1024.size a
  h_S512x1024 : 0 < S512x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S512x2048_S512x2048 : S512x2048.ShapeCasts S512x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x128 : S1x1.Broadcasts S512x128
  dot_S512x1024_S1024x2048_S512x2048_1_0_0_1_n_n_wf : DotDims.WF S512x1024 S1024x2048 S512x2048 [1] [0] [0] [1] [] []
  dot_S512x2048_S2048x2048_S512x2048_1_0_0_1_n_n_wf : DotDims.WF S512x2048 S2048x2048 S512x2048 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .bf16 = 32 ∨ (Rect.block (s := S1024x2048) S1024x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1.size a ≤ S1x1.size a
  hwx2_0 : ∀ i : grid2.Coords, EltTy.bits .f32 = 32 ∨ (Rect.block (s := S1x1) S1x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S16384x2048.size a
  hwx2_1 : ∀ i : grid2.Coords, EltTy.bits .f32 = 32 ∨ (Rect.block (s := S16384x2048) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S16384x2048.size a
  hwx2_2 : ∀ i : grid2.Coords, EltTy.bits .f32 = 32 ∨ (Rect.block (s := S16384x2048) S512x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S16384x2048.size a
  hwx2_3 : ∀ i : grid2.Coords, EltTy.bits .f32 = 32 ∨ (Rect.block (s := S16384x2048) S512x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x128.size a ≤ S16384x2048.size a
  hwx2_4 : ∀ i : grid2.Coords, EltTy.bits .f32 = 32 ∨ (Rect.block (s := S16384x2048) S512x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S16384x2048.size a
  hwx2_5 : ∀ i : grid2.Coords, EltTy.bits .f32 = 32 ∨ (Rect.block (s := S16384x2048) S512x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x128.size a ≤ S4096x2048.size a
  hwx2_6 : ∀ i : grid2.Coords, EltTy.bits .bf16 = 32 ∨ (Rect.block (s := S4096x2048) S2048x128.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x128.size a ≤ S4096x2048.size a
  hwx2_7 : ∀ i : grid2.Coords, EltTy.bits .bf16 = 32 ∨ (Rect.block (s := S4096x2048) S2048x128.size (cc2_transform_7 i) (hinb2_7 i)).WholeWords (EltTy.packing .bf16)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2048x128.size a ≤ S4096x2048.size a
  hwx2_8 : ∀ i : grid2.Coords, EltTy.bits .bf16 = 32 ∨ (Rect.block (s := S4096x2048) S2048x128.size (cc2_transform_8 i) (hinb2_8 i)).WholeWords (EltTy.packing .bf16)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2048x128.size a ≤ S4096x2048.size a
  hwx2_9 : ∀ i : grid2.Coords, EltTy.bits .bf16 = 32 ∨ (Rect.block (s := S4096x2048) S2048x128.size (cc2_transform_9 i) (hinb2_9 i)).WholeWords (EltTy.packing .bf16)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2048x128.size a ≤ S4096x2048.size a
  hwx2_10 : ∀ i : grid2.Coords, EltTy.bits .bf16 = 32 ∨ (Rect.block (s := S4096x2048) S2048x128.size (cc2_transform_10 i) (hinb2_10 i)).WholeWords (EltTy.packing .bf16)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S2048x128.size a ≤ S4096x2048.size a
  hwx2_11 : ∀ i : grid2.Coords, EltTy.bits .bf16 = 32 ∨ (Rect.block (s := S4096x2048) S2048x128.size (cc2_transform_11 i) (hinb2_11 i)).WholeWords (EltTy.packing .bf16)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S2048x128.size a ≤ S4096x2048.size a
  hwx2_12 : ∀ i : grid2.Coords, EltTy.bits .bf16 = 32 ∨ (Rect.block (s := S4096x2048) S2048x128.size (cc2_transform_12 i) (hinb2_12 i)).WholeWords (EltTy.packing .bf16)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2048x128.size a ≤ S4096x2048.size a
  hwx2_13 : ∀ i : grid2.Coords, EltTy.bits .bf16 = 32 ∨ (Rect.block (s := S4096x2048) S2048x128.size (cc2_transform_13 i) (hinb2_13 i)).WholeWords (EltTy.packing .bf16)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S1x128.size a ≤ S1x2048.size a
  hwx2_14 : ∀ i : grid2.Coords, EltTy.bits .f32 = 32 ∨ (Rect.block (s := S1x2048) S1x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S1x128.size a ≤ S1x2048.size a
  hwx2_15 : ∀ i : grid2.Coords, EltTy.bits .f32 = 32 ∨ (Rect.block (s := S1x2048) S1x128.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S1x128.size a ≤ S1x2048.size a
  hwx2_16 : ∀ i : grid2.Coords, EltTy.bits .f32 = 32 ∨ (Rect.block (s := S1x2048) S1x128.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S1x128.size a ≤ S1x2048.size a
  hwx2_17 : ∀ i : grid2.Coords, EltTy.bits .f32 = 32 ∨ (Rect.block (s := S1x2048) S1x128.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S512x128.size a ≤ S16384x2048.size a
  hwx2_18 : ∀ i : grid2.Coords, EltTy.bits .f32 = 32 ∨ (Rect.block (s := S16384x2048) S512x128.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S512x128.size a ≤ S16384x2048.size a
  hwx2_19 : ∀ i : grid2.Coords, EltTy.bits .f32 = 32 ∨ (Rect.block (s := S16384x2048) S512x128.size (cc2_transform_19 i) (hinb2_19 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1x1.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v14) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S512x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15) S512x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v13) S512x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v2) S2048x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v2) S2048x128.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v3) S2048x128.size cc2_transform_8 reads2_8 false false 2 stage2_8 sem2_8
    hrank2 hreads2_8 hinb2_8 nbuf2_8 (Memref.isWhole_whole _) hwx2_8 hstage2_8

abbrev win2_9 : Pipeline.Window sig grid2 :=
  Pipeline.Window.ofSpec (Memref.whole main_v3) S2048x128.size cc2_transform_9 reads2_9 false false 2 stage2_9 sem2_9
    hrank2 hreads2_9 hinb2_9 nbuf2_9 (Memref.isWhole_whole _) hwx2_9 hstage2_9

abbrev win2_10 : Pipeline.Window sig grid2 :=
  Pipeline.Window.ofSpec (Memref.whole main_v4) S2048x128.size cc2_transform_10 reads2_10 false false 2 stage2_10 sem2_10
    hrank2 hreads2_10 hinb2_10 nbuf2_10 (Memref.isWhole_whole _) hwx2_10 hstage2_10

abbrev win2_11 : Pipeline.Window sig grid2 :=
  Pipeline.Window.ofSpec (Memref.whole main_v4) S2048x128.size cc2_transform_11 reads2_11 false false 2 stage2_11 sem2_11
    hrank2 hreads2_11 hinb2_11 nbuf2_11 (Memref.isWhole_whole _) hwx2_11 hstage2_11

abbrev win2_12 : Pipeline.Window sig grid2 :=
  Pipeline.Window.ofSpec (Memref.whole main_v5) S2048x128.size cc2_transform_12 reads2_12 false false 2 stage2_12 sem2_12
    hrank2 hreads2_12 hinb2_12 nbuf2_12 (Memref.isWhole_whole _) hwx2_12 hstage2_12

abbrev win2_13 : Pipeline.Window sig grid2 :=
  Pipeline.Window.ofSpec (Memref.whole main_v5) S2048x128.size cc2_transform_13 reads2_13 false false 2 stage2_13 sem2_13
    hrank2 hreads2_13 hinb2_13 nbuf2_13 (Memref.isWhole_whole _) hwx2_13 hstage2_13

abbrev win2_14 : Pipeline.Window sig grid2 :=
  Pipeline.Window.ofSpec (Memref.whole main_v8) S1x128.size cc2_transform_14 reads2_14 false false 2 stage2_14 sem2_14
    hrank2 hreads2_14 hinb2_14 nbuf2_14 (Memref.isWhole_whole _) hwx2_14 hstage2_14

abbrev win2_15 : Pipeline.Window sig grid2 :=
  Pipeline.Window.ofSpec (Memref.whole main_v9) S1x128.size cc2_transform_15 reads2_15 false false 2 stage2_15 sem2_15
    hrank2 hreads2_15 hinb2_15 nbuf2_15 (Memref.isWhole_whole _) hwx2_15 hstage2_15

abbrev win2_16 : Pipeline.Window sig grid2 :=
  Pipeline.Window.ofSpec (Memref.whole main_v10) S1x128.size cc2_transform_16 reads2_16 false false 2 stage2_16 sem2_16
    hrank2 hreads2_16 hinb2_16 nbuf2_16 (Memref.isWhole_whole _) hwx2_16 hstage2_16

abbrev win2_17 : Pipeline.Window sig grid2 :=
  Pipeline.Window.ofSpec (Memref.whole main_v11) S1x128.size cc2_transform_17 reads2_17 false false 2 stage2_17 sem2_17
    hrank2 hreads2_17 hinb2_17 nbuf2_17 (Memref.isWhole_whole _) hwx2_17 hstage2_17

abbrev win2_18 : Pipeline.Window sig grid2 :=
  Pipeline.Window.ofSpec (Memref.whole main_v16_0) S512x128.size cc2_transform_18 reads2_18 true false 2 stage2_18 sem2_18
    hrank2 hreads2_18 hinb2_18 nbuf2_18 (Memref.isWhole_whole _) hwx2_18 hstage2_18

abbrev win2_19 : Pipeline.Window sig grid2 :=
  Pipeline.Window.ofSpec (Memref.whole main_v16_1) S512x128.size cc2_transform_19 reads2_19 true false 2 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

class Facts : Prop extends Facts₀ where

variable [Facts]
-- ==== ReferenceIdeal.lean ====
abbrev S16384x1024 : Shape := ⟨2, ![16384, 1024]⟩
abbrev S16384x2048 : Shape := ⟨2, ![16384, 2048]⟩
abbrev S16384x2048x1 : Shape := ⟨3, ![16384, 2048, 1]⟩
abbrev S1024x2048 : Shape := ⟨2, ![1024, 2048]⟩
abbrev S2048 : Shape := ⟨1, ![2048]⟩
abbrev S4096x2048 : Shape := ⟨2, ![4096, 2048]⟩
abbrev S2048x2048 : Shape := ⟨2, ![2048, 2048]⟩
abbrev S1 : Shape := ⟨1, ![1]⟩
abbrev S1x2048 : Shape := ⟨2, ![1, 2048]⟩
abbrev S16384x4096 : Shape := ⟨2, ![16384, 4096]⟩
abbrev S4096x8192 : Shape := ⟨2, ![4096, 8192]⟩
abbrev S8192 : Shape := ⟨1, ![8192]⟩
abbrev S16384x8192 : Shape := ⟨2, ![16384, 8192]⟩
abbrev S1x8192 : Shape := ⟨2, ![1, 8192]⟩
abbrev S_ : Shape := ⟨0, ![]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S16384x2048x1, .f32⟩
  | .hbm, ⟨5, _⟩ => ⟨S1024x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S4096x2048, .f32⟩
  | .hbm, ⟨12, _⟩ => ⟨S2048, .f32⟩
  | .hbm, ⟨13, _⟩ => ⟨S4096x2048, .f32⟩
  | .hbm, ⟨14, _⟩ => ⟨S2048, .f32⟩
  | .hbm, ⟨15, _⟩ => ⟨S2048x2048, .f32⟩
  | .hbm, ⟨16, _⟩ => ⟨S2048, .f32⟩
  | .hbm, ⟨17, _⟩ => ⟨S1, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x4096, .f32⟩
  | .hbm, ⟨23, _⟩ => ⟨S4096x8192, .f32⟩
  | .hbm, ⟨24, _⟩ => ⟨S8192, .f32⟩
  | .hbm, ⟨25, _⟩ => ⟨S16384x8192, .f32⟩
  | .hbm, ⟨26, _⟩ => ⟨S1x8192, .f32⟩
  | .hbm, ⟨27, _⟩ => ⟨S16384x8192, .f32⟩
  | .hbm, ⟨28, _⟩ => ⟨S16384x8192, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S16384x2048, .f32⟩
  | .hbm, ⟨45, _⟩ => ⟨S16384x2048, .f32⟩
  | .hbm, ⟨46, _⟩ => ⟨S_, .f32⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S1x2048, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S16384x2048, .f32⟩
  | .hbm, ⟨64, _⟩ => ⟨S_, .f32⟩
  | .hbm, ⟨65, _⟩ => ⟨S16384x2048, .f32⟩
  | .hbm, ⟨66, _⟩ => ⟨S16384x2048, .f32⟩
  | .hbm, ⟨67, _⟩ => ⟨S_, .f32⟩
  | .hbm, ⟨68, _⟩ => ⟨S16384x2048, .f32⟩
  | .hbm, ⟨69, _⟩ => ⟨S16384x2048, .f32⟩
  | .hbm, ⟨70, _⟩ => ⟨S16384x2048, .f32⟩
  | .hbm, ⟨71, _⟩ => ⟨S_, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S_, .f32⟩
  | .hbm, ⟨76, _⟩ => ⟨S16384x2048, .f32⟩
  | .hbm, ⟨77, _⟩ => ⟨S16384x2048, .f32⟩
  | .hbm, ⟨78, _⟩ => ⟨S_, .f32⟩
  | .hbm, ⟨79, _⟩ => ⟨S16384x2048, .f32⟩
  | .hbm, ⟨80, _⟩ => ⟨S16384x2048, .f32⟩
  | .hbm, ⟨81, _⟩ => ⟨S16384x2048, .f32⟩
  | .hbm, ⟨82, _⟩ => ⟨S16384x2048, .f32⟩
  | .hbm, ⟨83, _⟩ => ⟨S16384x2048, .f32⟩
  | .hbm, ⟨84, _⟩ => ⟨S16384x2048, .f32⟩
  | .hbm, ⟨85, _⟩ => ⟨S16384x2048, .f32⟩
  | .hbm, ⟨86, _⟩ => ⟨S1x1, .f32⟩
  | .hbm, ⟨87, _⟩ => ⟨S16384x2048, .f32⟩
  | .hbm, ⟨88, _⟩ => ⟨S16384x2048, .f32⟩
  | .hbm, ⟨89, _⟩ => ⟨S16384x2048, .f32⟩
  | .hbm, ⟨90, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_1 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_5 : Ref sig .tc := ⟨.hbm, 64, rfl⟩
abbrev main_v40 : Ref sig .tc := ⟨.hbm, 65, rfl⟩
abbrev main_v41 : Ref sig .tc := ⟨.hbm, 66, rfl⟩
abbrev main_cst_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_8 : Ref sig .tc := ⟨.hbm, 75, rfl⟩
abbrev main_v48 : Ref sig .tc := ⟨.hbm, 76, rfl⟩
abbrev main_v49 : Ref sig .tc := ⟨.hbm, 77, rfl⟩
abbrev main_cst_9 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  concatenates_S16384x2048_S16384x2048_S16384x4096_d1 : Shape.Concatenates [S16384x2048, S16384x2048] S16384x4096 1
  concatenates_S4096x2048_S4096x2048_S4096x2048_S4096x2048_S4096x8192_d1 : Shape.Concatenates [S4096x2048, S4096x2048, S4096x2048, S4096x2048] S4096x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  slices_S16384x8192_S16384x2048_0_0 : S16384x8192.Slices ![0, 0] S16384x2048
  slices_S16384x8192_S16384x2048_0_2048 : S16384x8192.Slices ![0, 2048] S16384x2048
  slices_S16384x8192_S16384x2048_0_4096 : S16384x8192.Slices ![0, 4096] S16384x2048
  slices_S16384x8192_S16384x2048_0_6144 : S16384x8192.Slices ![0, 6144] S16384x2048
  bcast_S_S16384x2048 : S_.BroadcastsInDim S16384x2048 (![] : Fin 0 → Fin S16384x2048.rank)
  shapeCasts_S16384x2048x1_S16384x2048 : S16384x2048x1.ShapeCasts S16384x2048
  bcast_S1_S1x1_1 : S1.BroadcastsInDim S1x1 (![1] : Fin 1 → Fin S1x1.rank)
  bcast_S1x1_S16384x2048_0_1 : S1x1.BroadcastsInDim S16384x2048 (![0, 1] : Fin 2 → Fin S16384x2048.rank)
  dot_S16384x1024_S1024x2048_S16384x2048_1_0_0_1_n_n_wf : DotDims.WF S16384x1024 S1024x2048 S16384x2048 [1] [0] [0] [1] [] []
  dot_S16384x4096_S4096x8192_S16384x8192_1_0_0_1_n_n_wf : DotDims.WF S16384x4096 S4096x8192 S16384x8192 [1] [0] [0] [1] [] []
  dot_S16384x2048_S2048x2048_S16384x2048_1_0_0_1_n_n_wf : DotDims.WF S16384x2048 S2048x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x4096_S4096x8192_S16384x8192_1_0_0_1_n_n : DotDims S16384x4096 S4096x8192 S16384x8192 where
  lhsContracting := [1]
  rhsContracting := [0]
  lhsNonContracting := [0]
  rhsNonContracting := [1]
  lhsBatch := []
  rhsBatch := []
  wf := dot_S16384x4096_S4096x8192_S16384x8192_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.K.Reg0.lean ====
/-
  The projection stage (the program's first kernel region, `cc0__proj_kernel`), stated at any contents `V` of the
  core's buffers when the region is entered.

  The stage walks 32 grid points. At a point it loads a 512 x 1024 row block of its first operand, the whole
  1024 x 2048 weight matrix and the whole 1 x 2048 bias row (both staged once, at the first point, and left in
  place), and stores one 512 x 2048 tile: the row block times the matrix, plus the bias row on every row. This
  module names each window's block at a point, the stored tile as a pure term of the three loaded blocks, the
  body's triple, the proof data and the body obligation at every point.
-/
import proofs.«127285_j65532611002879_1_alg».proof.Proof.Gen.Kernel.Launch
import proofs.«127285_j65532611002879_1_alg».proof.Proof.Gen.Kernel.Skeleton
import proofs.«127285_j65532611002879_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point (it is fetched at every point), for any
    proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is staged at the first point only; its block index never moves, so the buffer holds the
    (whole-array) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is its whole buffer -/

abbrev r0_0 : Rect S512x1024 := Rect.unit (s := S512x1024) ![0, 0] S512x1024.size inb_S512x1024_S512x1024_0_0
abbrev r0_1 : Rect S1024x2048 := Rect.unit (s := S1024x2048) ![0, 0] S1024x2048.size inb_S1024x2048_S1024x2048_0_0
abbrev r0_2 : Rect S1x2048 := Rect.unit (s := S1x2048) ![0, 0] S1x2048.size inb_S1x2048_S1x2048_0_0
abbrev r0_3 : Rect S512x2048 := Rect.unit (s := S512x2048) ![0, 0] S512x2048.size inb_S512x2048_S512x2048_0_0

/-! ## What the body leaves in the output window's buffer -/

/-- The output buffer after the body, from the three input blocks: its one store (of the whole tile), the
    payload the skeleton's. -/
def out0_3 (x0 : Vec F S512x1024 .f32) (x1 : Vec F S1024x2048 .bf16) (x2 : Vec F S1x2048 .f32) : Vec F S512x2048 .f32 :=
  View.canon [⟨r0_3, k0_pay1 (View.ld x0 r0_0) (View.ld x1 r0_1) (View.ld x2 r0_2)⟩]

/-- The one store tiles the buffer, so it covers it. -/
theorem cover0_3 (p0 : Vec F S512x2048 .f32) (y : S512x2048.Idx) :
    ∃ pc ∈ ([⟨r0_3, p0⟩] : List (View.Piece (Elt F) S512x2048 .f32)), y ∈ pc.1.set :=
  View.cover_of_tiled [⟨r0_3, p0⟩] S512x2048.size (by rfl) y

/-! ## The body's triple -/

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords) (arg1 : Memref sig .tc .vmem S512x1024 .f32) (harg1 : arg1.IsWhole) (arg2 : Memref sig .tc .vmem S1024x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x1024 .f32) (x1 : Vec F S1024x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The stage's proof data on core `c`: the arrays as the region finds them; after the body at point `t` each
    input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  The error stage (the program's second kernel region, `cc1__err_kernel`), stated at any contents `V` of the
  core's buffers when the region is entered.

  The stage walks 32 grid points. At a point it loads a 512 x 2048 row block of its first operand, the whole
  2048 x 2048 weight matrix and the whole 1 x 2048 bias row (both staged once, at the first point, and left in
  place), and stores one 512 x 2048 tile: the logistic function of the row block times the matrix plus the bias
  row. This module names each window's block at a point, the stored tile as a pure term of the three loaded
  blocks, the body's triple, the proof data and the body obligation at every point.
-/
import proofs.«127285_j65532611002879_1_alg».proof.Proof.Gen.Kernel.Launch
import proofs.«127285_j65532611002879_1_alg».proof.Proof.Gen.Kernel.Skeleton
import proofs.«127285_j65532611002879_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point (it is fetched at every point), for any
    proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window is staged at the first point only; its block index never moves, so the buffer holds the
    (whole-array) block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is its whole buffer -/

abbrev r1_0 : Rect S512x2048 := Rect.unit (s := S512x2048) ![0, 0] S512x2048.size inb_S512x2048_S512x2048_0_0
abbrev r1_1 : Rect S2048x2048 := Rect.unit (s := S2048x2048) ![0, 0] S2048x2048.size inb_S2048x2048_S2048x2048_0_0
abbrev r1_2 : Rect S1x2048 := Rect.unit (s := S1x2048) ![0, 0] S1x2048.size inb_S1x2048_S1x2048_0_0
abbrev r1_3 : Rect S512x2048 := Rect.unit (s := S512x2048) ![0, 0] S512x2048.size inb_S512x2048_S512x2048_0_0

/-! ## What the body leaves in the output window's buffer -/

/-- The output buffer after the body, from the three input blocks: its one store (of the whole tile), the
    payload the skeleton's. -/
def out1_3 (x0 : Vec F S512x2048 .f32) (x1 : Vec F S2048x2048 .bf16) (x2 : Vec F S1x2048 .f32) : Vec F S512x2048 .f32 :=
  View.canon [⟨r1_3, k1_pay1 (View.ld x0 r1_0) (View.ld x1 r1_1) (View.ld x2 r1_2)⟩]

/-- The one store tiles the buffer, so it covers it. -/
theorem cover1_3 (p0 : Vec F S512x2048 .f32) (y : S512x2048.Idx) :
    ∃ pc ∈ ([⟨r1_3, p0⟩] : List (View.Piece (Elt F) S512x2048 .f32)), y ∈ pc.1.set :=
  View.cover_of_tiled [⟨r1_3, p0⟩] S512x2048.size (by rfl) y

/-! ## The body's triple -/

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords) (arg1 : Memref sig .tc .vmem S512x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x2048 .f32) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__err_kernel i arg1 harg1 arg2 harg2 arg3 harg3 arg4 harg4) K := by
  simp only [cc1__err_kernel_eq_skeleton]; unfold cc1__err_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The stage's proof data on core `c`: the arrays as the region finds them; after the body at point `t` each
    input's buffer at its block and the output's at `out1_3` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Q2.lean ====
/-
  The shares of the fused stage's windows. Each of the four gate matrices is handed to the stage twice, once
  for its upper half of rows and once for its lower half; the two windows on one matrix each hold half of
  the share of that array (the left and the right half of the full share), every other window the full share.
-/
import proofs.«127285_j65532611002879_1_alg».proof.Proof.Gen.Kernel

namespace Cert.Kernel.Hand

open Idealize.ShloMosaic Idealize.SL.RA

/-- Window `w`'s share of its array: windows 6, 8, 10, 12 (upper halves) the left half of the full share,
    windows 7, 9, 11, 13 (lower halves) the right half, all others the full share. -/
def q2 : Fin 20 → PosShare TreeShare
  | ⟨6, _⟩ => fullShare.left | ⟨8, _⟩ => fullShare.left | ⟨10, _⟩ => fullShare.left | ⟨12, _⟩ => fullShare.left
  | ⟨7, _⟩ => fullShare.right | ⟨9, _⟩ => fullShare.right | ⟨11, _⟩ => fullShare.right | ⟨13, _⟩ => fullShare.right
  | _ => fullShare

end Cert.Kernel.Hand
-- ==== Proof.K.Blk2.lean ====
/-
  What the fused stage stores at one grid point, as pure terms of the eighteen blocks it loads.

  At a point the stage reads the scaling scalar `ts`, the row blocks `pr` (proj) and `hid`, the tiles `cell`,
  `err`, `u`, for each gate the upper and lower weight tiles and the bias tile, and stores
    the new cell tile   ((σ g_f · (1 − u · c)) · cell + ((σ g_i · (1 + u)) · tanh g_c) · err) · ts
    the new hidden tile  σ g_o · tanh (new cell tile),
  each gate `g = pr · W_top + hid · W_bot + b`. The two definitions compose the body's named payloads in the
  order the body computes them.
-/
import proofs.«127285_j65532611002879_1_alg».proof.Proof.Gen.Kernel.Skeleton

noncomputable section

namespace Cert.Kernel.Hand

open Idealize.ShloMosaic Cert.Kernel Cert.Kernel.Gen

variable {F : FTy → Type} [FloatOps F]

/-- The sum of the forget and input terms before scaling (the body's `%69`). -/
def preCellBlk (pr hid : Vec F S512x2048 .f32) (cell err u : Vec F S512x128 .f32)
    (wft wfb wit wib wct wcb : Vec F S2048x128 .bf16) (bf bi bc : Vec F S1x128 .f32) : FVec F S512x128 .f32 :=
  k2_pay9 (k2_pay4 hid) (k2_pay5 pr hid wft wfb bf) (k2_pay6 pr hid wit wib bi) (k2_pay7 pr wct) wcb bc u cell err

/-- The new cell tile (what the stage stores through its second output window). -/
def cellBlk (ts : Vec F S1x1 .f32) (pr hid : Vec F S512x2048 .f32) (cell err u : Vec F S512x128 .f32)
    (wft wfb wit wib wct wcb : Vec F S2048x128 .bf16) (bf bi bc : Vec F S1x128 .f32) : FVec F S512x128 .f32 :=
  k2_pay1 (preCellBlk pr hid cell err u wft wfb wit wib wct wcb bf bi bc) ts

/-- The new hidden tile (what the stage stores through its first output window). -/
def hidBlk (ts : Vec F S1x1 .f32) (pr hid : Vec F S512x2048 .f32) (cell err u : Vec F S512x128 .f32)
    (wft wfb wit wib wct wcb wot wob : Vec F S2048x128 .bf16) (bf bi bc bo : Vec F S1x128 .f32) : FVec F S512x128 .f32 :=
  k2_pay2 (k2_pay8 (k2_pay3 pr) (k2_pay4 hid) wot wob bo) (preCellBlk pr hid cell err u wft wfb wit wib wct wcb bf bi bc) ts

end Cert.Kernel.Hand

end
-- ==== Proof.K.Reg2.lean ====
/-
  The fused stage (the third kernel call of the program) at one grid point, and the data the pipeline's
  rule wants of it.

  The stage runs over a 32 x 16 grid. At a point it is handed twenty staging buffers: eighteen hold the
  blocks of its inputs (the scaling scalar; the row blocks of the projection and of the hidden state; the
  tiles of the cell state, of the error term and of the mixing term; for each of the four gates the upper
  and the lower weight tile; the four bias tiles), two receive what it stores (the new hidden tile and the
  new cell tile). The body loads each input buffer whole, and fills each output buffer by ONE store of the
  whole buffer, so what an output buffer holds afterwards is that store's payload: a pure term of the
  eighteen loaded blocks (`hidBlk`, `cellBlk`).

  Every input window's blocks tile its array and no window is ever idle, so an input's staging buffer holds
  the array's block at the point whether the point fetched it or an earlier one did. The shares of the arrays
  (two windows may read one weight matrix) concern the arrays only: the staging buffers are held whole.
-/
import proofs.«127285_j65532611002879_1_alg».proof.Proof.Gen.Kernel.Launch
import proofs.«127285_j65532611002879_1_alg».proof.Proof.Gen.Kernel.Skeleton
import proofs.«127285_j65532611002879_1_alg».proof.Proof.Gen.Kernel.Points
import proofs.«127285_j65532611002879_1_alg».proof.Proof.K.Q2
import proofs.«127285_j65532611002879_1_alg».proof.Proof.K.Blk2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the stage is entered
variable (V : (c : Dev nD) → (b : Ref sig .tc) → Buf (Elt F) ((c : Thread nD τ).loc b))

/-! ## The windows' blocks -/

/-- Window `w`'s block at point `t`, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each buffer whole, through the rectangle at zero offsets of the buffer's own sizes -/

abbrev rS1x1 : Rect S1x1 := Rect.unit (s := S1x1) ![0, 0] S1x1.size inb_S1x1_S1x1_0_0
abbrev rS512x2048 : Rect S512x2048 := Rect.unit (s := S512x2048) ![0, 0] S512x2048.size inb_S512x2048_S512x2048_0_0
abbrev rS512x128 : Rect S512x128 := Rect.unit (s := S512x128) ![0, 0] S512x128.size inb_S512x128_S512x128_0_0
abbrev rS2048x128 : Rect S2048x128 := Rect.unit (s := S2048x128) ![0, 0] S2048x128.size inb_S2048x128_S2048x128_0_0
abbrev rS1x128 : Rect S1x128 := Rect.unit (s := S1x128) ![0, 0] S1x128.size inb_S1x128_S1x128_0_0

/-! ## What the body leaves in each output buffer -/

/-- The hidden-state output's buffer after the body, from the input blocks: its one store, of the new hidden tile. -/
def out2_18 (x0 : Vec F S1x1 .f32) (x1 x2 : Vec F S512x2048 .f32) (x3 x4 x5 : Vec F S512x128 .f32)
    (x6 x7 x8 x9 x10 x11 x12 x13 : Vec F S2048x128 .bf16) (x14 x15 x16 x17 : Vec F S1x128 .f32) : Vec F S512x128 .f32 :=
  View.canon [⟨rS512x128, hidBlk (View.ld x0 rS1x1) (View.ld x1 rS512x2048) (View.ld x2 rS512x2048)
    (View.ld x3 rS512x128) (View.ld x4 rS512x128) (View.ld x5 rS512x128)
    (View.ld x6 rS2048x128) (View.ld x7 rS2048x128) (View.ld x8 rS2048x128) (View.ld x9 rS2048x128)
    (View.ld x10 rS2048x128) (View.ld x11 rS2048x128) (View.ld x12 rS2048x128) (View.ld x13 rS2048x128)
    (View.ld x14 rS1x128) (View.ld x15 rS1x128) (View.ld x16 rS1x128) (View.ld x17 rS1x128)⟩]

/-- The cell-state output's buffer after the body: its one store, of the new cell tile (the output gate's
    weights and bias, blocks 12, 13 and 17, do not enter it). -/
def out2_19 (x0 : Vec F S1x1 .f32) (x1 x2 : Vec F S512x2048 .f32) (x3 x4 x5 : Vec F S512x128 .f32)
    (x6 x7 x8 x9 x10 x11 x12 x13 : Vec F S2048x128 .bf16) (x14 x15 x16 x17 : Vec F S1x128 .f32) : Vec F S512x128 .f32 :=
  View.canon [⟨rS512x128, cellBlk (View.ld x0 rS1x1) (View.ld x1 rS512x2048) (View.ld x2 rS512x2048)
    (View.ld x3 rS512x128) (View.ld x4 rS512x128) (View.ld x5 rS512x128)
    (View.ld x6 rS2048x128) (View.ld x7 rS2048x128) (View.ld x8 rS2048x128) (View.ld x9 rS2048x128)
    (View.ld x10 rS2048x128) (View.ld x11 rS2048x128)
    (View.ld x14 rS1x128) (View.ld x15 rS1x128) (View.ld x16 rS1x128)⟩]

/-- The offsets of a whole-buffer access of rank two, as the constant function. -/
theorem zero2 : (![0, 0] : Fin 2 → ℕ) = fun _ => 0 := funext fun a => by fin_cases a <;> rfl

/-- One store of the whole buffer covers it. -/
theorem cover2 (p0 : Vec F S512x128 .f32) (y : S512x128.Idx) :
    ∃ pc ∈ ([⟨rS512x128, p0⟩] : List (View.Piece (Elt F) S512x128 .f32)), y ∈ pc.1.set :=
  ⟨_, List.mem_singleton_self _, View.mem_set_unit_zero (S := S512x128) zero2 inb_S512x128_S512x128_0_0 y⟩

/-! ## The body's triple -/

set_option maxHeartbeats 4000000 in
/-- The body on whole staging buffers, the inputs' at read contents `x0 … x17` and the outputs' at anything, runs
    to the continuation holding the inputs' as they were, the hidden output's at `out2_18` of the inputs and the
    cell output's at `out2_19` of them: the body is its sequence of loads and of two stores over the named
    payloads, through both of its printed parts, and the two stored payloads are the compositions
    `hidBlk` and `cellBlk` name. -/
theorem sound_kernel2 (c : Dev nD) (E : Set ℕ) (i : grid2.Coords)
    (a0 : Memref sig .tc .vmem S1x1 .f32) (h0 : a0.IsWhole)
    (a1 : Memref sig .tc .vmem S512x2048 .f32) (h1 : a1.IsWhole)
    (a2 : Memref sig .tc .vmem S512x2048 .f32) (h2 : a2.IsWhole)
    (a3 : Memref sig .tc .vmem S512x128 .f32) (h3 : a3.IsWhole)
    (a4 : Memref sig .tc .vmem S512x128 .f32) (h4 : a4.IsWhole)
    (a5 : Memref sig .tc .vmem S512x128 .f32) (h5 : a5.IsWhole)
    (a6 : Memref sig .tc .vmem S2048x128 .bf16) (h6 : a6.IsWhole)
    (a7 : Memref sig .tc .vmem S2048x128 .bf16) (h7 : a7.IsWhole)
    (a8 : Memref sig .tc .vmem S2048x128 .bf16) (h8 : a8.IsWhole)
    (a9 : Memref sig .tc .vmem S2048x128 .bf16) (h9 : a9.IsWhole)
    (a10 : Memref sig .tc .vmem S2048x128 .bf16) (h10 : a10.IsWhole)
    (a11 : Memref sig .tc .vmem S2048x128 .bf16) (h11 : a11.IsWhole)
    (a12 : Memref sig .tc .vmem S2048x128 .bf16) (h12 : a12.IsWhole)
    (a13 : Memref sig .tc .vmem S2048x128 .bf16) (h13 : a13.IsWhole)
    (a14 : Memref sig .tc .vmem S1x128 .f32) (h14 : a14.IsWhole)
    (a15 : Memref sig .tc .vmem S1x128 .f32) (h15 : a15.IsWhole)
    (a16 : Memref sig .tc .vmem S1x128 .f32) (h16 : a16.IsWhole)
    (a17 : Memref sig .tc .vmem S1x128 .f32) (h17 : a17.IsWhole)
    (a18 : Memref sig .tc .vmem S512x128 .f32) (h18 : a18.IsWhole)
    (a19 : Memref sig .tc .vmem S512x128 .f32) (h19 : a19.IsWhole)
    (x0 : Vec F S1x1 .f32) (x1 x2 : Vec F S512x2048 .f32) (x3 x4 x5 : Vec F S512x128 .f32)
    (x6 x7 x8 x9 x10 x11 x12 x13 : Vec F S2048x128 .bf16) (x14 x15 x16 x17 : Vec F S1x128 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ owns (c : Thread nD τ) a9 fullShare x9 ∗ owns (c : Thread nD τ) a10 fullShare x10 ∗ owns (c : Thread nD τ) a11 fullShare x11
        ∗ owns (c : Thread nD τ) a12 fullShare x12 ∗ owns (c : Thread nD τ) a13 fullShare x13 ∗ owns (c : Thread nD τ) a14 fullShare x14
        ∗ owns (c : Thread nD τ) a15 fullShare x15 ∗ owns (c : Thread nD τ) a16 fullShare x16 ∗ owns (c : Thread nD τ) a17 fullShare x17
        ∗ (∃ d, owns (c : Thread nD τ) a18 fullShare d) ∗ (∃ d, owns (c : Thread nD τ) a19 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7 ∗ owns (c : Thread nD τ) a8 fullShare x8
            ∗ owns (c : Thread nD τ) a9 fullShare x9 ∗ owns (c : Thread nD τ) a10 fullShare x10 ∗ owns (c : Thread nD τ) a11 fullShare x11
            ∗ owns (c : Thread nD τ) a12 fullShare x12 ∗ owns (c : Thread nD τ) a13 fullShare x13 ∗ owns (c : Thread nD τ) a14 fullShare x14
            ∗ owns (c : Thread nD τ) a15 fullShare x15 ∗ owns (c : Thread nD τ) a16 fullShare x16 ∗ owns (c : Thread nD τ) a17 fullShare x17
            ∗ owns (c : Thread nD τ) a18 fullShare (out2_18 x0 x1 x2 x3 x4 x5 x6 x7 x8 x9 x10 x11 x12 x13 x14 x15 x16 x17)
            ∗ owns (c : Thread nD τ) a19 fullShare (out2_19 x0 x1 x2 x3 x4 x5 x6 x7 x8 x9 x10 x11 x12 x13 x14 x15 x16 x17)) -∗ K ⟨⟩))
      ⊢ wp frame (wpE (defs₀ (F := F)) Variants.none c none) E
          (cc2__fused_kernel i a0 h0 a1 h1 a2 h2 a3 h3 a4 h4 a5 h5 a6 h6 a7 h7 a8 h8 a9 h9 a10 h10 a11 h11 a12 h12 a13 h13
            a14 h14 a15 h15 a16 h16 a17 h17 a18 h18 a19 h19) K := by
  simp only [cc2__fused_kernel_eq_skeleton]; unfold cc2__fused_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩, ⟨%f17, %hf17, H17⟩,
    ⟨%d18, %f18, -, H18⟩, ⟨%d19, %f19, -, H19⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    exact View.read_writes_eq_canon _ _ _ (cover2 _)
  iexists _; isplitr
  swap; · iexact H19
  ipureintro
  exact View.read_writes_eq_canon _ _ _ (cover2 _)

/-! ## Each input's staging buffer holds its block -/

/-- Input window 0's current staging buffer holds its block at every point, fetched there or not, for ANY proof
    data whose array is the entry contents (`hA`) and whose body leaves the block in place (`hafter`): where the
    point does not fetch, the window's index has not moved since the fetch, the window's blocks tile the array and
    the window is never idle. Likewise for each of the other seventeen inputs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of the fused stage on core `c`: the arrays as the stage finds them; after the body at point `t`
    each input's buffer at its block, the hidden output's at `out2_18` of the input blocks and the cell output's at
    `out2_19` of them; the invariant the scoped rest and the generator register, untouched; nothing owed; of each
    array the share `q2` gives its window (half for each of two windows on one weight matrix). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => out2_18 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
        (iblk2 V c 13 t) (iblk2 V c 14 t) (iblk2 V c 15 t) (iblk2 V c 16 t) (iblk2 V c 17 t)
    | ⟨19, _⟩ => out2_19 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
        (iblk2 V c 13 t) (iblk2 V c 14 t) (iblk2 V c 15 t) (iblk2 V c 16 t) (iblk2 V c 17 t)
    | ⟨_ + 20, h⟩ => absurd h (Nat.not_lt.2 (Nat.le_add_left _ _))
  Φ _ := Pipeline.ΦA spec2 c
  q := q2
  owed _ := 0

/-- The proof data's arrays are the entry contents. -/
theorem A_eq2 (c : Dev nD) (w : Fin cfg2.W) : (dat2 V c).A w = V c (Pipeline.arrRef spec2 w) := by
  dsimp only [dat2]

/-- The proof data's shares are `q2`'s. -/
theorem q_eq2 (c : Dev nD) (w : Fin cfg2.W) : (dat2 V c).q w = q2 w := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t =
    out2_18 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t) (iblk2 V c 12 t)
      (iblk2 V c 13 t) (iblk2 V c 14 t) (iblk2 V c 15 t) (iblk2 V c 16 t) (iblk2 V c 17 t) := by dsimp only [dat2]
theorem after2_19 (c : Dev nD) (t : Fin cfg2.N) : (dat2 V c).after 19 t =
    out2_19 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t) (iblk2 V c 12 t)
      (iblk2 V c 13 t) (iblk2 V c 14 t) (iblk2 V c 15 t) (iblk2 V c 16 t) (iblk2 V c 17 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d

/-! ## The body obligation, at a generic point -/

/-- What the body is called with at point `t` (the rule's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t))

set_option maxHeartbeats 1000000 in
/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9,
    before2_10, before2_11, before2_12, before2_13, before2_14, before2_15, before2_16, before2_17]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9,
    after2_10, after2_11, after2_12, after2_13, after2_14, after2_15, after2_16, after2_17, after2_18, after2_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel2 c Set.univ _ _ _ _ _ _ _ _ _ _ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) (iblk2 V c 13 t)
    (iblk2 V c 14 t) (iblk2 V c 15 t) (iblk2 V c 16 t) (iblk2 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The rule's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Share2.lean ====
/-
  Entry and exit of the fused stage's arrays.

  The fused stage reads eighteen windows and writes two, over sixteen distinct arrays: each of the four gate
  matrices stands behind TWO windows (one for its upper half of rows, one for its lower half). At entry the
  core holds every unscoped buffer whole at the full share. The sixteen buffers behind the windows' arrays are
  taken out of them; each of the four shared buffers, held at the full share, is split along the share into
  its left half (for the upper window) and its right half (for the lower window), both at the same contents.
  At exit the two halves of each shared buffer, which hold the same contents because both are read off one
  valuation, join back into the full share, and the two written arrays come back at their new contents.
-/
import proofs.«127285_j65532611002879_1_alg».proof.Proof.Gen.Kernel.Launch
import proofs.«127285_j65532611002879_1_alg».proof.Proof.K.Q2
import Idealize.ShloMosaic.Lib.Pipeline.RegionsLoop
import Idealize.ShloMosaic.Lib.Pipeline.Frame
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The sixteen buffers behind the twenty windows -/

/-- The sixteen distinct buffers behind the twenty windows' arrays, in window order. -/
def arrList2 : List (Ref sig .tc) :=
  [main_v12, main_v14, main_arg1, main_arg2, main_v15, main_v13, main_v2, main_v3, main_v4, main_v5,
    main_v8, main_v9, main_v10, main_v11, main_v16_0, main_v16_1]

/-- The windows' arrays are exactly those sixteen (windows 6/7, 8/9, 10/11, 12/13 pairwise on one). -/
theorem arrImage2 : Finset.univ.image (Pipeline.arrRef spec2) = arrList2.toFinset := by decide

theorem arrList2_nodup : arrList2.Nodup := by decide

/-- Every window's array is an unscoped buffer. -/
theorem arr_unscoped2 : ∀ w, (Pipeline.arrRef spec2 w).isScoped = false := by decide

/-- The share the core holds window `w`'s array at is `q2 w`: an output's is full, and `q2` is full there. -/
theorem share2 (c : Dev nD) (dat : Pipeline.Dat τ (Elt F) Unit ℕ (UR sig nD τ) ℕ cfg2 c) (hq : ∀ w, dat.q w = q2 w) :
    ∀ w, dat.share w = q2 w := fun w => by
  unfold Pipeline.Dat.share; rw [hq]
  revert w; decide

/-- Buffer `b` whole, at share `q`, at its contents under the valuation `V`. -/
abbrev at2 (c : Dev nD) (V : (b : Ref sig .tc) → Buf (Elt F) ((c : Thread nD τ).loc b)) (q : PosShare TreeShare)
    (b : Ref sig .tc) : sProp 𝕄 :=
  ((c : Thread nD τ).loc b) ↦{q} V b

/-- The sixteen buffers, each whole at the full share, one by one. -/
theorem arrBufs2_eq (c : Dev nD) (V : (b : Ref sig .tc) → Buf (Elt F) ((c : Thread nD τ).loc b)) :
    (Pipeline.arrBufs spec2 c V : sProp 𝕄)
      = iprop(at2 c V fullShare main_v12 ∗ at2 c V fullShare main_v14 ∗ at2 c V fullShare main_arg1
          ∗ at2 c V fullShare main_arg2 ∗ at2 c V fullShare main_v15 ∗ at2 c V fullShare main_v13
          ∗ at2 c V fullShare main_v2 ∗ at2 c V fullShare main_v3 ∗ at2 c V fullShare main_v4 ∗ at2 c V fullShare main_v5
          ∗ at2 c V fullShare main_v8 ∗ at2 c V fullShare main_v9 ∗ at2 c V fullShare main_v10 ∗ at2 c V fullShare main_v11
          ∗ at2 c V fullShare main_v16_0 ∗ at2 c V fullShare main_v16_1) := by
  unfold Pipeline.arrBufs
  exact bigSep_eq_bigSepL_of_eq arrList2 arrImage2 arrList2_nodup _

/-- The twenty windows' arrays, each at its window's share, one by one: a shared matrix appears twice, at the
    left half for its upper window and at the right half for its lower one. -/
theorem wins2_eq (c : Dev nD) (V : (b : Ref sig .tc) → Buf (Elt F) ((c : Thread nD τ).loc b)) :
    (bigSep Finset.univ fun w : Fin 20 => at2 c V (q2 w) (Pipeline.arrRef spec2 w))
      = iprop(at2 c V fullShare main_v12 ∗ at2 c V fullShare main_v14 ∗ at2 c V fullShare main_arg1
          ∗ at2 c V fullShare main_arg2 ∗ at2 c V fullShare main_v15 ∗ at2 c V fullShare main_v13
          ∗ at2 c V fullShare.left main_v2 ∗ at2 c V fullShare.right main_v2
          ∗ at2 c V fullShare.left main_v3 ∗ at2 c V fullShare.right main_v3
          ∗ at2 c V fullShare.left main_v4 ∗ at2 c V fullShare.right main_v4
          ∗ at2 c V fullShare.left main_v5 ∗ at2 c V fullShare.right main_v5
          ∗ at2 c V fullShare main_v8 ∗ at2 c V fullShare main_v9 ∗ at2 c V fullShare main_v10 ∗ at2 c V fullShare main_v11
          ∗ at2 c V fullShare main_v16_0 ∗ at2 c V fullShare main_v16_1) := by
  rw [bigSep_W2]; rfl

/-! ## Splitting along the share, and joining back -/

/-- ENTRY, window by window: a shared matrix's buffer at the full share is its left half beside its right half
    (`pointsTo_share`), both at the same contents; every other buffer goes to its one window whole. -/
theorem arrBufs2_split (c : Dev nD) (V : (b : Ref sig .tc) → Buf (Elt F) ((c : Thread nD τ).loc b)) :
    (Pipeline.arrBufs spec2 c V : sProp 𝕄)
      ⊢ bigSep Finset.univ fun w : Fin 20 => at2 c V (q2 w) (Pipeline.arrRef spec2 w) := by
  rw [arrBufs2_eq, wins2_eq]
  iintro ⟨H0, H1, H2, H3, H4, H5, B2, B3, B4, B5, H14, H15, H16, H17, H18, H19⟩
  ihave S2 := (pointsTo_share (PosShare.mem_left_op_right fullShare)).1 $$ B2
  icases S2 with ⟨L2, R2⟩
  ihave S3 := (pointsTo_share (PosShare.mem_left_op_right fullShare)).1 $$ B3
  icases S3 with ⟨L3, R3⟩
  ihave S4 := (pointsTo_share (PosShare.mem_left_op_right fullShare)).1 $$ B4
  icases S4 with ⟨L4, R4⟩
  ihave S5 := (pointsTo_share (PosShare.mem_left_op_right fullShare)).1 $$ B5
  icases S5 with ⟨L5, R5⟩
  isplitl [H0]; · iexact H0
  isplitl [H1]; · iexact H1
  isplitl [H2]; · iexact H2
  isplitl [H3]; · iexact H3
  isplitl [H4]; · iexact H4
  isplitl [H5]; · iexact H5
  isplitl [L2]; · iexact L2
  isplitl [R2]; · iexact R2
  isplitl [L3]; · iexact L3
  isplitl [R3]; · iexact R3
  isplitl [L4]; · iexact L4
  isplitl [R4]; · iexact R4
  isplitl [L5]; · iexact L5
  isplitl [R5]; · iexact R5
  isplitl [H14]; · iexact H14
  isplitl [H15]; · iexact H15
  isplitl [H16]; · iexact H16
  isplitl [H17]; · iexact H17
  isplitl [H18]; · iexact H18
  iexact H19

/-- EXIT, window by window: the two halves of a shared matrix's buffer, at the same contents, are the buffer at
    the full share again. -/
theorem arrBufs2_join (c : Dev nD) (V : (b : Ref sig .tc) → Buf (Elt F) ((c : Thread nD τ).loc b)) :
    (bigSep Finset.univ fun w : Fin 20 => at2 c V (q2 w) (Pipeline.arrRef spec2 w))
      ⊢ (Pipeline.arrBufs spec2 c V : sProp 𝕄) := by
  rw [arrBufs2_eq, wins2_eq]
  iintro ⟨H0, H1, H2, H3, H4, H5, L2, R2, L3, R3, L4, R4, L5, R5, H14, H15, H16, H17, H18, H19⟩
  isplitl [H0]; · iexact H0
  isplitl [H1]; · iexact H1
  isplitl [H2]; · iexact H2
  isplitl [H3]; · iexact H3
  isplitl [H4]; · iexact H4
  isplitl [H5]; · iexact H5
  isplitl [L2 R2]
  · iapply (pointsTo_share (PosShare.mem_left_op_right fullShare)).2
    isplitl [L2]; · iexact L2
    iexact R2
  isplitl [L3 R3]
  · iapply (pointsTo_share (PosShare.mem_left_op_right fullShare)).2
    isplitl [L3]; · iexact L3
    iexact R3
  isplitl [L4 R4]
  · iapply (pointsTo_share (PosShare.mem_left_op_right fullShare)).2
    isplitl [L4]; · iexact L4
    iexact R4
  isplitl [L5 R5]
  · iapply (pointsTo_share (PosShare.mem_left_op_right fullShare)).2
    isplitl [L5]; · iexact L5
    iexact R5
  isplitl [H14]; · iexact H14
  isplitl [H15]; · iexact H15
  isplitl [H16]; · iexact H16
  isplitl [H17]; · iexact H17
  isplitl [H18]; · iexact H18
  iexact H19

/-! ## The region's entry and exit -/

/-- The windowed arrays at contents read off a valuation `V` are the windows' buffers at their shares under `V`:
    every array is a whole buffer, held at `q2`'s share. -/
theorem arrays2_eq (c : Dev nD) (dat : Pipeline.Dat τ (Elt F) Unit ℕ (UR sig nD τ) ℕ cfg2 c) (hq : ∀ w, dat.q w = q2 w)
    (V : (b : Ref sig .tc) → Buf (Elt F) ((c : Thread nD τ).loc b))
    (G : (w : Fin cfg2.W) → Buf (Elt F) ((cfg2.win w).arr.view.loc (c.tc : Thread nD τ)))
    (hG : ∀ w, G w = V (Pipeline.arrRef spec2 w)) :
    (dat.arrays G : sProp 𝕄) = bigSep Finset.univ fun w : Fin 20 => at2 c V (q2 w) (Pipeline.arrRef spec2 w) := by
  unfold Pipeline.Dat.arrays
  exact bigSep_congr fun w _ => by rw [(arr_whole2 w).set_eq_univ, share2 c dat hq w, hG]

/-- ENTRY: a core's unscoped buffers at contents `V` are the fused stage's arrays at the proof data's entry
    contents, those being read off `V`, and the unscoped rest. -/
theorem entry2 (c : Dev nD) (dat : Pipeline.Dat τ (Elt F) Unit ℕ (UR sig nD τ) ℕ cfg2 c) (hq : ∀ w, dat.q w = q2 w)
    (V : (b : Ref sig .tc) → Buf (Elt F) ((c : Thread nD τ).loc b)) (hA : ∀ w, dat.A w = V (Pipeline.arrRef spec2 w)) :
    (unscopedBufs c V : sProp 𝕄) ⊢ iprop(dat.arrays (dat.arrAt · 0) ∗ Pipeline.unscopedRest spec2 c V) := by
  rw [Pipeline.unscopedBufs_split₀ (fun _ : Unit => cfg2) () arr_unscoped2 c V,
    arrays2_eq c dat hq V (dat.arrAt · 0) fun w => (show dat.arrAt w 0 = dat.A w from rfl).trans (hA w)]
  exact sep_mono (arrBufs2_split c V) .rfl

/-- EXIT: the fused stage's arrays at contents `G` and the unscoped rest at `V` are the core's unscoped buffers
    at any valuation `V'` that has the arrays at `G` and agrees with `V` off them. -/
theorem exit2 (c : Dev nD) (dat : Pipeline.Dat τ (Elt F) Unit ℕ (UR sig nD τ) ℕ cfg2 c) (hq : ∀ w, dat.q w = q2 w)
    (V V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w)) (hrest : ∀ b, b ∉ Finset.univ.image (Pipeline.arrRef spec2) → V' b = V b) :
    iprop(dat.arrays G ∗ Pipeline.unscopedRest spec2 c V) ⊢ (unscopedBufs c V' : sProp 𝕄) := by
  rw [Pipeline.unscopedBufs_split₀ (fun _ : Unit => cfg2) () arr_unscoped2 c V', arrays2_eq c dat hq V' G hG]
  refine sep_mono (arrBufs2_join c V') (Entails.of_eq ?_)
  unfold Pipeline.unscopedRest
  exact bigSep_congr fun b hb => by rw [hrest b (Finset.mem_sdiff.mp hb).2]

/-- info: 'Cert.Kernel.Hand.entry2' depends on axioms: [propext, Classical.choice, Quot.sound] -/
#guard_msgs in #print axioms entry2
/-- info: 'Cert.Kernel.Hand.exit2' depends on axioms: [propext, Classical.choice, Quot.sound] -/
#guard_msgs in #print axioms exit2

end Cert.Kernel.Hand

end
-- ==== Proof.K.Run.lean ====
/-
  The run of the whole program: host operations, then the three kernel stages, each entered from what the
  item before it left.

  Between two items a core holds every unscoped buffer at a named valuation: `W0` the launch memory, `W1`
  after the host operations, `W2` with the projection's result array at what that stage's write-backs leave,
  `W3` likewise after the error-attention stage, `W4` with the two results of the fused stage. A stage's
  windows' arrays are split out of the held buffers at its entry and put back at its exit; in the fused stage
  the four weight matrices are each read through two windows, which share the matrix's buffer half and half.
  The run's post names every unscoped buffer of every core at `W4`: the frame (each argument as launched) and
  the two results are read off it.
-/
import proofs.«127285_j65532611002879_1_alg».proof.Proof.Gen.Kernel.Regions
import proofs.«127285_j65532611002879_1_alg».proof.Proof.K.Reg0
import proofs.«127285_j65532611002879_1_alg».proof.Proof.K.Reg1
import proofs.«127285_j65532611002879_1_alg».proof.Proof.K.Reg2
import proofs.«127285_j65532611002879_1_alg».proof.Proof.K.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m ((c : Dev nD), b)
/-- After the host operations. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- What the projection stage's write-backs leave in its result array. -/
def X2 (c : Dev nD) : Buf (Elt F) ((c : Thread nD τ).loc main_v14) := (dat0 (V1 m) c).arrAt 3 cfg0.N
/-- After the projection stage: its result array at `X2`, every other buffer as before. -/
def W2 (c : Dev nD) : Valuation τ sig (Elt F) := Function.update (W1 m c) main_v14 (X2 m c)
abbrev V2 : (c : Dev nD) → (b : Ref sig .tc) → Buf (Elt F) ((c : Thread nD τ).loc b) := fun c b => W2 m c b
/-- What the error-attention stage leaves in its result array. -/
def X3 (c : Dev nD) : Buf (Elt F) ((c : Thread nD τ).loc main_v15) := (dat1 (V2 m) c).arrAt 3 cfg1.N
def W3 (c : Dev nD) : Valuation τ sig (Elt F) := Function.update (W2 m c) main_v15 (X3 m c)
abbrev V3 : (c : Dev nD) → (b : Ref sig .tc) → Buf (Elt F) ((c : Thread nD τ).loc b) := fun c b => W3 m c b
/-- What the fused stage leaves in its two result arrays. -/
def X4h (c : Dev nD) : Buf (Elt F) ((c : Thread nD τ).loc main_v16_0) := (dat2 (V3 m) c).arrAt 18 cfg2.N
def X4c (c : Dev nD) : Buf (Elt F) ((c : Thread nD τ).loc main_v16_1) := (dat2 (V3 m) c).arrAt 19 cfg2.N
def W4 (c : Dev nD) : Valuation τ sig (Elt F) :=
  Function.update (Function.update (W3 m c) main_v16_0 (X4h m c)) main_v16_1 (X4c m c)
abbrev V4 : (c : Dev nD) → (b : Ref sig .tc) → Buf (Elt F) ((c : Thread nD τ).loc b) := fun c b => W4 m c b

/-! ## What each item leaves unchanged, and what it writes -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v14] : List (Ref sig .tc))) : W2 m c r = W1 m c r := by
  simp only [W2, Function.update_of_ne (StableHlo.devRef_ne_of_ne (List.ne_of_not_mem_cons h) : (Proc.devRef .tc r : DevRef τ sig) ≠ Proc.devRef .tc main_v14)]
theorem W3_of (c : Dev nD) (r : Ref sig .tc) (h : r ∉ ([main_v15] : List (Ref sig .tc))) : W3 m c r = W2 m c r := by
  simp only [W3, Function.update_of_ne (StableHlo.devRef_ne_of_ne (List.ne_of_not_mem_cons h) : (Proc.devRef .tc r : DevRef τ sig) ≠ Proc.devRef .tc main_v15)]
theorem W4_of (c : Dev nD) (r : Ref sig .tc) (h : r ∉ ([main_v16_0, main_v16_1] : List (Ref sig .tc))) : W4 m c r = W3 m c r := by
  simp only [W4, Function.update_of_ne (StableHlo.devRef_ne_of_ne (List.ne_of_not_mem_cons h) : (Proc.devRef .tc r : DevRef τ sig) ≠ Proc.devRef .tc main_v16_0), Function.update_of_ne (StableHlo.devRef_ne_of_ne (List.ne_of_not_mem_cons (List.not_mem_of_not_mem_cons h)) : (Proc.devRef .tc r : DevRef τ sig) ≠ Proc.devRef .tc main_v16_1)]

theorem W2_v14 (c : Dev nD) : W2 m c main_v14 = X2 m c := by simp only [W2, Function.update_self]
theorem W3_v15 (c : Dev nD) : W3 m c main_v15 = X3 m c := by simp only [W3, Function.update_self]
theorem W4_v16_1 (c : Dev nD) : W4 m c main_v16_1 = X4c m c := by simp only [W4, Function.update_self]
theorem W4_v16_0 (c : Dev nD) : W4 m c main_v16_0 = X4h m c := by
  simp only [W4, Function.update_of_ne (StableHlo.devRef_ne_of_ne (by decide) : (Proc.devRef .tc main_v16_0 : DevRef τ sig) ≠ Proc.devRef .tc main_v16_1), Function.update_self]

/-- A buffer no item writes holds at the end what the launch gave it. -/
theorem W4_kept (c : Dev nD) (r : Ref sig .tc) (h4 : r ∉ ([main_v16_0, main_v16_1] : List (Ref sig .tc)))
    (h3 : r ∉ ([main_v15] : List (Ref sig .tc))) (h2 : r ∉ ([main_v14] : List (Ref sig .tc))) (h1 : r ∉ hostOps0_W) :
    W4 m c r = m ((c : Thread nD τ).loc r) :=
  (W4_of m c r h4).trans <| (W3_of m c r h3).trans <| (W2_of m c r h2).trans <| (W1_of m c r h1).trans rfl

/-! ## Each stage's arrays at its exit: an input's as entered, the result's at what the write-backs leave -/

theorem in0 : ∀ w : Fin 4, (win0 w).isOut = false → Pipeline.arrRef spec0 w ∉ ([main_v14] : List (Ref sig .tc)) := by decide
theorem out0 : ∀ w : Fin 4, (win0 w).isOut = true → w = 3 := by decide
theorem in1 : ∀ w : Fin 4, (win1 w).isOut = false → Pipeline.arrRef spec1 w ∉ ([main_v15] : List (Ref sig .tc)) := by decide
theorem out1 : ∀ w : Fin 4, (win1 w).isOut = true → w = 3 := by decide
theorem in2 : ∀ w : Fin 20, (win2 w).isOut = false → Pipeline.arrRef spec2 w ∉ ([main_v16_0, main_v16_1] : List (Ref sig .tc)) := by decide
theorem out2 : ∀ w : Fin 20, (win2 w).isOut = true → w = 18 ∨ w = 19 := by decide

theorem hF0 (c : Dev nD) (w : Fin cfg0.W) : (dat0 (V1 m) c).arrAt w cfg0.N = V2 m c (Pipeline.arrRef spec0 w) := by
  by_cases hw : (cfg0.win w).isOut = true
  · obtain rfl := out0 w hw
    exact (W2_v14 m c).symm
  · have hw' : (cfg0.win w).isOut = false := by simpa using hw
    exact ((dat0 (V1 m) c).arrAt_in w hw' _).trans ((A_eq0 (V1 m) c w).trans (W2_of m c _ (in0 w hw')).symm)
theorem hrest0 (c : Dev nD) : ∀ b, b ∉ Finset.univ.image (Pipeline.arrRef spec0) → V2 m c b = V1 m c b :=
  fun b hb => W2_of m c b fun hm => hb (Finset.mem_image.mpr ⟨3, Finset.mem_univ _, (List.mem_singleton.mp hm).symm⟩)

theorem hF1 (c : Dev nD) (w : Fin cfg1.W) : (dat1 (V2 m) c).arrAt w cfg1.N = V3 m c (Pipeline.arrRef spec1 w) := by
  by_cases hw : (cfg1.win w).isOut = true
  · obtain rfl := out1 w hw
    exact (W3_v15 m c).symm
  · have hw' : (cfg1.win w).isOut = false := by simpa using hw
    exact ((dat1 (V2 m) c).arrAt_in w hw' _).trans ((A_eq1 (V2 m) c w).trans (W3_of m c _ (in1 w hw')).symm)
theorem hrest1 (c : Dev nD) : ∀ b, b ∉ Finset.univ.image (Pipeline.arrRef spec1) → V3 m c b = V2 m c b :=
  fun b hb => W3_of m c b fun hm => hb (Finset.mem_image.mpr ⟨3, Finset.mem_univ _, (List.mem_singleton.mp hm).symm⟩)

theorem hF2 (c : Dev nD) (w : Fin cfg2.W) : (dat2 (V3 m) c).arrAt w cfg2.N = V4 m c (Pipeline.arrRef spec2 w) := by
  by_cases hw : (cfg2.win w).isOut = true
  · rcases out2 w hw with rfl | rfl
    · exact (W4_v16_0 m c).symm
    · exact (W4_v16_1 m c).symm
  · have hw' : (cfg2.win w).isOut = false := by simpa using hw
    exact ((dat2 (V3 m) c).arrAt_in w hw' _).trans ((A_eq2 (V3 m) c w).trans (W4_of m c _ (in2 w hw')).symm)
theorem hrest2 (c : Dev nD) : ∀ b, b ∉ Finset.univ.image (Pipeline.arrRef spec2) → V4 m c b = V3 m c b :=
  fun b hb => W4_of m c b fun hm => by
    rcases List.mem_cons.mp hm with e | hm
    · exact hb (Finset.mem_image.mpr ⟨18, Finset.mem_univ _, e.symm⟩)
    · exact hb (Finset.mem_image.mpr ⟨19, Finset.mem_univ _, (List.mem_singleton.mp hm).symm⟩)

/-! ## The proof data family and the thread state -/

/-- Every stage's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register at some state and owes nothing. -/
abbrev R (c : Dev nD) : sProp 𝕄 := iprop((∃ r, prngReg c r) ∗ ∃ W, owes (c : Thread nD τ) (0 : CellTallies nD τ sig Unit) W)
/-- The host operations as a segment from the launch contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The stages as segments -/

set_option backward.isDefEq.respectTransparency.types false in
/-- The projection stage: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The error-attention stage: entered at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fused stage: entered at `W3`, left at `W4`; its shared weight matrices split half and half between the two
    windows that read each, and joined again at the exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := entry2 (F := F) c (pdats m 2 c) (q_eq2 (V3 m) c) (V3 m c) (A_eq2 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (F := F) c (pdats m 2 c) (q_eq2 (V3 m) c) (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]
/-- The program is the run of its segments. -/
theorem main_run (c : Dev nD) : main (F := F) c = Pipeline.Seg.run (segs m) := (main_chain c).trans (by chain_rfl)

set_option backward.isDefEq.respectTransparency.types false in
/-- THE RUN. From any memory with zero counters every weakly fair execution of the program terminates without a
    fault, and in every final state each core's unscoped buffers hold `W4`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.K.Frame.lean ====
/-
  The frame and the results, read off the run. The run ends with every unscoped buffer of every core at `W4`;
  no item writes an argument's buffer, so each argument ends as launched, and the two result buffers hold what
  the fused stage's write-backs leave.
-/
import proofs.«127285_j65532611002879_1_alg».proof.Proof.K.Run

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ)

/-- A buffer that no host operation and no stage writes holds, in a final state that has every unscoped buffer at
    `W4`, what the launch gave it. -/
theorem arg_kept (c : Dev nD) {s : MemSt nD τ sig (Elt F)}
    (h : ∀ b ∈ Pipeline.ucRefs τ sig, s.mem (((c : Thread nD τ)).1, b) = W4 m c b) (r : Ref sig .tc)
    (hu : ¬ (Proc.devRef .tc r : DevRef τ sig).isScoped)
    (h4 : r ∉ ([main_v16_0, main_v16_1] : List (Ref sig .tc))) (h3 : r ∉ ([main_v15] : List (Ref sig .tc)))
    (h2 : r ∉ ([main_v14] : List (Ref sig .tc))) (h1 : r ∉ hostOps0_W) :
    s.mem ((c.tc : Thread nD τ).loc r) = m ((c.tc : Thread nD τ).loc r) :=
  (h _ (mem_uc r hu)).trans (W4_kept m c r h4 h3 h2 h1)

/-- The frame: the program runs to the end without a fault and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨arg_kept m c (h c) main_arg0 (by decide) (by decide) (by decide) (by decide) (by decide),
      arg_kept m c (h c) main_arg1 (by decide) (by decide) (by decide) (by decide) (by decide),
      arg_kept m c (h c) main_arg2 (by decide) (by decide) (by decide) (by decide) (by decide),
      arg_kept m c (h c) main_arg3 (by decide) (by decide) (by decide) (by decide) (by decide),
      arg_kept m c (h c) main_arg4 (by decide) (by decide) (by decide) (by decide) (by decide),
      arg_kept m c (h c) main_arg5 (by decide) (by decide) (by decide) (by decide) (by decide),
      arg_kept m c (h c) main_arg6 (by decide) (by decide) (by decide) (by decide) (by decide),
      arg_kept m c (h c) main_arg7 (by decide) (by decide) (by decide) (by decide) (by decide),
      arg_kept m c (h c) main_arg8 (by decide) (by decide) (by decide) (by decide) (by decide),
      arg_kept m c (h c) main_arg9 (by decide) (by decide) (by decide) (by decide) (by decide),
      arg_kept m c (h c) main_arg10 (by decide) (by decide) (by decide) (by decide) (by decide),
      arg_kept m c (h c) main_arg11 (by decide) (by decide) (by decide) (by decide) (by decide),
      arg_kept m c (h c) main_arg12 (by decide) (by decide) (by decide) (by decide) (by decide),
      arg_kept m c (h c) main_arg13 (by decide) (by decide) (by decide) (by decide) (by decide),
      arg_kept m c (h c) main_arg14 (by decide) (by decide) (by decide) (by decide) (by decide),
      arg_kept m c (h c) main_arg15 (by decide) (by decide) (by decide) (by decide) (by decide),
      arg_kept m c (h c) main_arg16 (by decide) (by decide) (by decide) (by decide) (by decide),
      arg_kept m c (h c) main_arg17 (by decide) (by decide) (by decide) (by decide) (by decide)⟩) (run_all m ρ)

/-- The same run with the two results named: the hidden state at `W4 … main_v16_0`, the cell state at
    `W4 … main_v16_1`. -/
theorem run_results (ρ : Dev nD → PrngReg) :
    θ_run defs (onTc (τ := τ) (main (F := F))) ⟨m, fun _ => 0, ρ⟩ (fun r => ∀ c : Dev nD,
      r.2.mem ((c.tc : Thread nD τ).loc main_v16_0) = W4 m c main_v16_0
      ∧ r.2.mem ((c.tc : Thread nD τ).loc main_v16_1) = W4 m c main_v16_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v16_0 (by decide)), h c _ (mem_uc main_v16_1 (by decide)),
      arg_kept m c (h c) main_arg0 (by decide) (by decide) (by decide) (by decide) (by decide),
      arg_kept m c (h c) main_arg1 (by decide) (by decide) (by decide) (by decide) (by decide),
      arg_kept m c (h c) main_arg2 (by decide) (by decide) (by decide) (by decide) (by decide),
      arg_kept m c (h c) main_arg3 (by decide) (by decide) (by decide) (by decide) (by decide),
      arg_kept m c (h c) main_arg4 (by decide) (by decide) (by decide) (by decide) (by decide),
      arg_kept m c (h c) main_arg5 (by decide) (by decide) (by decide) (by decide) (by decide),
      arg_kept m c (h c) main_arg6 (by decide) (by decide) (by decide) (by decide) (by decide),
      arg_kept m c (h c) main_arg7 (by decide) (by decide) (by decide) (by decide) (by decide),
      arg_kept m c (h c) main_arg8 (by decide) (by decide) (by decide) (by decide) (by decide),
      arg_kept m c (h c) main_arg9 (by decide) (by decide) (by decide) (by decide) (by decide),
      arg_kept m c (h c) main_arg10 (by decide) (by decide) (by decide) (by decide) (by decide),
      arg_kept m c (h c) main_arg11 (by decide) (by decide) (by decide) (by decide) (by decide),
      arg_kept m c (h c) main_arg12 (by decide) (by decide) (by decide) (by decide) (by decide),
      arg_kept m c (h c) main_arg13 (by decide) (by decide) (by decide) (by decide) (by decide),
      arg_kept m c (h c) main_arg14 (by decide) (by decide) (by decide) (by decide) (by decide),
      arg_kept m c (h c) main_arg15 (by decide) (by decide) (by decide) (by decide) (by decide),
      arg_kept m c (h c) main_arg16 (by decide) (by decide) (by decide) (by decide) (by decide),
      arg_kept m c (h c) main_arg17 (by decide) (by decide) (by decide) (by decide) (by decide)⟩) (run_all m ρ)

end Cert.Kernel.Hand

end
-- ==== Proof.KI.Reg0.lean ====
/-
  The projection stage (the program's first kernel region, `cc0__proj_kernel`), stated at any contents `V` of the
  core's buffers when the region is entered.

  The stage walks 32 grid points. At a point it loads a 512 x 1024 row block of its first operand, the whole
  1024 x 2048 weight matrix and the whole 1 x 2048 bias row (both staged once, at the first point, and left in
  place), and stores one 512 x 2048 tile: the row block times the matrix, plus the bias row on every row. This
  module names each window's block at a point, the stored tile as a pure term of the three loaded blocks, the
  body's triple, the proof data and the body obligation at every point.
-/
import proofs.«127285_j65532611002879_1_alg».proof.Proof.Gen.KernelIdeal.Launch
import proofs.«127285_j65532611002879_1_alg».proof.Proof.Gen.KernelIdeal.Skeleton
import proofs.«127285_j65532611002879_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point (it is fetched at every point), for any
    proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window is staged at the first point only; its block index never moves, so the buffer holds the
    (whole-array) block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is its whole buffer -/

abbrev r0_0 : Rect S512x1024 := Rect.unit (s := S512x1024) ![0, 0] S512x1024.size inb_S512x1024_S512x1024_0_0
abbrev r0_1 : Rect S1024x2048 := Rect.unit (s := S1024x2048) ![0, 0] S1024x2048.size inb_S1024x2048_S1024x2048_0_0
abbrev r0_2 : Rect S1x2048 := Rect.unit (s := S1x2048) ![0, 0] S1x2048.size inb_S1x2048_S1x2048_0_0
abbrev r0_3 : Rect S512x2048 := Rect.unit (s := S512x2048) ![0, 0] S512x2048.size inb_S512x2048_S512x2048_0_0

/-! ## What the body leaves in the output window's buffer -/

/-- The output buffer after the body, from the three input blocks: its one store (of the whole tile), the
    payload the skeleton's. -/
def out0_3 (x0 : Vec F S512x1024 .f32) (x1 : Vec F S1024x2048 .bf16) (x2 : Vec F S1x2048 .f32) : Vec F S512x2048 .f32 :=
  View.canon [⟨r0_3, k0_pay1 (View.ld x0 r0_0) (View.ld x1 r0_1) (View.ld x2 r0_2)⟩]

/-- The one store tiles the buffer, so it covers it. -/
theorem cover0_3 (p0 : Vec F S512x2048 .f32) (y : S512x2048.Idx) :
    ∃ pc ∈ ([⟨r0_3, p0⟩] : List (View.Piece (Elt F) S512x2048 .f32)), y ∈ pc.1.set :=
  View.cover_of_tiled [⟨r0_3, p0⟩] S512x2048.size (by rfl) y

/-! ## The body's triple -/

set_option maxHeartbeats 1000000 in
/-- The body on whole staging memrefs, the inputs' at contents `x0 x1 x2` and the output's at anything, runs to the
    continuation holding the inputs' as they were and the output's at `out0_3` of them. -/
theorem sound_kernel0 (c : Dev nD) (E : Set ℕ) (i : grid0.Coords) (arg1 : Memref sig .tc .vmem S512x1024 .f32) (harg1 : arg1.IsWhole) (arg2 : Memref sig .tc .vmem S1024x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x1024 .f32) (x1 : Vec F S1024x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data -/

/-- The stage's proof data on core `c`: the arrays as the region finds them; after the body at point `t` each
    input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  The error stage (the program's second kernel region, `cc1__err_kernel`), stated at any contents `V` of the
  core's buffers when the region is entered.

  The stage walks 32 grid points. At a point it loads a 512 x 2048 row block of its first operand, the whole
  2048 x 2048 weight matrix and the whole 1 x 2048 bias row (both staged once, at the first point, and left in
  place), and stores one 512 x 2048 tile: the logistic function of the row block times the matrix plus the bias
  row. This module names each window's block at a point, the stored tile as a pure term of the three loaded
  blocks, the body's triple, the proof data and the body obligation at every point.
-/
import proofs.«127285_j65532611002879_1_alg».proof.Proof.Gen.KernelIdeal.Launch
import proofs.«127285_j65532611002879_1_alg».proof.Proof.Gen.KernelIdeal.Skeleton
import proofs.«127285_j65532611002879_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point (it is fetched at every point), for any
    proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window is staged at the first point only; its block index never moves, so the buffer holds the
    (whole-array) block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is its whole buffer -/

abbrev r1_0 : Rect S512x2048 := Rect.unit (s := S512x2048) ![0, 0] S512x2048.size inb_S512x2048_S512x2048_0_0
abbrev r1_1 : Rect S2048x2048 := Rect.unit (s := S2048x2048) ![0, 0] S2048x2048.size inb_S2048x2048_S2048x2048_0_0
abbrev r1_2 : Rect S1x2048 := Rect.unit (s := S1x2048) ![0, 0] S1x2048.size inb_S1x2048_S1x2048_0_0
abbrev r1_3 : Rect S512x2048 := Rect.unit (s := S512x2048) ![0, 0] S512x2048.size inb_S512x2048_S512x2048_0_0

/-! ## What the body leaves in the output window's buffer -/

/-- The output buffer after the body, from the three input blocks: its one store (of the whole tile), the
    payload the skeleton's. -/
def out1_3 (x0 : Vec F S512x2048 .f32) (x1 : Vec F S2048x2048 .bf16) (x2 : Vec F S1x2048 .f32) : Vec F S512x2048 .f32 :=
  View.canon [⟨r1_3, k1_pay1 (View.ld x0 r1_0) (View.ld x1 r1_1) (View.ld x2 r1_2)⟩]

/-- The one store tiles the buffer, so it covers it. -/
theorem cover1_3 (p0 : Vec F S512x2048 .f32) (y : S512x2048.Idx) :
    ∃ pc ∈ ([⟨r1_3, p0⟩] : List (View.Piece (Elt F) S512x2048 .f32)), y ∈ pc.1.set :=
  View.cover_of_tiled [⟨r1_3, p0⟩] S512x2048.size (by rfl) y

/-! ## The body's triple -/

set_option maxHeartbeats 1000000 in
/-- The body on whole staging memrefs, the inputs' at contents `x0 x1 x2` and the output's at anything, runs to the
    continuation holding the inputs' as they were and the output's at `out1_3` of them. -/
theorem sound_kernel1 (c : Dev nD) (E : Set ℕ) (i : grid1.Coords) (arg1 : Memref sig .tc .vmem S512x2048 .f32) (harg1 : arg1.IsWhole) (arg2 : Memref sig .tc .vmem S2048x2048 .bf16) (harg2 : arg2.IsWhole) (arg3 : Memref sig .tc .vmem S1x2048 .f32) (harg3 : arg3.IsWhole) (arg4 : Memref sig .tc .vmem S512x2048 .f32) (harg4 : arg4.IsWhole)
    (x0 : Vec F S512x2048 .f32) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__err_kernel i arg1 harg1 arg2 harg2 arg3 harg3 arg4 harg4) K := by
  simp only [cc1__err_kernel_eq_skeleton]; unfold cc1__err_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The stage's proof data on core `c`: the arrays as the region finds them; after the body at point `t` each
    input's buffer at its block and the output's at `out1_3` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Q2.lean ====
/-
  The shares of the fused stage's windows. Each of the four gate matrices is handed to the stage twice, once
  for its upper half of rows and once for its lower half; the two windows on one matrix each hold half of
  the share of that array (the left and the right half of the full share), every other window the full share.
-/
import proofs.«127285_j65532611002879_1_alg».proof.Proof.Gen.KernelIdeal

namespace Cert.KernelIdeal.Hand

open Idealize.ShloMosaic Idealize.SL.RA

/-- Window `w`'s share of its array: windows 6, 8, 10, 12 (upper halves) the left half of the full share,
    windows 7, 9, 11, 13 (lower halves) the right half, all others the full share. -/
def q2 : Fin 20 → PosShare TreeShare
  | ⟨6, _⟩ => fullShare.left | ⟨8, _⟩ => fullShare.left | ⟨10, _⟩ => fullShare.left | ⟨12, _⟩ => fullShare.left
  | ⟨7, _⟩ => fullShare.right | ⟨9, _⟩ => fullShare.right | ⟨11, _⟩ => fullShare.right | ⟨13, _⟩ => fullShare.right
  | _ => fullShare

end Cert.KernelIdeal.Hand
-- ==== Proof.KI.Blk2.lean ====
/-
  What the fused stage stores at one grid point, as pure terms of the eighteen blocks it loads.

  At a point the stage reads the scaling scalar `ts`, the row blocks `pr` (proj) and `hid`, the tiles `cell`,
  `err`, `u`, for each gate the upper and lower weight tiles and the bias tile, and stores
    the new cell tile   ((σ g_f · (1 − u · c)) · cell + ((σ g_i · (1 + u)) · tanh g_c) · err) · ts
    the new hidden tile  σ g_o · tanh (new cell tile),
  each gate `g = pr · W_top + hid · W_bot + b`. The two definitions compose the body's named payloads in the
  order the body computes them.
-/
import proofs.«127285_j65532611002879_1_alg».proof.Proof.Gen.KernelIdeal.Skeleton

noncomputable section

namespace Cert.KernelIdeal.Hand

open Idealize.ShloMosaic Cert.KernelIdeal Cert.KernelIdeal.Gen

variable {F : FTy → Type} [FloatOps F]

/-- The sum of the forget and input terms before scaling (the body's `%69`). -/
def preCellBlk (pr hid : Vec F S512x2048 .f32) (cell err u : Vec F S512x128 .f32)
    (wft wfb wit wib wct wcb : Vec F S2048x128 .bf16) (bf bi bc : Vec F S1x128 .f32) : FVec F S512x128 .f32 :=
  k2_pay9 (k2_pay4 hid) (k2_pay5 pr hid wft wfb bf) (k2_pay6 pr hid wit wib bi) (k2_pay7 pr wct) wcb bc u cell err

/-- The new cell tile (what the stage stores through its second output window). -/
def cellBlk (ts : Vec F S1x1 .f32) (pr hid : Vec F S512x2048 .f32) (cell err u : Vec F S512x128 .f32)
    (wft wfb wit wib wct wcb : Vec F S2048x128 .bf16) (bf bi bc : Vec F S1x128 .f32) : FVec F S512x128 .f32 :=
  k2_pay1 (preCellBlk pr hid cell err u wft wfb wit wib wct wcb bf bi bc) ts

/-- The new hidden tile (what the stage stores through its first output window). -/
def hidBlk (ts : Vec F S1x1 .f32) (pr hid : Vec F S512x2048 .f32) (cell err u : Vec F S512x128 .f32)
    (wft wfb wit wib wct wcb wot wob : Vec F S2048x128 .bf16) (bf bi bc bo : Vec F S1x128 .f32) : FVec F S512x128 .f32 :=
  k2_pay2 (k2_pay8 (k2_pay3 pr) (k2_pay4 hid) wot wob bo) (preCellBlk pr hid cell err u wft wfb wit wib wct wcb bf bi bc) ts

end Cert.KernelIdeal.Hand

end
-- ==== Proof.KI.Reg2.lean ====
/-
  The fused stage (the third kernel call of the program) at one grid point, and the data the pipeline's
  rule wants of it.

  The stage runs over a 32 x 16 grid. At a point it is handed twenty staging buffers: eighteen hold the
  blocks of its inputs (the scaling scalar; the row blocks of the projection and of the hidden state; the
  tiles of the cell state, of the error term and of the mixing term; for each of the four gates the upper
  and the lower weight tile; the four bias tiles), two receive what it stores (the new hidden tile and the
  new cell tile). The body loads each input buffer whole, and fills each output buffer by ONE store of the
  whole buffer, so what an output buffer holds afterwards is that store's payload: a pure term of the
  eighteen loaded blocks (`hidBlk`, `cellBlk`).

  Every input window's blocks tile its array and no window is ever idle, so an input's staging buffer holds
  the array's block at the point whether the point fetched it or an earlier one did. The shares of the arrays
  (two windows may read one weight matrix) concern the arrays only: the staging buffers are held whole.
-/
import proofs.«127285_j65532611002879_1_alg».proof.Proof.Gen.KernelIdeal.Launch
import proofs.«127285_j65532611002879_1_alg».proof.Proof.Gen.KernelIdeal.Skeleton
import proofs.«127285_j65532611002879_1_alg».proof.Proof.Gen.KernelIdeal.Points
import proofs.«127285_j65532611002879_1_alg».proof.Proof.KI.Q2
import proofs.«127285_j65532611002879_1_alg».proof.Proof.KI.Blk2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the stage is entered
variable (V : (c : Dev nD) → (b : Ref sig .tc) → Buf (Elt F) ((c : Thread nD τ).loc b))

/-! ## The windows' blocks -/

/-- Window `w`'s block at point `t`, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: each buffer whole, through the rectangle at zero offsets of the buffer's own sizes -/

abbrev rS1x1 : Rect S1x1 := Rect.unit (s := S1x1) ![0, 0] S1x1.size inb_S1x1_S1x1_0_0
abbrev rS512x2048 : Rect S512x2048 := Rect.unit (s := S512x2048) ![0, 0] S512x2048.size inb_S512x2048_S512x2048_0_0
abbrev rS512x128 : Rect S512x128 := Rect.unit (s := S512x128) ![0, 0] S512x128.size inb_S512x128_S512x128_0_0
abbrev rS2048x128 : Rect S2048x128 := Rect.unit (s := S2048x128) ![0, 0] S2048x128.size inb_S2048x128_S2048x128_0_0
abbrev rS1x128 : Rect S1x128 := Rect.unit (s := S1x128) ![0, 0] S1x128.size inb_S1x128_S1x128_0_0

/-! ## What the body leaves in each output buffer -/

/-- The hidden-state output's buffer after the body, from the input blocks: its one store, of the new hidden tile. -/
def out2_18 (x0 : Vec F S1x1 .f32) (x1 x2 : Vec F S512x2048 .f32) (x3 x4 x5 : Vec F S512x128 .f32)
    (x6 x7 x8 x9 x10 x11 x12 x13 : Vec F S2048x128 .bf16) (x14 x15 x16 x17 : Vec F S1x128 .f32) : Vec F S512x128 .f32 :=
  View.canon [⟨rS512x128, hidBlk (View.ld x0 rS1x1) (View.ld x1 rS512x2048) (View.ld x2 rS512x2048)
    (View.ld x3 rS512x128) (View.ld x4 rS512x128) (View.ld x5 rS512x128)
    (View.ld x6 rS2048x128) (View.ld x7 rS2048x128) (View.ld x8 rS2048x128) (View.ld x9 rS2048x128)
    (View.ld x10 rS2048x128) (View.ld x11 rS2048x128) (View.ld x12 rS2048x128) (View.ld x13 rS2048x128)
    (View.ld x14 rS1x128) (View.ld x15 rS1x128) (View.ld x16 rS1x128) (View.ld x17 rS1x128)⟩]

/-- The cell-state output's buffer after the body: its one store, of the new cell tile (the output gate's
    weights and bias, blocks 12, 13 and 17, do not enter it). -/
def out2_19 (x0 : Vec F S1x1 .f32) (x1 x2 : Vec F S512x2048 .f32) (x3 x4 x5 : Vec F S512x128 .f32)
    (x6 x7 x8 x9 x10 x11 x12 x13 : Vec F S2048x128 .bf16) (x14 x15 x16 x17 : Vec F S1x128 .f32) : Vec F S512x128 .f32 :=
  View.canon [⟨rS512x128, cellBlk (View.ld x0 rS1x1) (View.ld x1 rS512x2048) (View.ld x2 rS512x2048)
    (View.ld x3 rS512x128) (View.ld x4 rS512x128) (View.ld x5 rS512x128)
    (View.ld x6 rS2048x128) (View.ld x7 rS2048x128) (View.ld x8 rS2048x128) (View.ld x9 rS2048x128)
    (View.ld x10 rS2048x128) (View.ld x11 rS2048x128)
    (View.ld x14 rS1x128) (View.ld x15 rS1x128) (View.ld x16 rS1x128)⟩]

/-- The offsets of a whole-buffer access of rank two, as the constant function. -/
theorem zero2 : (![0, 0] : Fin 2 → ℕ) = fun _ => 0 := funext fun a => by fin_cases a <;> rfl

/-- One store of the whole buffer covers it. -/
theorem cover2 (p0 : Vec F S512x128 .f32) (y : S512x128.Idx) :
    ∃ pc ∈ ([⟨rS512x128, p0⟩] : List (View.Piece (Elt F) S512x128 .f32)), y ∈ pc.1.set :=
  ⟨_, List.mem_singleton_self _, View.mem_set_unit_zero (S := S512x128) zero2 inb_S512x128_S512x128_0_0 y⟩

/-! ## The body's triple -/

set_option maxHeartbeats 4000000 in
/-- The body on whole staging buffers, the inputs' at read contents `x0 … x17` and the outputs' at anything, runs
    to the continuation holding the inputs' as they were, the hidden output's at `out2_18` of the inputs and the
    cell output's at `out2_19` of them: the body is its sequence of loads and of two stores over the named
    payloads, through both of its printed parts, and the two stored payloads are the compositions
    `hidBlk` and `cellBlk` name. -/
theorem sound_kernel2 (c : Dev nD) (E : Set ℕ) (i : grid2.Coords)
    (a0 : Memref sig .tc .vmem S1x1 .f32) (h0 : a0.IsWhole)
    (a1 : Memref sig .tc .vmem S512x2048 .f32) (h1 : a1.IsWhole)
    (a2 : Memref sig .tc .vmem S512x2048 .f32) (h2 : a2.IsWhole)
    (a3 : Memref sig .tc .vmem S512x128 .f32) (h3 : a3.IsWhole)
    (a4 : Memref sig .tc .vmem S512x128 .f32) (h4 : a4.IsWhole)
    (a5 : Memref sig .tc .vmem S512x128 .f32) (h5 : a5.IsWhole)
    (a6 : Memref sig .tc .vmem S2048x128 .bf16) (h6 : a6.IsWhole)
    (a7 : Memref sig .tc .vmem S2048x128 .bf16) (h7 : a7.IsWhole)
    (a8 : Memref sig .tc .vmem S2048x128 .bf16) (h8 : a8.IsWhole)
    (a9 : Memref sig .tc .vmem S2048x128 .bf16) (h9 : a9.IsWhole)
    (a10 : Memref sig .tc .vmem S2048x128 .bf16) (h10 : a10.IsWhole)
    (a11 : Memref sig .tc .vmem S2048x128 .bf16) (h11 : a11.IsWhole)
    (a12 : Memref sig .tc .vmem S2048x128 .bf16) (h12 : a12.IsWhole)
    (a13 : Memref sig .tc .vmem S2048x128 .bf16) (h13 : a13.IsWhole)
    (a14 : Memref sig .tc .vmem S1x128 .f32) (h14 : a14.IsWhole)
    (a15 : Memref sig .tc .vmem S1x128 .f32) (h15 : a15.IsWhole)
    (a16 : Memref sig .tc .vmem S1x128 .f32) (h16 : a16.IsWhole)
    (a17 : Memref sig .tc .vmem S1x128 .f32) (h17 : a17.IsWhole)
    (a18 : Memref sig .tc .vmem S512x128 .f32) (h18 : a18.IsWhole)
    (a19 : Memref sig .tc .vmem S512x128 .f32) (h19 : a19.IsWhole)
    (x0 : Vec F S1x1 .f32) (x1 x2 : Vec F S512x2048 .f32) (x3 x4 x5 : Vec F S512x128 .f32)
    (x6 x7 x8 x9 x10 x11 x12 x13 : Vec F S2048x128 .bf16) (x14 x15 x16 x17 : Vec F S1x128 .f32)
    (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ owns (c : Thread nD τ) a5 fullShare x5
        ∗ owns (c : Thread nD τ) a6 fullShare x6 ∗ owns (c : Thread nD τ) a7 fullShare x7 ∗ owns (c : Thread nD τ) a8 fullShare x8
        ∗ owns (c : Thread nD τ) a9 fullShare x9 ∗ owns (c : Thread nD τ) a10 fullShare x10 ∗ owns (c : Thread nD τ) a11 fullShare x11
        ∗ owns (c : Thread nD τ) a12 fullShare x12 ∗ owns (c : Thread nD τ) a13 fullShare x13 ∗ owns (c : Thread nD τ) a14 fullShare x14
        ∗ owns (c : Thread nD τ) a15 fullShare x15 ∗ owns (c : Thread nD τ) a16 fullShare x16 ∗ owns (c : Thread nD τ) a17 fullShare x17
        ∗ (∃ d, owns (c : Thread nD τ) a18 fullShare d) ∗ (∃ d, owns (c : Thread nD τ) a19 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4 ∗ owns (c : Thread nD τ) a5 fullShare x5
            ∗ owns (c : Thread nD τ) a6 fullShare x6 ∗ owns (c : Thread nD τ) a7 fullShare x7 ∗ owns (c : Thread nD τ) a8 fullShare x8
            ∗ owns (c : Thread nD τ) a9 fullShare x9 ∗ owns (c : Thread nD τ) a10 fullShare x10 ∗ owns (c : Thread nD τ) a11 fullShare x11
            ∗ owns (c : Thread nD τ) a12 fullShare x12 ∗ owns (c : Thread nD τ) a13 fullShare x13 ∗ owns (c : Thread nD τ) a14 fullShare x14
            ∗ owns (c : Thread nD τ) a15 fullShare x15 ∗ owns (c : Thread nD τ) a16 fullShare x16 ∗ owns (c : Thread nD τ) a17 fullShare x17
            ∗ owns (c : Thread nD τ) a18 fullShare (out2_18 x0 x1 x2 x3 x4 x5 x6 x7 x8 x9 x10 x11 x12 x13 x14 x15 x16 x17)
            ∗ owns (c : Thread nD τ) a19 fullShare (out2_19 x0 x1 x2 x3 x4 x5 x6 x7 x8 x9 x10 x11 x12 x13 x14 x15 x16 x17)) -∗ K ⟨⟩))
      ⊢ wp frame (wpE (defs₀ (F := F)) Variants.none c none) E
          (cc2__fused_kernel i a0 h0 a1 h1 a2 h2 a3 h3 a4 h4 a5 h5 a6 h6 a7 h7 a8 h8 a9 h9 a10 h10 a11 h11 a12 h12 a13 h13
            a14 h14 a15 h15 a16 h16 a17 h17 a18 h18 a19 h19) K := by
  simp only [cc2__fused_kernel_eq_skeleton]; unfold cc2__fused_kernel_skel
  simp only [k2_part1_eq_skeleton, k2_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩, ⟨%f17, %hf17, H17⟩,
    ⟨%d18, %f18, -, H18⟩, ⟨%d19, %f19, -, H19⟩, Hk⟩
  subst hf0 hf1 hf2 hf3 hf4 hf5 hf6 hf7 hf8 hf9 hf10 hf11 hf12 hf13 hf14 hf15 hf16 hf17
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _; isplitr
    swap; · iexact H18
    ipureintro
    exact View.read_writes_eq_canon _ _ _ (cover2 _)
  iexists _; isplitr
  swap; · iexact H19
  ipureintro
  exact View.read_writes_eq_canon _ _ _ (cover2 _)

/-! ## Each input's staging buffer holds its block -/

/-- Input window 0's current staging buffer holds its block at every point, fetched there or not, for ANY proof
    data whose array is the entry contents (`hA`) and whose body leaves the block in place (`hafter`): where the
    point does not fetch, the window's index has not moved since the fetch, the window's blocks tile the array and
    the window is never idle. Likewise for each of the other seventeen inputs. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)
theorem before2_17_of {c : Dev nD} (dat : Dat τ (Elt F) Unit ℕ (UR sig nD τ) ℕ cfg2 c) (hA : dat.A 17 = V c (Pipeline.arrRef spec2 17))
    (hafter : ∀ t, dat.after 17 t = iblk2 V c 17 t) (t : Fin cfg2.N) (d) : dat.before 17 t d = iblk2 V c 17 t :=
  (dat.before_in_eq_fetched 17 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The proof data of the fused stage on core `c`: the arrays as the stage finds them; after the body at point `t`
    each input's buffer at its block, the hidden output's at `out2_18` of the input blocks and the cell output's at
    `out2_19` of them; the invariant the scoped rest and the generator register, untouched; nothing owed; of each
    array the share `q2` gives its window (half for each of two windows on one weight matrix). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => iblk2 V c 17 t
    | ⟨18, _⟩ => out2_18 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
        (iblk2 V c 13 t) (iblk2 V c 14 t) (iblk2 V c 15 t) (iblk2 V c 16 t) (iblk2 V c 17 t)
    | ⟨19, _⟩ => out2_19 (iblk2 V c 0 t) (iblk2 V c 1 t) (iblk2 V c 2 t) (iblk2 V c 3 t) (iblk2 V c 4 t) (iblk2 V c 5 t)
        (iblk2 V c 6 t) (iblk2 V c 7 t) (iblk2 V c 8 t) (iblk2 V c 9 t) (iblk2 V c 10 t) (iblk2 V c 11 t) (iblk2 V c 12 t)
        (iblk2 V c 13 t) (iblk2 V c 14 t) (iblk2 V c 15 t) (iblk2 V c 16 t) (iblk2 V c 17 t)
    | ⟨_ + 20, h⟩ => absurd h (Nat.not_lt.2 (Nat.le_add_left _ _))
  Φ _ := Pipeline.ΦA spec2 c
  q := q2
  owed _ := 0

/-- The proof data's arrays are the entry contents. -/
theorem A_eq2 (c : Dev nD) (w : Fin cfg2.W) : (dat2 V c).A w = V c (Pipeline.arrRef spec2 w) := by
  dsimp only [dat2]

/-- The proof data's shares are `q2`'s. -/
theorem q_eq2 (c : Dev nD) (w : Fin cfg2.W) : (dat2 V c).q w = q2 w := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = iblk2 V c 17 t := by dsimp only [dat2]
theorem after2_18 (c : Dev nD) (t : Fin cfg2.N) : (dat2 V c).after 18 t =
    out2_18 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t) (iblk2 V c 12 t)
      (iblk2 V c 13 t) (iblk2 V c 14 t) (iblk2 V c 15 t) (iblk2 V c 16 t) (iblk2 V c 17 t) := by dsimp only [dat2]
theorem after2_19 (c : Dev nD) (t : Fin cfg2.N) : (dat2 V c).after 19 t =
    out2_19 (iblk2 V c 0 t) (iblk2 V c 1 t) (iblk2 V c 2 t) (iblk2 V c 3 t) (iblk2 V c 4 t) (iblk2 V c 5 t)
      (iblk2 V c 6 t) (iblk2 V c 7 t) (iblk2 V c 8 t) (iblk2 V c 9 t) (iblk2 V c 10 t) (iblk2 V c 11 t) (iblk2 V c 12 t)
      (iblk2 V c 13 t) (iblk2 V c 14 t) (iblk2 V c 15 t) (iblk2 V c 16 t) (iblk2 V c 17 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
theorem before2_17 (c : Dev nD) (t : Fin cfg2.N) (d) : (dat2 V c).before 17 t d = iblk2 V c 17 t :=
  before2_17_of V (dat2 V c) (A_eq2 V c 17) (after2_17 V c) t d

/-! ## The body obligation, at a generic point -/

/-- What the body is called with at point `t` (the rule's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d))
    ∗ (∃ d, owns (c : Thread nD τ) (st2_15 t) fullShare ((dat2 V c).before 15 t d))
    ∗ (∃ d, owns (c : Thread nD τ) (st2_16 t) fullShare ((dat2 V c).before 16 t d))
    ∗ (∃ d, owns (c : Thread nD τ) (st2_17 t) fullShare ((dat2 V c).before 17 t d))
    ∗ (∃ d, owns (c : Thread nD τ) (st2_18 t) fullShare ((dat2 V c).before 18 t d))
    ∗ (∃ d, owns (c : Thread nD τ) (st2_19 t) fullShare ((dat2 V c).before 19 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ owns (c : Thread nD τ) (st2_14 t) fullShare ((dat2 V c).after 14 t)
    ∗ owns (c : Thread nD τ) (st2_15 t) fullShare ((dat2 V c).after 15 t)
    ∗ owns (c : Thread nD τ) (st2_16 t) fullShare ((dat2 V c).after 16 t)
    ∗ owns (c : Thread nD τ) (st2_17 t) fullShare ((dat2 V c).after 17 t)
    ∗ owns (c : Thread nD τ) (st2_18 t) fullShare ((dat2 V c).after 18 t)
    ∗ owns (c : Thread nD τ) (st2_19 t) fullShare ((dat2 V c).after 19 t))

set_option maxHeartbeats 1000000 in
/-- The body at any point: the inputs' buffers hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9,
    before2_10, before2_11, before2_12, before2_13, before2_14, before2_15, before2_16, before2_17]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9,
    after2_10, after2_11, after2_12, after2_13, after2_14, after2_15, after2_16, after2_17, after2_18, after2_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel2 c Set.univ _ _ _ _ _ _ _ _ _ _ _ _ _ _ _ _ _ _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (iblk2 V c 11 t) (iblk2 V c 12 t) (iblk2 V c 13 t)
    (iblk2 V c 14 t) (iblk2 V c 15 t) (iblk2 V c 16 t) (iblk2 V c 17 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The rule's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Share2.lean ====
/-
  Entry and exit of the fused stage's arrays.

  The fused stage reads eighteen windows and writes two, over sixteen distinct arrays: each of the four gate
  matrices stands behind TWO windows (one for its upper half of rows, one for its lower half). At entry the
  core holds every unscoped buffer whole at the full share. The sixteen buffers behind the windows' arrays are
  taken out of them; each of the four shared buffers, held at the full share, is split along the share into
  its left half (for the upper window) and its right half (for the lower window), both at the same contents.
  At exit the two halves of each shared buffer, which hold the same contents because both are read off one
  valuation, join back into the full share, and the two written arrays come back at their new contents.
-/
import proofs.«127285_j65532611002879_1_alg».proof.Proof.Gen.KernelIdeal.Launch
import proofs.«127285_j65532611002879_1_alg».proof.Proof.KI.Q2
import Idealize.ShloMosaic.Lib.Pipeline.RegionsLoop
import Idealize.ShloMosaic.Lib.Pipeline.Frame
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The sixteen buffers behind the twenty windows -/

/-- The sixteen distinct buffers behind the twenty windows' arrays, in window order. -/
def arrList2 : List (Ref sig .tc) :=
  [main_v12, main_v14, main_arg1, main_arg2, main_v15, main_v13, main_v2, main_v3, main_v4, main_v5,
    main_v8, main_v9, main_v10, main_v11, main_v16_0, main_v16_1]

/-- The windows' arrays are exactly those sixteen (windows 6/7, 8/9, 10/11, 12/13 pairwise on one). -/
theorem arrImage2 : Finset.univ.image (Pipeline.arrRef spec2) = arrList2.toFinset := by decide

theorem arrList2_nodup : arrList2.Nodup := by decide

/-- Every window's array is an unscoped buffer. -/
theorem arr_unscoped2 : ∀ w, (Pipeline.arrRef spec2 w).isScoped = false := by decide

/-- The share the core holds window `w`'s array at is `q2 w`: an output's is full, and `q2` is full there. -/
theorem share2 (c : Dev nD) (dat : Pipeline.Dat τ (Elt F) Unit ℕ (UR sig nD τ) ℕ cfg2 c) (hq : ∀ w, dat.q w = q2 w) :
    ∀ w, dat.share w = q2 w := fun w => by
  unfold Pipeline.Dat.share; rw [hq]
  revert w; decide

/-- Buffer `b` whole, at share `q`, at its contents under the valuation `V`. -/
abbrev at2 (c : Dev nD) (V : (b : Ref sig .tc) → Buf (Elt F) ((c : Thread nD τ).loc b)) (q : PosShare TreeShare)
    (b : Ref sig .tc) : sProp 𝕄 :=
  ((c : Thread nD τ).loc b) ↦{q} V b

/-- The sixteen buffers, each whole at the full share, one by one. -/
theorem arrBufs2_eq (c : Dev nD) (V : (b : Ref sig .tc) → Buf (Elt F) ((c : Thread nD τ).loc b)) :
    (Pipeline.arrBufs spec2 c V : sProp 𝕄)
      = iprop(at2 c V fullShare main_v12 ∗ at2 c V fullShare main_v14 ∗ at2 c V fullShare main_arg1
          ∗ at2 c V fullShare main_arg2 ∗ at2 c V fullShare main_v15 ∗ at2 c V fullShare main_v13
          ∗ at2 c V fullShare main_v2 ∗ at2 c V fullShare main_v3 ∗ at2 c V fullShare main_v4 ∗ at2 c V fullShare main_v5
          ∗ at2 c V fullShare main_v8 ∗ at2 c V fullShare main_v9 ∗ at2 c V fullShare main_v10 ∗ at2 c V fullShare main_v11
          ∗ at2 c V fullShare main_v16_0 ∗ at2 c V fullShare main_v16_1) := by
  unfold Pipeline.arrBufs
  exact bigSep_eq_bigSepL_of_eq arrList2 arrImage2 arrList2_nodup _

/-- The twenty windows' arrays, each at its window's share, one by one: a shared matrix appears twice, at the
    left half for its upper window and at the right half for its lower one. -/
theorem wins2_eq (c : Dev nD) (V : (b : Ref sig .tc) → Buf (Elt F) ((c : Thread nD τ).loc b)) :
    (bigSep Finset.univ fun w : Fin 20 => at2 c V (q2 w) (Pipeline.arrRef spec2 w))
      = iprop(at2 c V fullShare main_v12 ∗ at2 c V fullShare main_v14 ∗ at2 c V fullShare main_arg1
          ∗ at2 c V fullShare main_arg2 ∗ at2 c V fullShare main_v15 ∗ at2 c V fullShare main_v13
          ∗ at2 c V fullShare.left main_v2 ∗ at2 c V fullShare.right main_v2
          ∗ at2 c V fullShare.left main_v3 ∗ at2 c V fullShare.right main_v3
          ∗ at2 c V fullShare.left main_v4 ∗ at2 c V fullShare.right main_v4
          ∗ at2 c V fullShare.left main_v5 ∗ at2 c V fullShare.right main_v5
          ∗ at2 c V fullShare main_v8 ∗ at2 c V fullShare main_v9 ∗ at2 c V fullShare main_v10 ∗ at2 c V fullShare main_v11
          ∗ at2 c V fullShare main_v16_0 ∗ at2 c V fullShare main_v16_1) := by
  rw [bigSep_W2]; rfl

/-! ## Splitting along the share, and joining back -/

/-- ENTRY, window by window: a shared matrix's buffer at the full share is its left half beside its right half
    (`pointsTo_share`), both at the same contents; every other buffer goes to its one window whole. -/
theorem arrBufs2_split (c : Dev nD) (V : (b : Ref sig .tc) → Buf (Elt F) ((c : Thread nD τ).loc b)) :
    (Pipeline.arrBufs spec2 c V : sProp 𝕄)
      ⊢ bigSep Finset.univ fun w : Fin 20 => at2 c V (q2 w) (Pipeline.arrRef spec2 w) := by
  rw [arrBufs2_eq, wins2_eq]
  iintro ⟨H0, H1, H2, H3, H4, H5, B2, B3, B4, B5, H14, H15, H16, H17, H18, H19⟩
  ihave S2 := (pointsTo_share (PosShare.mem_left_op_right fullShare)).1 $$ B2
  icases S2 with ⟨L2, R2⟩
  ihave S3 := (pointsTo_share (PosShare.mem_left_op_right fullShare)).1 $$ B3
  icases S3 with ⟨L3, R3⟩
  ihave S4 := (pointsTo_share (PosShare.mem_left_op_right fullShare)).1 $$ B4
  icases S4 with ⟨L4, R4⟩
  ihave S5 := (pointsTo_share (PosShare.mem_left_op_right fullShare)).1 $$ B5
  icases S5 with ⟨L5, R5⟩
  isplitl [H0]; · iexact H0
  isplitl [H1]; · iexact H1
  isplitl [H2]; · iexact H2
  isplitl [H3]; · iexact H3
  isplitl [H4]; · iexact H4
  isplitl [H5]; · iexact H5
  isplitl [L2]; · iexact L2
  isplitl [R2]; · iexact R2
  isplitl [L3]; · iexact L3
  isplitl [R3]; · iexact R3
  isplitl [L4]; · iexact L4
  isplitl [R4]; · iexact R4
  isplitl [L5]; · iexact L5
  isplitl [R5]; · iexact R5
  isplitl [H14]; · iexact H14
  isplitl [H15]; · iexact H15
  isplitl [H16]; · iexact H16
  isplitl [H17]; · iexact H17
  isplitl [H18]; · iexact H18
  iexact H19

/-- EXIT, window by window: the two halves of a shared matrix's buffer, at the same contents, are the buffer at
    the full share again. -/
theorem arrBufs2_join (c : Dev nD) (V : (b : Ref sig .tc) → Buf (Elt F) ((c : Thread nD τ).loc b)) :
    (bigSep Finset.univ fun w : Fin 20 => at2 c V (q2 w) (Pipeline.arrRef spec2 w))
      ⊢ (Pipeline.arrBufs spec2 c V : sProp 𝕄) := by
  rw [arrBufs2_eq, wins2_eq]
  iintro ⟨H0, H1, H2, H3, H4, H5, L2, R2, L3, R3, L4, R4, L5, R5, H14, H15, H16, H17, H18, H19⟩
  isplitl [H0]; · iexact H0
  isplitl [H1]; · iexact H1
  isplitl [H2]; · iexact H2
  isplitl [H3]; · iexact H3
  isplitl [H4]; · iexact H4
  isplitl [H5]; · iexact H5
  isplitl [L2 R2]
  · iapply (pointsTo_share (PosShare.mem_left_op_right fullShare)).2
    isplitl [L2]; · iexact L2
    iexact R2
  isplitl [L3 R3]
  · iapply (pointsTo_share (PosShare.mem_left_op_right fullShare)).2
    isplitl [L3]; · iexact L3
    iexact R3
  isplitl [L4 R4]
  · iapply (pointsTo_share (PosShare.mem_left_op_right fullShare)).2
    isplitl [L4]; · iexact L4
    iexact R4
  isplitl [L5 R5]
  · iapply (pointsTo_share (PosShare.mem_left_op_right fullShare)).2
    isplitl [L5]; · iexact L5
    iexact R5
  isplitl [H14]; · iexact H14
  isplitl [H15]; · iexact H15
  isplitl [H16]; · iexact H16
  isplitl [H17]; · iexact H17
  isplitl [H18]; · iexact H18
  iexact H19

/-! ## The region's entry and exit -/

/-- The windowed arrays at contents read off a valuation `V` are the windows' buffers at their shares under `V`:
    every array is a whole buffer, held at `q2`'s share. -/
theorem arrays2_eq (c : Dev nD) (dat : Pipeline.Dat τ (Elt F) Unit ℕ (UR sig nD τ) ℕ cfg2 c) (hq : ∀ w, dat.q w = q2 w)
    (V : (b : Ref sig .tc) → Buf (Elt F) ((c : Thread nD τ).loc b))
    (G : (w : Fin cfg2.W) → Buf (Elt F) ((cfg2.win w).arr.view.loc (c.tc : Thread nD τ)))
    (hG : ∀ w, G w = V (Pipeline.arrRef spec2 w)) :
    (dat.arrays G : sProp 𝕄) = bigSep Finset.univ fun w : Fin 20 => at2 c V (q2 w) (Pipeline.arrRef spec2 w) := by
  unfold Pipeline.Dat.arrays
  exact bigSep_congr fun w _ => by rw [(arr_whole2 w).set_eq_univ, share2 c dat hq w, hG]

/-- ENTRY: a core's unscoped buffers at contents `V` are the fused stage's arrays at the proof data's entry
    contents, those being read off `V`, and the unscoped rest. -/
theorem entry2 (c : Dev nD) (dat : Pipeline.Dat τ (Elt F) Unit ℕ (UR sig nD τ) ℕ cfg2 c) (hq : ∀ w, dat.q w = q2 w)
    (V : (b : Ref sig .tc) → Buf (Elt F) ((c : Thread nD τ).loc b)) (hA : ∀ w, dat.A w = V (Pipeline.arrRef spec2 w)) :
    (unscopedBufs c V : sProp 𝕄) ⊢ iprop(dat.arrays (dat.arrAt · 0) ∗ Pipeline.unscopedRest spec2 c V) := by
  rw [Pipeline.unscopedBufs_split₀ (fun _ : Unit => cfg2) () arr_unscoped2 c V,
    arrays2_eq c dat hq V (dat.arrAt · 0) fun w => (show dat.arrAt w 0 = dat.A w from rfl).trans (hA w)]
  exact sep_mono (arrBufs2_split c V) .rfl

/-- EXIT: the fused stage's arrays at contents `G` and the unscoped rest at `V` are the core's unscoped buffers
    at any valuation `V'` that has the arrays at `G` and agrees with `V` off them. -/
theorem exit2 (c : Dev nD) (dat : Pipeline.Dat τ (Elt F) Unit ℕ (UR sig nD τ) ℕ cfg2 c) (hq : ∀ w, dat.q w = q2 w)
    (V V' : (b : Ref sig .tc) → Buf (Elt F) ((c : Thread nD τ).loc b))
    (G : (w : Fin cfg2.W) → Buf (Elt F) ((cfg2.win w).arr.view.loc (c.tc : Thread nD τ)))
    (hG : ∀ w, G w = V' (Pipeline.arrRef spec2 w)) (hrest : ∀ b, b ∉ Finset.univ.image (Pipeline.arrRef spec2) → V' b = V b) :
    iprop(dat.arrays G ∗ Pipeline.unscopedRest spec2 c V) ⊢ (unscopedBufs c V' : sProp 𝕄) := by
  rw [Pipeline.unscopedBufs_split₀ (fun _ : Unit => cfg2) () arr_unscoped2 c V', arrays2_eq c dat hq V' G hG]
  refine sep_mono (arrBufs2_join c V') (Entails.of_eq ?_)
  unfold Pipeline.unscopedRest
  exact bigSep_congr fun b hb => by rw [hrest b (Finset.mem_sdiff.mp hb).2]

/-- info: 'Cert.KernelIdeal.Hand.entry2' depends on axioms: [propext, Classical.choice, Quot.sound] -/
#guard_msgs in #print axioms entry2
/-- info: 'Cert.KernelIdeal.Hand.exit2' depends on axioms: [propext, Classical.choice, Quot.sound] -/
#guard_msgs in #print axioms exit2

end Cert.KernelIdeal.Hand

end
-- ==== Proof.KI.Run.lean ====
/-
  The run of the whole program: host operations, then the three kernel stages, each entered from what the
  item before it left.

  Between two items a core holds every unscoped buffer at a named valuation: `W0` the launch memory, `W1`
  after the host operations, `W2` with the projection's result array at what that stage's write-backs leave,
  `W3` likewise after the error-attention stage, `W4` with the two results of the fused stage. A stage's
  windows' arrays are split out of the held buffers at its entry and put back at its exit; in the fused stage
  the four weight matrices are each read through two windows, which share the matrix's buffer half and half.
  The run's post names every unscoped buffer of every core at `W4`: the frame (each argument as launched) and
  the two results are read off it.
-/
import proofs.«127285_j65532611002879_1_alg».proof.Proof.Gen.KernelIdeal.Regions
import proofs.«127285_j65532611002879_1_alg».proof.Proof.KI.Reg0
import proofs.«127285_j65532611002879_1_alg».proof.Proof.KI.Reg1
import proofs.«127285_j65532611002879_1_alg».proof.Proof.KI.Reg2
import proofs.«127285_j65532611002879_1_alg».proof.Proof.KI.Share2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- Core `c`'s buffers at launch. -/
abbrev W0 : Dev nD → Valuation τ sig (Elt F) := fun c b => m ((c : Dev nD), b)
/-- After the host operations. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- What the projection stage's write-backs leave in its result array. -/
def X2 (c : Dev nD) : Buf (Elt F) ((c : Thread nD τ).loc main_v14) := (dat0 (V1 m) c).arrAt 3 cfg0.N
/-- After the projection stage: its result array at `X2`, every other buffer as before. -/
def W2 (c : Dev nD) : Valuation τ sig (Elt F) := Function.update (W1 m c) main_v14 (X2 m c)
abbrev V2 : (c : Dev nD) → (b : Ref sig .tc) → Buf (Elt F) ((c : Thread nD τ).loc b) := fun c b => W2 m c b
/-- What the error-attention stage leaves in its result array. -/
def X3 (c : Dev nD) : Buf (Elt F) ((c : Thread nD τ).loc main_v15) := (dat1 (V2 m) c).arrAt 3 cfg1.N
def W3 (c : Dev nD) : Valuation τ sig (Elt F) := Function.update (W2 m c) main_v15 (X3 m c)
abbrev V3 : (c : Dev nD) → (b : Ref sig .tc) → Buf (Elt F) ((c : Thread nD τ).loc b) := fun c b => W3 m c b
/-- What the fused stage leaves in its two result arrays. -/
def X4h (c : Dev nD) : Buf (Elt F) ((c : Thread nD τ).loc main_v16_0) := (dat2 (V3 m) c).arrAt 18 cfg2.N
def X4c (c : Dev nD) : Buf (Elt F) ((c : Thread nD τ).loc main_v16_1) := (dat2 (V3 m) c).arrAt 19 cfg2.N
def W4 (c : Dev nD) : Valuation τ sig (Elt F) :=
  Function.update (Function.update (W3 m c) main_v16_0 (X4h m c)) main_v16_1 (X4c m c)
abbrev V4 : (c : Dev nD) → (b : Ref sig .tc) → Buf (Elt F) ((c : Thread nD τ).loc b) := fun c b => W4 m c b

/-! ## What each item leaves unchanged, and what it writes -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v14] : List (Ref sig .tc))) : W2 m c r = W1 m c r := by
  simp only [W2, Function.update_of_ne (StableHlo.devRef_ne_of_ne (List.ne_of_not_mem_cons h) : (Proc.devRef .tc r : DevRef τ sig) ≠ Proc.devRef .tc main_v14)]
theorem W3_of (c : Dev nD) (r : Ref sig .tc) (h : r ∉ ([main_v15] : List (Ref sig .tc))) : W3 m c r = W2 m c r := by
  simp only [W3, Function.update_of_ne (StableHlo.devRef_ne_of_ne (List.ne_of_not_mem_cons h) : (Proc.devRef .tc r : DevRef τ sig) ≠ Proc.devRef .tc main_v15)]
theorem W4_of (c : Dev nD) (r : Ref sig .tc) (h : r ∉ ([main_v16_0, main_v16_1] : List (Ref sig .tc))) : W4 m c r = W3 m c r := by
  simp only [W4, Function.update_of_ne (StableHlo.devRef_ne_of_ne (List.ne_of_not_mem_cons h) : (Proc.devRef .tc r : DevRef τ sig) ≠ Proc.devRef .tc main_v16_0), Function.update_of_ne (StableHlo.devRef_ne_of_ne (List.ne_of_not_mem_cons (List.not_mem_of_not_mem_cons h)) : (Proc.devRef .tc r : DevRef τ sig) ≠ Proc.devRef .tc main_v16_1)]

theorem W2_v14 (c : Dev nD) : W2 m c main_v14 = X2 m c := by simp only [W2, Function.update_self]
theorem W3_v15 (c : Dev nD) : W3 m c main_v15 = X3 m c := by simp only [W3, Function.update_self]
theorem W4_v16_1 (c : Dev nD) : W4 m c main_v16_1 = X4c m c := by simp only [W4, Function.update_self]
theorem W4_v16_0 (c : Dev nD) : W4 m c main_v16_0 = X4h m c := by
  simp only [W4, Function.update_of_ne (StableHlo.devRef_ne_of_ne (by decide) : (Proc.devRef .tc main_v16_0 : DevRef τ sig) ≠ Proc.devRef .tc main_v16_1), Function.update_self]

/-- A buffer no item writes holds at the end what the launch gave it. -/
theorem W4_kept (c : Dev nD) (r : Ref sig .tc) (h4 : r ∉ ([main_v16_0, main_v16_1] : List (Ref sig .tc)))
    (h3 : r ∉ ([main_v15] : List (Ref sig .tc))) (h2 : r ∉ ([main_v14] : List (Ref sig .tc))) (h1 : r ∉ hostOps0_W) :
    W4 m c r = m ((c : Thread nD τ).loc r) :=
  (W4_of m c r h4).trans <| (W3_of m c r h3).trans <| (W2_of m c r h2).trans <| (W1_of m c r h1).trans rfl

/-! ## Each stage's arrays at its exit: an input's as entered, the result's at what the write-backs leave -/

theorem in0 : ∀ w : Fin 4, (win0 w).isOut = false → Pipeline.arrRef spec0 w ∉ ([main_v14] : List (Ref sig .tc)) := by decide
theorem out0 : ∀ w : Fin 4, (win0 w).isOut = true → w = 3 := by decide
theorem in1 : ∀ w : Fin 4, (win1 w).isOut = false → Pipeline.arrRef spec1 w ∉ ([main_v15] : List (Ref sig .tc)) := by decide
theorem out1 : ∀ w : Fin 4, (win1 w).isOut = true → w = 3 := by decide
theorem in2 : ∀ w : Fin 20, (win2 w).isOut = false → Pipeline.arrRef spec2 w ∉ ([main_v16_0, main_v16_1] : List (Ref sig .tc)) := by decide
theorem out2 : ∀ w : Fin 20, (win2 w).isOut = true → w = 18 ∨ w = 19 := by decide

theorem hF0 (c : Dev nD) (w : Fin cfg0.W) : (dat0 (V1 m) c).arrAt w cfg0.N = V2 m c (Pipeline.arrRef spec0 w) := by
  by_cases hw : (cfg0.win w).isOut = true
  · obtain rfl := out0 w hw
    exact (W2_v14 m c).symm
  · have hw' : (cfg0.win w).isOut = false := by simpa using hw
    exact ((dat0 (V1 m) c).arrAt_in w hw' _).trans ((A_eq0 (V1 m) c w).trans (W2_of m c _ (in0 w hw')).symm)
theorem hrest0 (c : Dev nD) : ∀ b, b ∉ Finset.univ.image (Pipeline.arrRef spec0) → V2 m c b = V1 m c b :=
  fun b hb => W2_of m c b fun hm => hb (Finset.mem_image.mpr ⟨3, Finset.mem_univ _, (List.mem_singleton.mp hm).symm⟩)

theorem hF1 (c : Dev nD) (w : Fin cfg1.W) : (dat1 (V2 m) c).arrAt w cfg1.N = V3 m c (Pipeline.arrRef spec1 w) := by
  by_cases hw : (cfg1.win w).isOut = true
  · obtain rfl := out1 w hw
    exact (W3_v15 m c).symm
  · have hw' : (cfg1.win w).isOut = false := by simpa using hw
    exact ((dat1 (V2 m) c).arrAt_in w hw' _).trans ((A_eq1 (V2 m) c w).trans (W3_of m c _ (in1 w hw')).symm)
theorem hrest1 (c : Dev nD) : ∀ b, b ∉ Finset.univ.image (Pipeline.arrRef spec1) → V3 m c b = V2 m c b :=
  fun b hb => W3_of m c b fun hm => hb (Finset.mem_image.mpr ⟨3, Finset.mem_univ _, (List.mem_singleton.mp hm).symm⟩)

theorem hF2 (c : Dev nD) (w : Fin cfg2.W) : (dat2 (V3 m) c).arrAt w cfg2.N = V4 m c (Pipeline.arrRef spec2 w) := by
  by_cases hw : (cfg2.win w).isOut = true
  · rcases out2 w hw with rfl | rfl
    · exact (W4_v16_0 m c).symm
    · exact (W4_v16_1 m c).symm
  · have hw' : (cfg2.win w).isOut = false := by simpa using hw
    exact ((dat2 (V3 m) c).arrAt_in w hw' _).trans ((A_eq2 (V3 m) c w).trans (W4_of m c _ (in2 w hw')).symm)
theorem hrest2 (c : Dev nD) : ∀ b, b ∉ Finset.univ.image (Pipeline.arrRef spec2) → V4 m c b = V3 m c b :=
  fun b hb => W4_of m c b fun hm => by
    rcases List.mem_cons.mp hm with e | hm
    · exact hb (Finset.mem_image.mpr ⟨18, Finset.mem_univ _, e.symm⟩)
    · exact hb (Finset.mem_image.mpr ⟨19, Finset.mem_univ _, (List.mem_singleton.mp hm).symm⟩)

/-! ## The proof data family and the thread state -/

/-- Every stage's proof data, each at its entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- Beside the buffers a core carries its generator register at some state and owes nothing. -/
abbrev R (c : Dev nD) : sProp 𝕄 := iprop((∃ r, prngReg c r) ∗ ∃ W, owes (c : Thread nD τ) (0 : CellTallies nD τ sig Unit) W)
/-- The host operations as a segment from the launch contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The stages as segments -/

set_option backward.isDefEq.respectTransparency.types false in
/-- The projection stage: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The error-attention stage: entered at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The fused stage: entered at `W3`, left at `W4`; its shared weight matrices split half and half between the two
    windows that read each, and joined again at the exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := entry2 (F := F) c (pdats m 2 c) (q_eq2 (V3 m) c) (V3 m c) (A_eq2 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := exit2 (F := F) c (pdats m 2 c) (q_eq2 (V3 m) c) (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]
/-- The program is the run of its segments. -/
theorem main_run (c : Dev nD) : main (F := F) c = Pipeline.Seg.run (segs m) := (main_chain c).trans (by chain_rfl)

set_option backward.isDefEq.respectTransparency.types false in
/-- THE RUN. From any memory with zero counters every weakly fair execution of the program terminates without a
    fault, and in every final state each core's unscoped buffers hold `W4`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KI.Frame.lean ====
/-
  The frame and the results, read off the run. The run ends with every unscoped buffer of every core at `W4`;
  no item writes an argument's buffer, so each argument ends as launched, and the two result buffers hold what
  the fused stage's write-backs leave.
-/
import proofs.«127285_j65532611002879_1_alg».proof.Proof.KI.Run

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ)

/-- A buffer that no host operation and no stage writes holds, in a final state that has every unscoped buffer at
    `W4`, what the launch gave it. -/
theorem arg_kept (c : Dev nD) {s : MemSt nD τ sig (Elt F)}
    (h : ∀ b ∈ Pipeline.ucRefs τ sig, s.mem (((c : Thread nD τ)).1, b) = W4 m c b) (r : Ref sig .tc)
    (hu : ¬ (Proc.devRef .tc r : DevRef τ sig).isScoped)
    (h4 : r ∉ ([main_v16_0, main_v16_1] : List (Ref sig .tc))) (h3 : r ∉ ([main_v15] : List (Ref sig .tc)))
    (h2 : r ∉ ([main_v14] : List (Ref sig .tc))) (h1 : r ∉ hostOps0_W) :
    s.mem ((c.tc : Thread nD τ).loc r) = m ((c.tc : Thread nD τ).loc r) :=
  (h _ (mem_uc r hu)).trans (W4_kept m c r h4 h3 h2 h1)

/-- The frame: the program runs to the end without a fault and every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨arg_kept m c (h c) main_arg0 (by decide) (by decide) (by decide) (by decide) (by decide),
      arg_kept m c (h c) main_arg1 (by decide) (by decide) (by decide) (by decide) (by decide),
      arg_kept m c (h c) main_arg2 (by decide) (by decide) (by decide) (by decide) (by decide),
      arg_kept m c (h c) main_arg3 (by decide) (by decide) (by decide) (by decide) (by decide),
      arg_kept m c (h c) main_arg4 (by decide) (by decide) (by decide) (by decide) (by decide),
      arg_kept m c (h c) main_arg5 (by decide) (by decide) (by decide) (by decide) (by decide),
      arg_kept m c (h c) main_arg6 (by decide) (by decide) (by decide) (by decide) (by decide),
      arg_kept m c (h c) main_arg7 (by decide) (by decide) (by decide) (by decide) (by decide),
      arg_kept m c (h c) main_arg8 (by decide) (by decide) (by decide) (by decide) (by decide),
      arg_kept m c (h c) main_arg9 (by decide) (by decide) (by decide) (by decide) (by decide),
      arg_kept m c (h c) main_arg10 (by decide) (by decide) (by decide) (by decide) (by decide),
      arg_kept m c (h c) main_arg11 (by decide) (by decide) (by decide) (by decide) (by decide),
      arg_kept m c (h c) main_arg12 (by decide) (by decide) (by decide) (by decide) (by decide),
      arg_kept m c (h c) main_arg13 (by decide) (by decide) (by decide) (by decide) (by decide),
      arg_kept m c (h c) main_arg14 (by decide) (by decide) (by decide) (by decide) (by decide),
      arg_kept m c (h c) main_arg15 (by decide) (by decide) (by decide) (by decide) (by decide),
      arg_kept m c (h c) main_arg16 (by decide) (by decide) (by decide) (by decide) (by decide),
      arg_kept m c (h c) main_arg17 (by decide) (by decide) (by decide) (by decide) (by decide)⟩) (run_all m ρ)

/-- The same run with the two results named: the hidden state at `W4 … main_v16_0`, the cell state at
    `W4 … main_v16_1`. -/
theorem run_results (ρ : Dev nD → PrngReg) :
    θ_run defs (onTc (τ := τ) (main (F := F))) ⟨m, fun _ => 0, ρ⟩ (fun r => ∀ c : Dev nD,
      r.2.mem ((c.tc : Thread nD τ).loc main_v16_0) = W4 m c main_v16_0
      ∧ r.2.mem ((c.tc : Thread nD τ).loc main_v16_1) = W4 m c main_v16_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨h c _ (mem_uc main_v16_0 (by decide)), h c _ (mem_uc main_v16_1 (by decide)),
      arg_kept m c (h c) main_arg0 (by decide) (by decide) (by decide) (by decide) (by decide),
      arg_kept m c (h c) main_arg1 (by decide) (by decide) (by decide) (by decide) (by decide),
      arg_kept m c (h c) main_arg2 (by decide) (by decide) (by decide) (by decide) (by decide),
      arg_kept m c (h c) main_arg3 (by decide) (by decide) (by decide) (by decide) (by decide),
      arg_kept m c (h c) main_arg4 (by decide) (by decide) (by decide) (by decide) (by decide),
      arg_kept m c (h c) main_arg5 (by decide) (by decide) (by decide) (by decide) (by decide),
      arg_kept m c (h c) main_arg6 (by decide) (by decide) (by decide) (by decide) (by decide),
      arg_kept m c (h c) main_arg7 (by decide) (by decide) (by decide) (by decide) (by decide),
      arg_kept m c (h c) main_arg8 (by decide) (by decide) (by decide) (by decide) (by decide),
      arg_kept m c (h c) main_arg9 (by decide) (by decide) (by decide) (by decide) (by decide),
      arg_kept m c (h c) main_arg10 (by decide) (by decide) (by decide) (by decide) (by decide),
      arg_kept m c (h c) main_arg11 (by decide) (by decide) (by decide) (by decide) (by decide),
      arg_kept m c (h c) main_arg12 (by decide) (by decide) (by decide) (by decide) (by decide),
      arg_kept m c (h c) main_arg13 (by decide) (by decide) (by decide) (by decide) (by decide),
      arg_kept m c (h c) main_arg14 (by decide) (by decide) (by decide) (by decide) (by decide),
      arg_kept m c (h c) main_arg15 (by decide) (by decide) (by decide) (by decide) (by decide),
      arg_kept m c (h c) main_arg16 (by decide) (by decide) (by decide) (by decide) (by decide),
      arg_kept m c (h c) main_arg17 (by decide) (by decide) (by decide) (by decide) (by decide)⟩) (run_all m ρ)

end Cert.KernelIdeal.Hand

end
-- ==== Proof.Spec.lean ====
/-
  The function both programs compute, written once on the extended reals.

  With B = 16384 rows, IN = 1024 and H = 2048 columns:
    proj  = x · Wp + bp                                   (B × H)
    err   = σ(e · We + be)                                (B × H),   σ y = 1 / (1 + exp (−y))
    g_W   = proj · W[0:H, :] + hid · W[H:2H, :] + b       for each of the four gate matrices W (2H × H)
    cell' = ((σ g_f · (1 − u · c)) · cell + ((σ g_i · (1 + u)) · tanh g_c) · err) · ts
    hid'  = σ g_o · tanh cell'
  The kernel forms each gate from two products over H terms, the reference from one product over 2H terms of
  the row [proj, hid] against the stacked matrix; `gateSum_split` says the two sums agree, which is only
  associativity of addition (no finiteness is needed).
-/
import Idealize.ShloMosaic.Lib.ValueIdx
import Idealize.ShloMosaic.PureOps.Ideal.Laws

open scoped BigOperators

noncomputable section

namespace Cert.Spec

open Idealize.ShloMosaic Idealize.ShloMosaic.ValueIdx

/-- A matrix of extended reals of the given extents. -/
abbrev Mat (a b : Nat) : Type := (⟨2, ![a, b]⟩ : Shape).Idx → EReal

/-- The two literal scalars both programs use, as their f32 words. -/
abbrev one : EReal := Ideal.ofBits .f32 0x3F800000#32
abbrev tenth : EReal := Ideal.ofBits .f32 0x3DCCCCCD#32

/-- A row of the product `x · w` plus a bias row, at `(p, q)`. -/
def affineAt {M K N : Nat} (x : Mat M K) (w : Mat K N) (b : Mat 1 N) (p : Fin M) (q : Fin N) : EReal :=
  (∑ k : Fin K, x (ix2 p k) * w (ix2 k q)) + b (ix2 0 q)

/-- `proj = x · Wp + bp` at `(p, q)`. -/
def projAt (x : Mat 16384 1024) (wp : Mat 1024 2048) (bp : Mat 1 2048) (p : Fin 16384) (q : Fin 2048) : EReal :=
  affineAt x wp bp p q

/-- `err = σ(e · We + be)` at `(p, q)`. -/
def errAt (e : Mat 16384 2048) (we : Mat 2048 2048) (be : Mat 1 2048) (p : Fin 16384) (q : Fin 2048) : EReal :=
  Ideal.logistic (affineAt e we be p q)

/-- Row `k` of the upper half of a stacked `4096 × 2048` matrix. -/
abbrev top (k : Fin 2048) : Fin 4096 := ⟨k.val, by omega⟩
/-- Row `k` of its lower half. -/
abbrev bot (k : Fin 2048) : Fin 4096 := ⟨2048 + k.val, by omega⟩

/-- A gate's pre-activation at `(p, q)`, as the kernel forms it: two products over 2048 terms, then the bias. -/
def gateAt (pr hid : Mat 16384 2048) (w : Mat 4096 2048) (b : Mat 1 2048) (p : Fin 16384) (q : Fin 2048) : EReal :=
  ((∑ k : Fin 2048, pr (ix2 p k) * w (ix2 (top k) q)) + (∑ k : Fin 2048, hid (ix2 p k) * w (ix2 (bot k) q))) + b (ix2 0 q)

/-- The new cell state at `(p, q)` from the four gate pre-activations and the pointwise operands. -/
def cellOf (gf gi gc : EReal) (u cell err ts : EReal) : EReal :=
  ((Ideal.logistic gf * (one - u * tenth)) * cell + ((Ideal.logistic gi * (one + u)) * Ideal.tanh gc) * err) * ts

/-- The new hidden state from the output gate and the new cell state. -/
def hidOf (go cell' : EReal) : EReal := Ideal.logistic go * Ideal.tanh cell'

/-- The new cell state at `(p, q)` as a function of the arrays the fused stage reads. -/
def cellAt (pr hid cell err u : Mat 16384 2048) (wf wi wc : Mat 4096 2048) (bf bi bc : Mat 1 2048) (ts : Mat 1 1)
    (p : Fin 16384) (q : Fin 2048) : EReal :=
  cellOf (gateAt pr hid wf bf p q) (gateAt pr hid wi bi p q) (gateAt pr hid wc bc p q)
    (u (ix2 p q)) (cell (ix2 p q)) (err (ix2 p q)) (ts (ix2 0 0))

/-- The new hidden state at `(p, q)`. -/
def hidAt (pr hid cell err u : Mat 16384 2048) (wf wi wc wo : Mat 4096 2048) (bf bi bc bo : Mat 1 2048) (ts : Mat 1 1)
    (p : Fin 16384) (q : Fin 2048) : EReal :=
  hidOf (gateAt pr hid wo bo p q) (cellAt pr hid cell err u wf wi wc bf bi bc ts p q)

/-- A length-`N` vector as the one-row matrix the programs broadcast down the rows. -/
def row {N : Nat} (b : (⟨1, ![N]⟩ : Shape).Idx → EReal) : Mat 1 N := fun i => b (ix1 (i 1))

/-- The `B × H × 1` uncertainty array with its unit axis dropped. -/
def squeeze (u : (⟨3, ![16384, 2048, 1]⟩ : Shape).Idx → EReal) : Mat 16384 2048 := fun i => u (ix3 (i 0) (i 1) 0)

/-- `proj` as a matrix of the raw arguments. -/
def projM (x : Mat 16384 1024) (wp : Mat 1024 2048) (bp : (⟨1, ![2048]⟩ : Shape).Idx → EReal) : Mat 16384 2048 :=
  fun i => projAt x wp (row bp) (i 0) (i 1)

/-- `err` as a matrix of the raw arguments. -/
def errM (e : Mat 16384 2048) (we : Mat 2048 2048) (be : (⟨1, ![2048]⟩ : Shape).Idx → EReal) : Mat 16384 2048 :=
  fun i => errAt e we (row be) (i 0) (i 1)

/-- The new cell state, as one function of the eighteen argument arrays (those it reads). -/
def finalCell (x : Mat 16384 1024) (hid cell e : Mat 16384 2048) (unc : (⟨3, ![16384, 2048, 1]⟩ : Shape).Idx → EReal)
    (wp : Mat 1024 2048) (bp : (⟨1, ![2048]⟩ : Shape).Idx → EReal)
    (wf : Mat 4096 2048) (bf : (⟨1, ![2048]⟩ : Shape).Idx → EReal) (wi : Mat 4096 2048) (bi : (⟨1, ![2048]⟩ : Shape).Idx → EReal)
    (wc : Mat 4096 2048) (bc : (⟨1, ![2048]⟩ : Shape).Idx → EReal)
    (we : Mat 2048 2048) (be : (⟨1, ![2048]⟩ : Shape).Idx → EReal) (ts : (⟨1, ![1]⟩ : Shape).Idx → EReal) : Mat 16384 2048 :=
  fun i => cellAt (projM x wp bp) hid cell (errM e we be) (squeeze unc) wf wi wc (row bf) (row bi) (row bc) (row ts) (i 0) (i 1)

/-- The new hidden state, as one function of the eighteen argument arrays. -/
def finalHid (x : Mat 16384 1024) (hid cell e : Mat 16384 2048) (unc : (⟨3, ![16384, 2048, 1]⟩ : Shape).Idx → EReal)
    (wp : Mat 1024 2048) (bp : (⟨1, ![2048]⟩ : Shape).Idx → EReal)
    (wf : Mat 4096 2048) (bf : (⟨1, ![2048]⟩ : Shape).Idx → EReal) (wi : Mat 4096 2048) (bi : (⟨1, ![2048]⟩ : Shape).Idx → EReal)
    (wc : Mat 4096 2048) (bc : (⟨1, ![2048]⟩ : Shape).Idx → EReal) (wo : Mat 4096 2048) (bo : (⟨1, ![2048]⟩ : Shape).Idx → EReal)
    (we : Mat 2048 2048) (be : (⟨1, ![2048]⟩ : Shape).Idx → EReal) (ts : (⟨1, ![1]⟩ : Shape).Idx → EReal) : Mat 16384 2048 :=
  fun i => hidAt (projM x wp bp) hid cell (errM e we be) (squeeze unc) wf wi wc wo (row bf) (row bi) (row bc) (row bo) (row ts) (i 0) (i 1)

/-- A gate's pre-activation on one block: the two products over `2048` terms against the block's upper and lower
    weight tiles, then the bias tile. -/
def gate2At {M N : Nat} (pr hid : Mat M 2048) (wt wb : Mat 2048 N) (b : Mat 1 N) (p : Fin M) (q : Fin N) : EReal :=
  ((∑ k : Fin 2048, pr (ix2 p k) * wt (ix2 k q)) + (∑ k : Fin 2048, hid (ix2 p k) * wb (ix2 k q))) + b (ix2 0 q)

/-- A sum over `4096` terms is the sum over its first `2048` plus the sum over its last `2048`. -/
theorem sum_split (f : Fin 4096 → EReal) : ∑ k : Fin 4096, f k = (∑ k : Fin 2048, f (top k)) + ∑ k : Fin 2048, f (bot k) := by
  exact Fin.sum_univ_add (M := EReal) (a := 2048) (b := 2048) f

end Cert.Spec

end
-- ==== Proof.KI.Host.lean ====
/-
  What the host operations before the first stage leave, at the ideal values: the six weight matrices converted to
  the narrow format are the matrices themselves (a change of float format is the identity on the extended reals),
  the six bias vectors and the scaling scalar reshaped to one row are `Spec.row` of them, and the uncertainty array
  with its unit axis dropped is `Spec.squeeze` of it.
-/
import proofs.«127285_j65532611002879_1_alg».proof.Proof.Gen.KernelIdeal.Launch
import proofs.«127285_j65532611002879_1_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Val

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- Core `c`'s buffers after the host operations, from the launch memory `m`. -/
abbrev H1 : Dev nD → Valuation τ sig (Elt Ideal) := fun c => StableHlo.after hostOps0 (fun b => m ((c : Dev nD), b))

theorem host_v0 (c : Dev nD) : (H1 m c main_v0 : S1024x2048.Idx → EReal) = m ((c : Thread nD τ).loc main_arg5) := by
  show StableHlo.after hostOps0 (fun b => m ((c : Dev nD), b)) (Proc.devRef .tc main_v0) = _
  after_results
  rfl
theorem host_v1 (c : Dev nD) : (H1 m c main_v1 : S2048x2048.Idx → EReal) = m ((c : Thread nD τ).loc main_arg15) := by
  show StableHlo.after hostOps0 (fun b => m ((c : Dev nD), b)) (Proc.devRef .tc main_v1) = _
  after_results
  rfl
theorem host_v2 (c : Dev nD) : (H1 m c main_v2 : S4096x2048.Idx → EReal) = m ((c : Thread nD τ).loc main_arg7) := by
  show StableHlo.after hostOps0 (fun b => m ((c : Dev nD), b)) (Proc.devRef .tc main_v2) = _
  after_results
  rfl
theorem host_v3 (c : Dev nD) : (H1 m c main_v3 : S4096x2048.Idx → EReal) = m ((c : Thread nD τ).loc main_arg9) := by
  show StableHlo.after hostOps0 (fun b => m ((c : Dev nD), b)) (Proc.devRef .tc main_v3) = _
  after_results
  rfl
theorem host_v4 (c : Dev nD) : (H1 m c main_v4 : S4096x2048.Idx → EReal) = m ((c : Thread nD τ).loc main_arg11) := by
  show StableHlo.after hostOps0 (fun b => m ((c : Dev nD), b)) (Proc.devRef .tc main_v4) = _
  after_results
  rfl
theorem host_v5 (c : Dev nD) : (H1 m c main_v5 : S4096x2048.Idx → EReal) = m ((c : Thread nD τ).loc main_arg13) := by
  show StableHlo.after hostOps0 (fun b => m ((c : Dev nD), b)) (Proc.devRef .tc main_v5) = _
  after_results
  rfl

theorem host_v6 (c : Dev nD) : (H1 m c main_v6 : S1x2048.Idx → EReal) = Cert.Spec.row (m ((c : Thread nD τ).loc main_arg6)) := by
  show StableHlo.after hostOps0 (fun b => m ((c : Dev nD), b)) (Proc.devRef .tc main_v6) = _
  after_results
  funext i
  obtain ⟨u, q, rfl⟩ : ∃ u q, i = ix2 u q := ⟨i 0, i 1, eq_ix2 i⟩
  exact shapeCast_a_1a_apply _ _ u q
theorem host_v7 (c : Dev nD) : (H1 m c main_v7 : S1x2048.Idx → EReal) = Cert.Spec.row (m ((c : Thread nD τ).loc main_arg16)) := by
  show StableHlo.after hostOps0 (fun b => m ((c : Dev nD), b)) (Proc.devRef .tc main_v7) = _
  after_results
  funext i
  obtain ⟨u, q, rfl⟩ : ∃ u q, i = ix2 u q := ⟨i 0, i 1, eq_ix2 i⟩
  exact shapeCast_a_1a_apply _ _ u q
theorem host_v8 (c : Dev nD) : (H1 m c main_v8 : S1x2048.Idx → EReal) = Cert.Spec.row (m ((c : Thread nD τ).loc main_arg8)) := by
  show StableHlo.after hostOps0 (fun b => m ((c : Dev nD), b)) (Proc.devRef .tc main_v8) = _
  after_results
  funext i
  obtain ⟨u, q, rfl⟩ : ∃ u q, i = ix2 u q := ⟨i 0, i 1, eq_ix2 i⟩
  exact shapeCast_a_1a_apply _ _ u q
theorem host_v9 (c : Dev nD) : (H1 m c main_v9 : S1x2048.Idx → EReal) = Cert.Spec.row (m ((c : Thread nD τ).loc main_arg10)) := by
  show StableHlo.after hostOps0 (fun b => m ((c : Dev nD), b)) (Proc.devRef .tc main_v9) = _
  after_results
  funext i
  obtain ⟨u, q, rfl⟩ : ∃ u q, i = ix2 u q := ⟨i 0, i 1, eq_ix2 i⟩
  exact shapeCast_a_1a_apply _ _ u q
theorem host_v10 (c : Dev nD) : (H1 m c main_v10 : S1x2048.Idx → EReal) = Cert.Spec.row (m ((c : Thread nD τ).loc main_arg12)) := by
  show StableHlo.after hostOps0 (fun b => m ((c : Dev nD), b)) (Proc.devRef .tc main_v10) = _
  after_results
  funext i
  obtain ⟨u, q, rfl⟩ : ∃ u q, i = ix2 u q := ⟨i 0, i 1, eq_ix2 i⟩
  exact shapeCast_a_1a_apply _ _ u q
theorem host_v11 (c : Dev nD) : (H1 m c main_v11 : S1x2048.Idx → EReal) = Cert.Spec.row (m ((c : Thread nD τ).loc main_arg14)) := by
  show StableHlo.after hostOps0 (fun b => m ((c : Dev nD), b)) (Proc.devRef .tc main_v11) = _
  after_results
  funext i
  obtain ⟨u, q, rfl⟩ : ∃ u q, i = ix2 u q := ⟨i 0, i 1, eq_ix2 i⟩
  exact shapeCast_a_1a_apply _ _ u q
theorem host_v12 (c : Dev nD) : (H1 m c main_v12 : S1x1.Idx → EReal) = Cert.Spec.row (m ((c : Thread nD τ).loc main_arg17)) := by
  show StableHlo.after hostOps0 (fun b => m ((c : Dev nD), b)) (Proc.devRef .tc main_v12) = _
  after_results
  funext i
  obtain ⟨u, q, rfl⟩ : ∃ u q, i = ix2 u q := ⟨i 0, i 1, eq_ix2 i⟩
  exact shapeCast_a_1a_apply _ _ u q

/-- Dropping the unit axis keeps the row-major position: `(p · 2048 + q) · 1 + 0 = p · 2048 + q`. -/
theorem host_v13 (c : Dev nD) : (H1 m c main_v13 : S16384x2048.Idx → EReal) = Cert.Spec.squeeze (m ((c : Thread nD τ).loc main_arg4)) := by
  show StableHlo.after hostOps0 (fun b => m ((c : Dev nD), b)) (Proc.devRef .tc main_v13) = _
  after_results
  funext i
  obtain ⟨p, q, rfl⟩ : ∃ p q, i = ix2 p q := ⟨i 0, i 1, eq_ix2 i⟩
  refine shapeCast_apply _ _ _ (ix3 p q (0 : Fin 1)) ?_
  rw [Shape.rowMajor_val_three]
  refine Eq.trans ?_ (Shape.rowMajor_val_two (d := ![16384, 2048]) (ix2 p q)).symm
  show (p.val * 2048 + q.val) * 1 + 0 = p.val * 2048 + q.val
  omega

end Cert.KernelIdeal.Val

end
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.KI.Pay.lean ====
/-
  What each kernel body stores, read at one element, at the ideal values.

  Every body is a chain of pointwise operations around plain matrix products into a zero accumulator and
  broadcasts of a one-row (or one-element) value down the rows. Rounding to the narrower format is the identity
  on the extended reals and a recast to the same shape changes nothing, so at `(p, q)`
    the projection stage stores   ∑ k, x (p, k) · w (k, q) + b (0, q),
    the error stage stores        σ (∑ k, x (p, k) · w (k, q) + b (0, q)),
    the fused stage stores        the new cell and hidden values of the specification, each gate being
                                  pr · W_top + hid · W_bot + b at `(p, q)`.
-/
import proofs.«127285_j65532611002879_1_alg».proof.Proof.Gen.KernelIdeal.Skeleton
import proofs.«127285_j65532611002879_1_alg».proof.Proof.KI.Blk2
import proofs.«127285_j65532611002879_1_alg».proof.Proof.Spec
import proofs.«127285_j65532611002879_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Val

open Idealize.ShloMosaic Idealize.ShloMosaic.ValueIdx Cert.KernelIdeal Cert.KernelIdeal.Gen

/-- A product into the zero accumulator, its left operand rounded to the narrower format and its right operand
    recast to its own shape, at `(p, q)`: the sum over the contracted axis. -/
theorem prod_at {M K N : Nat} (d : DotDims ⟨2, ![M, K]⟩ ⟨2, ![K, N]⟩ ⟨2, ![M, N]⟩)
    (hlb : d.lhsBatch = []) (hrb : d.rhsBatch = []) (hln : d.lhsNonContracting = [0])
    (hrn : d.rhsNonContracting = [1]) (hlc : d.lhsContracting = [1]) (hrc : d.rhsContracting = [0])
    (hr : d.contr.rank = 1) (hs : d.contr.size ⟨0, by omega⟩ = K)
    (x : FVec Ideal ⟨2, ![M, K]⟩ .bf16) (w : FVec Ideal ⟨2, ![K, N]⟩ .bf16)
    (hc : (⟨2, ![K, N]⟩ : Shape).ShapeCasts ⟨2, ![K, N]⟩) (p : Fin M) (q : Fin N) :
    matmul d none x (shapeCast ⟨2, ![K, N]⟩ w hc) (constant (F := Ideal) ⟨2, ![M, N]⟩ .f32 0x00000000#32) (ix2 p q)
      = ∑ k : Fin K, x (ix2 p k) * w (ix2 k q) := by
  rw [shapeCast_self]
  exact PlainDot.matmul_zero_apply d hlb hrb hln hrn hlc hrc hr hs none x w p q

/-- A one-row value recast to its own shape and broadcast down the rows, at `(p, q)`: the row at `q`. -/
theorem row_at {M N : Nat} (b : (⟨2, ![1, N]⟩ : Shape).Idx → EReal) (hc : (⟨2, ![1, N]⟩ : Shape).ShapeCasts ⟨2, ![1, N]⟩)
    (hb : (⟨2, ![1, N]⟩ : Shape).Broadcasts ⟨2, ![M, N]⟩) (p : Fin M) (q : Fin N) :
    broadcastTo ⟨2, ![M, N]⟩ (shapeCast ⟨2, ![1, N]⟩ b hc) hb (ix2 p q) = b (ix2 0 q) := by
  rw [shapeCast_self]
  exact broadcastTo_1b_ab_apply b hb p q

theorem pay0_at (x : Vec Ideal S512x1024 .f32) (w : Vec Ideal S1024x2048 .bf16) (b : Vec Ideal S1x2048 .f32) (p : Fin 512) (q : Fin 2048) :
    k0_pay1 (F := Ideal) x w b (ix2 p q) = Cert.Spec.affineAt x w b p q := by
  unfold k0_pay1 Cert.Spec.affineAt
  refine congrArg₂ (· + ·) ?_ ?_
  · exact prod_at dot_S512x1024_S1024x2048_S512x2048_1_0_0_1_n_n rfl rfl rfl rfl rfl rfl rfl rfl _ w _ p q
  · exact row_at b _ _ p q

theorem pay1_at (x : Vec Ideal S512x2048 .f32) (w : Vec Ideal S2048x2048 .bf16) (b : Vec Ideal S1x2048 .f32) (p : Fin 512) (q : Fin 2048) :
    k1_pay1 (F := Ideal) x w b (ix2 p q) = Ideal.logistic (Cert.Spec.affineAt x w b p q) := by
  unfold k1_pay1 Cert.Spec.affineAt
  refine congrArg Ideal.logistic (congrArg₂ (· + ·) ?_ ?_)
  · exact prod_at dot_S512x2048_S2048x2048_S512x2048_1_0_0_1_n_n rfl rfl rfl rfl rfl rfl rfl rfl _ w _ p q
  · exact row_at b _ _ p q

/-! ## The fused stage -/

/-- A one-element value recast to its own shape and broadcast over a tile, at `(p, q)`: that element. -/
theorem one_at {M N : Nat} (t : (⟨2, ![1, 1]⟩ : Shape).Idx → EReal) (hc : (⟨2, ![1, 1]⟩ : Shape).ShapeCasts ⟨2, ![1, 1]⟩)
    (hb : (⟨2, ![1, 1]⟩ : Shape).Broadcasts ⟨2, ![M, N]⟩) (p : Fin M) (q : Fin N) :
    broadcastTo ⟨2, ![M, N]⟩ (shapeCast ⟨2, ![1, 1]⟩ t hc) hb (ix2 p q) = t (ix2 0 0) := by
  rw [shapeCast_self]
  refine broadcastTo_apply t hb (ix2 p q) (ix2 (0 : Fin 1) (0 : Fin 1)) fun ax => ?_
  match ax with
  | ⟨0, _⟩ => rfl
  | ⟨1, _⟩ => rfl

/-- The left operand of the products against the upper weight tiles is the `proj` row block itself. -/
theorem pay3_eq (pr : Vec Ideal S512x2048 .f32) : (k2_pay3 (F := Ideal) pr : S512x2048.Idx → EReal) = pr :=
  shapeCast_self pr _

/-- The left operand of the products against the lower weight tiles is the `hid` row block itself. -/
theorem pay4_eq (hid : Vec Ideal S512x2048 .f32) : (k2_pay4 (F := Ideal) hid : S512x2048.Idx → EReal) = hid := rfl

/-- A gate's pre-activation on the block, at `(p, q)`: the two products over 2048 terms, then the bias row. -/
theorem gate_at (a c : FVec Ideal S512x2048 .bf16) (wt wb : FVec Ideal S2048x128 .bf16) (b : Vec Ideal S1x128 .f32)
    (p : Fin 512) (q : Fin 128) :
    addf (addf
        (matmul dot_S512x2048_S2048x128_S512x128_1_0_0_1_n_n none a (shapeCast S2048x128 wt shapeCasts_S2048x128_S2048x128)
          (constant (F := Ideal) S512x128 .f32 0x00000000#32))
        (matmul dot_S512x2048_S2048x128_S512x128_1_0_0_1_n_n none c (shapeCast S2048x128 wb shapeCasts_S2048x128_S2048x128)
          (constant (F := Ideal) S512x128 .f32 0x00000000#32)))
      (broadcastTo S512x128 (shapeCast S1x128 b shapeCasts_S1x128_S1x128) broadcasts_S1x128_S512x128) (ix2 p q)
      = Cert.Spec.gate2At a c wt wb b p q := by
  unfold Cert.Spec.gate2At
  refine congrArg₂ (· + ·) (congrArg₂ (· + ·) ?_ ?_) ?_
  · exact prod_at dot_S512x2048_S2048x128_S512x128_1_0_0_1_n_n rfl rfl rfl rfl rfl rfl rfl rfl a wt _ p q
  · exact prod_at dot_S512x2048_S2048x128_S512x128_1_0_0_1_n_n rfl rfl rfl rfl rfl rfl rfl rfl c wb _ p q
  · exact row_at b _ _ p q

/-- The forget gate, activated, at `(p, q)`. -/
theorem pay5_at (pr hid : Vec Ideal S512x2048 .f32) (wt wb : Vec Ideal S2048x128 .bf16) (b : Vec Ideal S1x128 .f32)
    (p : Fin 512) (q : Fin 128) :
    k2_pay5 (F := Ideal) pr hid wt wb b (ix2 p q) = Ideal.logistic (Cert.Spec.gate2At pr hid wt wb b p q) := by
  unfold k2_pay5
  refine (congrArg Ideal.logistic (gate_at (k2_pay3 pr) (k2_pay4 hid) wt wb b p q)).trans ?_
  rw [pay3_eq, pay4_eq]

/-- The input gate, activated, at `(p, q)`. -/
theorem pay6_at (pr hid : Vec Ideal S512x2048 .f32) (wt wb : Vec Ideal S2048x128 .bf16) (b : Vec Ideal S1x128 .f32)
    (p : Fin 512) (q : Fin 128) :
    k2_pay6 (F := Ideal) pr hid wt wb b (ix2 p q) = Ideal.logistic (Cert.Spec.gate2At pr hid wt wb b p q) := by
  unfold k2_pay6
  refine (congrArg Ideal.logistic (gate_at (k2_pay3 pr) (k2_pay4 hid) wt wb b p q)).trans ?_
  rw [pay3_eq, pay4_eq]

/-- The output gate, activated, at `(p, q)`. -/
theorem pay8_at (pr hid : Vec Ideal S512x2048 .f32) (wt wb : Vec Ideal S2048x128 .bf16) (b : Vec Ideal S1x128 .f32)
    (p : Fin 512) (q : Fin 128) :
    k2_pay8 (F := Ideal) (k2_pay3 pr) (k2_pay4 hid) wt wb b (ix2 p q)
      = Ideal.logistic (Cert.Spec.gate2At pr hid wt wb b p q) := by
  unfold k2_pay8
  refine (congrArg Ideal.logistic (gate_at (k2_pay3 pr) (k2_pay4 hid) wt wb b p q)).trans ?_
  rw [pay3_eq, pay4_eq]

/-- The sum of the forget and input terms before scaling, at `(p, q)`. -/
theorem preCellBlk_at (pr hid : Vec Ideal S512x2048 .f32) (cell err u : Vec Ideal S512x128 .f32)
    (wft wfb wit wib wct wcb : Vec Ideal S2048x128 .bf16) (bf bi bc : Vec Ideal S1x128 .f32) (p : Fin 512) (q : Fin 128) :
    Hand.preCellBlk (F := Ideal) pr hid cell err u wft wfb wit wib wct wcb bf bi bc (ix2 p q)
      = (Ideal.logistic (Cert.Spec.gate2At pr hid wft wfb bf p q) * (Cert.Spec.one - u (ix2 p q) * Cert.Spec.tenth)) * cell (ix2 p q)
        + ((Ideal.logistic (Cert.Spec.gate2At pr hid wit wib bi p q) * (Cert.Spec.one + u (ix2 p q)))
            * Ideal.tanh (Cert.Spec.gate2At pr hid wct wcb bc p q)) * err (ix2 p q) := by
  unfold Hand.preCellBlk k2_pay9
  have eu : shapeCast S512x128 u shapeCasts_S512x128_S512x128 = u := shapeCast_self u _
  have ee : shapeCast S512x128 err shapeCasts_S512x128_S512x128 = err := shapeCast_self err _
  have gc : addf (addf (k2_pay7 (F := Ideal) pr wct)
        (matmul dot_S512x2048_S2048x128_S512x128_1_0_0_1_n_n none (k2_pay4 (F := Ideal) hid)
          (shapeCast S2048x128 wcb shapeCasts_S2048x128_S2048x128 : FVec Ideal S2048x128 .bf16)
          (constant (F := Ideal) S512x128 .f32 0x00000000#32)))
      (broadcastTo S512x128 (shapeCast S1x128 bc shapeCasts_S1x128_S1x128) broadcasts_S1x128_S512x128) (ix2 p q)
      = Cert.Spec.gate2At pr hid wct wcb bc p q := by
    unfold k2_pay7
    refine (gate_at (k2_pay3 pr) (k2_pay4 hid) wct wcb bc p q).trans ?_
    rw [pay3_eq, pay4_eq]
  rw [eu, ee]
  refine congrArg₂ (· + ·) (congrArg₂ (· * ·) (congrArg₂ (· * ·) (pay5_at pr hid wft wfb bf p q) rfl) rfl)
    (congrArg₂ (· * ·) (congrArg₂ (· * ·) (congrArg₂ (· * ·) (pay6_at pr hid wit wib bi p q) rfl) (congrArg Ideal.tanh gc)) rfl)

theorem cellBlk_at (ts : Vec Ideal S1x1 .f32) (pr hid : Vec Ideal S512x2048 .f32) (cell err u : Vec Ideal S512x128 .f32) (wft wfb wit wib wct wcb : Vec Ideal S2048x128 .bf16) (bf bi bc : Vec Ideal S1x128 .f32) (p : Fin 512) (q : Fin 128) :
    Hand.cellBlk (F := Ideal) ts pr hid cell err u wft wfb wit wib wct wcb bf bi bc (ix2 p q)
      = Cert.Spec.cellOf (Cert.Spec.gate2At pr hid wft wfb bf p q) (Cert.Spec.gate2At pr hid wit wib bi p q) (Cert.Spec.gate2At pr hid wct wcb bc p q) (u (ix2 p q)) (cell (ix2 p q)) (err (ix2 p q)) (ts (ix2 0 0)) := by
  unfold Hand.cellBlk k2_pay1 Cert.Spec.cellOf
  exact congrArg₂ (· * ·) (preCellBlk_at pr hid cell err u wft wfb wit wib wct wcb bf bi bc p q) (one_at ts _ _ p q)

theorem hidBlk_at (ts : Vec Ideal S1x1 .f32) (pr hid : Vec Ideal S512x2048 .f32) (cell err u : Vec Ideal S512x128 .f32) (wft wfb wit wib wct wcb wot wob : Vec Ideal S2048x128 .bf16) (bf bi bc bo : Vec Ideal S1x128 .f32) (p : Fin 512) (q : Fin 128) :
    Hand.hidBlk (F := Ideal) ts pr hid cell err u wft wfb wit wib wct wcb wot wob bf bi bc bo (ix2 p q)
      = Cert.Spec.hidOf (Cert.Spec.gate2At pr hid wot wob bo p q) (Cert.Spec.cellOf (Cert.Spec.gate2At pr hid wft wfb bf p q) (Cert.Spec.gate2At pr hid wit wib bi p q) (Cert.Spec.gate2At pr hid wct wcb bc p q) (u (ix2 p q)) (cell (ix2 p q)) (err (ix2 p q)) (ts (ix2 0 0))) := by
  unfold Hand.hidBlk k2_pay2 Cert.Spec.hidOf
  exact congrArg₂ (· * ·) (pay8_at pr hid wot wob bo p q)
    (congrArg Ideal.tanh (cellBlk_at ts pr hid cell err u wft wfb wit wib wct wcb bf bi bc p q))

end Cert.KernelIdeal.Val

end
-- ==== Proof.KI.Arr0.lean ====
/-
  The array the projection stage leaves: at row `r` and column `q` the row of the first operand times the weight
  matrix's column, plus the bias row's entry.

  Point `t` of the 32 writes back the tile of rows `512 t … 512 t + 511`; its row block of the first operand is the
  same rows of that array, its weight and bias blocks are the whole arrays. The tiles cover the result array.
-/
import proofs.«127285_j65532611002879_1_alg».proof.Proof.KI.Reg0
import proofs.«127285_j65532611002879_1_alg».proof.Proof.KI.Pay
import proofs.«127285_j65532611002879_1_alg».proof.Proof.Spec
import Idealize.ShloMosaic.Lib.Pipeline.Value
import Idealize.ShloMosaic.Lib.ValueIdx

open scoped BigOperators

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

theorem zero_off : (![0, 0] : Fin 2 → Nat) = fun _ => 0 := funext fun a => by fin_cases a <;> rfl

/-- The stage's block indices, decided over the grid: the row-block and result windows are at block row `t`, the
    weight and bias windows at block (0, 0). -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a stored tile: if row `p` of the row block is row `r` of the array `X` and the weight and bias
    blocks are the arrays `W`, `B`, the entry at `(p, q)` is the specification's at `(r, q)`. -/
theorem tile0_at (x : Vec Ideal S512x1024 .f32) (w : Vec Ideal S1024x2048 .bf16) (b : Vec Ideal S1x2048 .f32)
    (X : Cert.Spec.Mat 16384 1024) (W : Cert.Spec.Mat 1024 2048) (B : Cert.Spec.Mat 1 2048)
    (r : Fin 16384) (p : Fin 512) (q : Fin 2048)
    (hx : ∀ k : Fin 1024, x (ix2 p k) = X (ix2 r k)) (hw : ∀ k : Fin 1024, w (ix2 k q) = W (ix2 k q))
    (hb : b (ix2 0 q) = B (ix2 0 q)) :
    k0_pay1 (F := Ideal) x w b (ix2 p q) = Cert.Spec.affineAt X W B r q := by
  rw [pay0_at]
  unfold Cert.Spec.affineAt
  rw [hb]
  exact congrArg (· + B (ix2 0 q)) (Finset.sum_congr rfl fun k _ => by rw [hx k, hw k])

variable (V : (c : Dev nD) → (b : Ref sig .tc) → Buf (Elt Ideal) ((c : Thread nD τ).loc b))

/-- Row `p` of point `t`'s row block is row `512 t + p` of the first operand. -/
theorem xblk0_at (c : Dev nD) (t : Fin cfg0.N) (r : Fin 16384) (p : Fin 512) (k : Fin 1024) (hr : r.val = 512 * t.val + p.val) :
    (Hand.iblk0 V c 0 t : Vec Ideal S512x1024 .f32) (ix2 p k) = (V c main_arg0 : S16384x1024.Idx → EReal) (ix2 r k) := by
  obtain ⟨e0, e1, -⟩ := index0 t
  unfold Hand.iblk0
  rw [View.read_apply]
  show V c main_arg0 _ = V c main_arg0 _
  congr 1
  funext a
  apply Fin.ext
  match a with
  | ⟨0, _⟩ => show win0_0.index t (0 : Fin 2) * 512 + 1 * p.val = r.val; omega
  | ⟨1, _⟩ => show win0_0.index t (1 : Fin 2) * 1024 + 1 * k.val = k.val; omega

/-- The weight block at any point is the weight array. -/
theorem wblk0_at (c : Dev nD) (t : Fin cfg0.N) (k : Fin 1024) (q : Fin 2048) :
    (Hand.iblk0 V c 1 t : Vec Ideal S1024x2048 .bf16) (ix2 k q) = (V c main_v0 : S1024x2048.Idx → EReal) (ix2 k q) := by
  obtain ⟨-, -, e0, e1, -⟩ := index0 t
  unfold Hand.iblk0
  rw [View.read_apply]
  show V c main_v0 _ = V c main_v0 _
  congr 1
  funext a
  apply Fin.ext
  match a with
  | ⟨0, _⟩ => show win0_1.index t (0 : Fin 2) * 1024 + 1 * k.val = k.val; omega
  | ⟨1, _⟩ => show win0_1.index t (1 : Fin 2) * 2048 + 1 * q.val = q.val; omega

/-- The bias block at any point is the bias row. -/
theorem bblk0_at (c : Dev nD) (t : Fin cfg0.N) (z : Fin 1) (q : Fin 2048) :
    (Hand.iblk0 V c 2 t : Vec Ideal S1x2048 .f32) (ix2 z q) = (V c main_v6 : S1x2048.Idx → EReal) (ix2 z q) := by
  obtain ⟨-, -, -, -, e0, e1, -⟩ := index0 t
  unfold Hand.iblk0
  rw [View.read_apply]
  show V c main_v6 _ = V c main_v6 _
  congr 1
  funext a
  apply Fin.ext
  match a with
  | ⟨0, _⟩ => show win0_2.index t (0 : Fin 2) * 1 + 1 * z.val = z.val; omega
  | ⟨1, _⟩ => show win0_2.index t (1 : Fin 2) * 2048 + 1 * q.val = q.val; omega

/-- The specification's array of the region-entry contents. -/
abbrev proj0 (c : Dev nD) : S16384x2048.Idx → EReal :=
  fun i => Cert.Spec.affineAt (V c main_arg0) (V c main_v0) (V c main_v6) (i 0) (i 1)

/-- What point `t` writes back is block `t` of the specification's array. -/
theorem flushed0_eq (c : Dev nD) (t : Fin cfg0.N) :
    (Hand.dat0 (F := Ideal) V c).flushed 3 t = ((cfg0.win 3).blk t).view.read (Elt Ideal) (proj0 V c) := by
  show (cfg0.win 3).cut (grid0.coords t) ((Hand.dat0 (F := Ideal) V c).after 3 t) = _
  rw [Hand.after0_3]
  unfold Hand.out0_3
  rw [View.canon_unit_zero zero_off]
  simp only [View.ld_unit_zero (S := S512x1024) zero_off, View.ld_unit_zero (S := S1024x2048) zero_off, View.ld_unit_zero (S := S1x2048) zero_off]
  funext j
  obtain ⟨p, q, rfl⟩ : ∃ (p : Fin 512) (q : Fin 2048), j = ix2 p q := ⟨j 0, j 1, eq_ix2 j⟩
  obtain ⟨-, -, -, -, -, -, e0, e1⟩ := index0 t
  have ht : t.val < 32 := lt_of_lt_of_eq t.isLt (show cfg0.N = 32 from N_0)
  obtain ⟨r, hr⟩ : ∃ r : Fin 16384, r.val = 512 * t.val + p.val := ⟨⟨512 * t.val + p.val, by omega⟩, rfl⟩
  have hemb : ((cfg0.win 3).blk t).view.emb (ix2 p q) = (ix2 r q : S16384x2048.Idx) := by
    funext a
    apply Fin.ext
    match a with
    | ⟨0, _⟩ => show win0_3.index t (0 : Fin 2) * 512 + 1 * p.val = r.val; omega
    | ⟨1, _⟩ => show win0_3.index t (1 : Fin 2) * 2048 + 1 * q.val = q.val; omega
  show k0_pay1 (F := Ideal) (Hand.iblk0 V c 0 t) (Hand.iblk0 V c 1 t) (Hand.iblk0 V c 2 t) (ix2 p q)
    = proj0 V c (((cfg0.win 3).blk t).view.emb (ix2 p q))
  rw [hemb]
  exact tile0_at (Hand.iblk0 V c 0 t) (Hand.iblk0 V c 1 t) (Hand.iblk0 V c 2 t) (V c main_arg0) (V c main_v0) (V c main_v6) r p q
    (fun k => xblk0_at V c t r p k hr) (fun k => wblk0_at V c t k q) (bblk0_at V c t 0 q)

/-- An index of the result array is in point `t`'s block iff each coordinate is in the block's range on its axis. -/
theorem mem_blk0 (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v14).slice (win0_3.rect t)).set ↔ _
  rw [View.set_slice_whole, Rect.mem_set_unit]
  exact Iff.rfl

/-- Every index of the result array is in the block of the point its row falls in: row `r` in point `r / 512`'s. -/
theorem cover0 (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ : ∃ t : Fin cfg0.N, t.val = (i 0).val / 512 := ⟨⟨(i 0).val / 512, lt_of_lt_of_eq (by omega : (i 0).val / 512 < 32) (show cfg0.N = 32 from N_0).symm⟩, rfl⟩
  obtain ⟨-, -, -, -, -, -, e0, e1⟩ := index0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- The result array after the region: the specification's projection of the region-entry contents. -/
theorem arr0 (c : Dev nD) :
    (Hand.dat0 (F := Ideal) V c).arrAt 3 cfg0.N = fun i => Cert.Spec.affineAt (V c main_arg0) (V c main_v0) (V c main_v6) (i 0) (i 1) :=
  (Hand.dat0 (F := Ideal) V c).arrAt_eq_of_cover 3 (proj0 V c) (fun t _ => flushed0_eq V c t) (cover0)

end Cert.KernelIdeal.Val

end
-- ==== Proof.KI.Arr1.lean ====
/-
  The array the error stage leaves: at row `r` and column `q` the logistic function of the row of the first
  operand times the weight matrix's column plus the bias row's entry.

  Point `t` of the 32 writes back the tile of rows `512 t … 512 t + 511`; its row block of the first operand is the
  same rows of that array, its weight and bias blocks are the whole arrays. The tiles cover the result array.
-/
import proofs.«127285_j65532611002879_1_alg».proof.Proof.KI.Reg1
import proofs.«127285_j65532611002879_1_alg».proof.Proof.KI.Pay
import proofs.«127285_j65532611002879_1_alg».proof.Proof.Spec
import Idealize.ShloMosaic.Lib.Pipeline.Value
import Idealize.ShloMosaic.Lib.ValueIdx

open scoped BigOperators

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

theorem zero_off1 : (![0, 0] : Fin 2 → Nat) = fun _ => 0 := funext fun a => by fin_cases a <;> rfl

/-- The stage's block indices, decided over the grid: the row-block and result windows are at block row `t`, the
    weight and bias windows at block (0, 0). -/
theorem index1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a stored tile: if row `p` of the row block is row `r` of the array `X` and the weight and bias
    blocks are the arrays `W`, `B`, the entry at `(p, q)` is the specification's at `(r, q)`. -/
theorem tile1_at (x : Vec Ideal S512x2048 .f32) (w : Vec Ideal S2048x2048 .bf16) (b : Vec Ideal S1x2048 .f32)
    (X : Cert.Spec.Mat 16384 2048) (W : Cert.Spec.Mat 2048 2048) (B : Cert.Spec.Mat 1 2048)
    (r : Fin 16384) (p : Fin 512) (q : Fin 2048)
    (hx : ∀ k : Fin 2048, x (ix2 p k) = X (ix2 r k)) (hw : ∀ k : Fin 2048, w (ix2 k q) = W (ix2 k q))
    (hb : b (ix2 0 q) = B (ix2 0 q)) :
    k1_pay1 (F := Ideal) x w b (ix2 p q) = Ideal.logistic (Cert.Spec.affineAt X W B r q) := by
  rw [pay1_at]
  unfold Cert.Spec.affineAt
  rw [hb]
  exact congrArg (fun s => Ideal.logistic (s + B (ix2 0 q))) (Finset.sum_congr rfl fun k _ => by rw [hx k, hw k])

variable (V : (c : Dev nD) → (b : Ref sig .tc) → Buf (Elt Ideal) ((c : Thread nD τ).loc b))

/-- Row `p` of point `t`'s row block is row `512 t + p` of the first operand. -/
theorem xblk1_at (c : Dev nD) (t : Fin cfg1.N) (r : Fin 16384) (p : Fin 512) (k : Fin 2048) (hr : r.val = 512 * t.val + p.val) :
    (Hand.iblk1 V c 0 t : Vec Ideal S512x2048 .f32) (ix2 p k) = (V c main_arg3 : S16384x2048.Idx → EReal) (ix2 r k) := by
  obtain ⟨e0, e1, -⟩ := index1 t
  unfold Hand.iblk1
  rw [View.read_apply]
  show V c main_arg3 _ = V c main_arg3 _
  congr 1
  funext a
  apply Fin.ext
  match a with
  | ⟨0, _⟩ => show win1_0.index t (0 : Fin 2) * 512 + 1 * p.val = r.val; omega
  | ⟨1, _⟩ => show win1_0.index t (1 : Fin 2) * 2048 + 1 * k.val = k.val; omega

/-- The weight block at any point is the weight array. -/
theorem wblk1_at (c : Dev nD) (t : Fin cfg1.N) (k : Fin 2048) (q : Fin 2048) :
    (Hand.iblk1 V c 1 t : Vec Ideal S2048x2048 .bf16) (ix2 k q) = (V c main_v1 : S2048x2048.Idx → EReal) (ix2 k q) := by
  obtain ⟨-, -, e0, e1, -⟩ := index1 t
  unfold Hand.iblk1
  rw [View.read_apply]
  show V c main_v1 _ = V c main_v1 _
  congr 1
  funext a
  apply Fin.ext
  match a with
  | ⟨0, _⟩ => show win1_1.index t (0 : Fin 2) * 2048 + 1 * k.val = k.val; omega
  | ⟨1, _⟩ => show win1_1.index t (1 : Fin 2) * 2048 + 1 * q.val = q.val; omega

/-- The bias block at any point is the bias row. -/
theorem bblk1_at (c : Dev nD) (t : Fin cfg1.N) (z : Fin 1) (q : Fin 2048) :
    (Hand.iblk1 V c 2 t : Vec Ideal S1x2048 .f32) (ix2 z q) = (V c main_v7 : S1x2048.Idx → EReal) (ix2 z q) := by
  obtain ⟨-, -, -, -, e0, e1, -⟩ := index1 t
  unfold Hand.iblk1
  rw [View.read_apply]
  show V c main_v7 _ = V c main_v7 _
  congr 1
  funext a
  apply Fin.ext
  match a with
  | ⟨0, _⟩ => show win1_2.index t (0 : Fin 2) * 1 + 1 * z.val = z.val; omega
  | ⟨1, _⟩ => show win1_2.index t (1 : Fin 2) * 2048 + 1 * q.val = q.val; omega

/-- The specification's array of the region-entry contents. -/
abbrev err1 (c : Dev nD) : S16384x2048.Idx → EReal :=
  fun i => Ideal.logistic (Cert.Spec.affineAt (V c main_arg3) (V c main_v1) (V c main_v7) (i 0) (i 1))

/-- What point `t` writes back is block `t` of the specification's array. -/
theorem flushed1_eq (c : Dev nD) (t : Fin cfg1.N) :
    (Hand.dat1 (F := Ideal) V c).flushed 3 t = ((cfg1.win 3).blk t).view.read (Elt Ideal) (err1 V c) := by
  show (cfg1.win 3).cut (grid1.coords t) ((Hand.dat1 (F := Ideal) V c).after 3 t) = _
  rw [Hand.after1_3]
  unfold Hand.out1_3
  rw [View.canon_unit_zero zero_off1]
  simp only [View.ld_unit_zero (S := S512x2048) zero_off1, View.ld_unit_zero (S := S2048x2048) zero_off1, View.ld_unit_zero (S := S1x2048) zero_off1]
  funext j
  obtain ⟨p, q, rfl⟩ : ∃ (p : Fin 512) (q : Fin 2048), j = ix2 p q := ⟨j 0, j 1, eq_ix2 j⟩
  obtain ⟨-, -, -, -, -, -, e0, e1⟩ := index1 t
  have ht : t.val < 32 := lt_of_lt_of_eq t.isLt (show cfg1.N = 32 from N_1)
  obtain ⟨r, hr⟩ : ∃ r : Fin 16384, r.val = 512 * t.val + p.val := ⟨⟨512 * t.val + p.val, by omega⟩, rfl⟩
  have hemb : ((cfg1.win 3).blk t).view.emb (ix2 p q) = (ix2 r q : S16384x2048.Idx) := by
    funext a
    apply Fin.ext
    match a with
    | ⟨0, _⟩ => show win1_3.index t (0 : Fin 2) * 512 + 1 * p.val = r.val; omega
    | ⟨1, _⟩ => show win1_3.index t (1 : Fin 2) * 2048 + 1 * q.val = q.val; omega
  show k1_pay1 (F := Ideal) (Hand.iblk1 V c 0 t) (Hand.iblk1 V c 1 t) (Hand.iblk1 V c 2 t) (ix2 p q)
    = err1 V c (((cfg1.win 3).blk t).view.emb (ix2 p q))
  rw [hemb]
  exact tile1_at (Hand.iblk1 V c 0 t) (Hand.iblk1 V c 1 t) (Hand.iblk1 V c 2 t) (V c main_arg3) (V c main_v1) (V c main_v7) r p q
    (fun k => xblk1_at V c t r p k hr) (fun k => wblk1_at V c t k q) (bblk1_at V c t 0 q)

/-- An index of the result array is in point `t`'s block iff each coordinate is in the block's range on its axis. -/
theorem mem_blk1 (t : Fin cfg1.N) (i : S16384x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v15).slice (win1_3.rect t)).set ↔ _
  rw [View.set_slice_whole, Rect.mem_set_unit]
  exact Iff.rfl

/-- Every index of the result array is in the block of the point its row falls in: row `r` in point `r / 512`'s. -/
theorem cover1 (i : S16384x2048.Idx) : ∃ t : Fin cfg1.N, (cfg1.win 3).flush t = true ∧ i ∈ ((cfg1.win 3).blk t).view.set := by
  have hi0 : (i 0).val < 16384 := (i 0).isLt
  have hi1 : (i 1).val < 2048 := (i 1).isLt
  obtain ⟨t, ht⟩ : ∃ t : Fin cfg1.N, t.val = (i 0).val / 512 :=
    ⟨⟨(i 0).val / 512, lt_of_lt_of_eq (by omega : (i 0).val / 512 < 32) (show cfg1.N = 32 from N_1).symm⟩, rfl⟩
  obtain ⟨-, -, -, -, -, -, e0, e1⟩ := index1 t
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 2048 ≤ (i 1).val ∧ (i 1).val < win1_3.index t (1 : Fin 2) * 2048 + 2048; omega

/-- The result array after the region: the specification's error term of the region-entry contents. -/
theorem arr1 (c : Dev nD) :
    (Hand.dat1 (F := Ideal) V c).arrAt 3 cfg1.N = fun i => Ideal.logistic (Cert.Spec.affineAt (V c main_arg3) (V c main_v1) (V c main_v7) (i 0) (i 1)) :=
  (Hand.dat1 (F := Ideal) V c).arrAt_eq_of_cover 3 (err1 V c) (fun t _ => flushed1_eq V c t) (cover1)

end Cert.KernelIdeal.Val

end
-- ==== Proof.KI.Arr2.lean ====
/-
  The two arrays the fused stage leaves: the new cell state and the new hidden state, each at row `r` and column
  `s` the specification's function of the arrays the stage reads.

  The grid is 32 x 16. Point `t` is block row `t / 16` and block column `t % 16`: it writes back the tile of rows
  `512 (t / 16) …` and columns `128 (t % 16) …` of each result. Its row blocks of the projection and of the hidden
  state are those rows (all 2048 columns); its tiles of the cell state, the error term and the mixing term are that
  same tile; of each gate matrix (4096 rows) its upper weight tile is rows `k` and its lower one rows `2048 + k`, at
  those columns; its bias tiles are those columns of the bias rows; the scaling scalar is the whole 1 x 1 array. So
  an entry of a stored tile is the specification's entry of the result, and the tiles cover each result array.
-/
import proofs.«127285_j65532611002879_1_alg».proof.Proof.KI.Reg2
import proofs.«127285_j65532611002879_1_alg».proof.Proof.KI.Pay
import proofs.«127285_j65532611002879_1_alg».proof.Proof.Spec
import Idealize.ShloMosaic.Lib.Pipeline.Value
import Idealize.ShloMosaic.Lib.ValueIdx

open scoped BigOperators

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

/-! ## The stage's block indices, decided over the grid -/

/-- The scaling scalar's window is always at block (0, 0). -/
theorem index2_0 : ∀ t : Fin cfg2.N, win2_0.index t (0 : Fin 2) = 0 ∧ win2_0.index t (1 : Fin 2) = 0 :=
  (by decide +kernel : ∀ t : Fin grid2.N, _)
/-- The two row-block windows are at block row `t / 16`, block column 0. -/
theorem index2_1 : ∀ t : Fin cfg2.N, win2_1.index t (0 : Fin 2) = t.val / 16 ∧ win2_1.index t (1 : Fin 2) = 0 :=
  (by decide +kernel : ∀ t : Fin grid2.N, _)
theorem index2_2 : ∀ t : Fin cfg2.N, win2_2.index t (0 : Fin 2) = t.val / 16 ∧ win2_2.index t (1 : Fin 2) = 0 :=
  (by decide +kernel : ∀ t : Fin grid2.N, _)
/-- The three tile windows and the two result windows are at block (`t / 16`, `t % 16`). -/
theorem index2_3 : ∀ t : Fin cfg2.N, win2_3.index t (0 : Fin 2) = t.val / 16 ∧ win2_3.index t (1 : Fin 2) = t.val % 16 :=
  (by decide +kernel : ∀ t : Fin grid2.N, _)
theorem index2_4 : ∀ t : Fin cfg2.N, win2_4.index t (0 : Fin 2) = t.val / 16 ∧ win2_4.index t (1 : Fin 2) = t.val % 16 :=
  (by decide +kernel : ∀ t : Fin grid2.N, _)
theorem index2_5 : ∀ t : Fin cfg2.N, win2_5.index t (0 : Fin 2) = t.val / 16 ∧ win2_5.index t (1 : Fin 2) = t.val % 16 :=
  (by decide +kernel : ∀ t : Fin grid2.N, _)
theorem index2_18 : ∀ t : Fin cfg2.N, win2_18.index t (0 : Fin 2) = t.val / 16 ∧ win2_18.index t (1 : Fin 2) = t.val % 16 :=
  (by decide +kernel : ∀ t : Fin grid2.N, _)
theorem index2_19 : ∀ t : Fin cfg2.N, win2_19.index t (0 : Fin 2) = t.val / 16 ∧ win2_19.index t (1 : Fin 2) = t.val % 16 :=
  (by decide +kernel : ∀ t : Fin grid2.N, _)
/-- An upper weight tile's window is at block row 0, a lower one's at block row 1, both at block column `t % 16`. -/
theorem index2_6 : ∀ t : Fin cfg2.N, win2_6.index t (0 : Fin 2) = 0 ∧ win2_6.index t (1 : Fin 2) = t.val % 16 :=
  (by decide +kernel : ∀ t : Fin grid2.N, _)
theorem index2_7 : ∀ t : Fin cfg2.N, win2_7.index t (0 : Fin 2) = 1 ∧ win2_7.index t (1 : Fin 2) = t.val % 16 :=
  (by decide +kernel : ∀ t : Fin grid2.N, _)
theorem index2_8 : ∀ t : Fin cfg2.N, win2_8.index t (0 : Fin 2) = 0 ∧ win2_8.index t (1 : Fin 2) = t.val % 16 :=
  (by decide +kernel : ∀ t : Fin grid2.N, _)
theorem index2_9 : ∀ t : Fin cfg2.N, win2_9.index t (0 : Fin 2) = 1 ∧ win2_9.index t (1 : Fin 2) = t.val % 16 :=
  (by decide +kernel : ∀ t : Fin grid2.N, _)
theorem index2_10 : ∀ t : Fin cfg2.N, win2_10.index t (0 : Fin 2) = 0 ∧ win2_10.index t (1 : Fin 2) = t.val % 16 :=
  (by decide +kernel : ∀ t : Fin grid2.N, _)
theorem index2_11 : ∀ t : Fin cfg2.N, win2_11.index t (0 : Fin 2) = 1 ∧ win2_11.index t (1 : Fin 2) = t.val % 16 :=
  (by decide +kernel : ∀ t : Fin grid2.N, _)
theorem index2_12 : ∀ t : Fin cfg2.N, win2_12.index t (0 : Fin 2) = 0 ∧ win2_12.index t (1 : Fin 2) = t.val % 16 :=
  (by decide +kernel : ∀ t : Fin grid2.N, _)
theorem index2_13 : ∀ t : Fin cfg2.N, win2_13.index t (0 : Fin 2) = 1 ∧ win2_13.index t (1 : Fin 2) = t.val % 16 :=
  (by decide +kernel : ∀ t : Fin grid2.N, _)
/-- The bias windows are at block row 0, block column `t % 16`. -/
theorem index2_14 : ∀ t : Fin cfg2.N, win2_14.index t (0 : Fin 2) = 0 ∧ win2_14.index t (1 : Fin 2) = t.val % 16 :=
  (by decide +kernel : ∀ t : Fin grid2.N, _)
theorem index2_15 : ∀ t : Fin cfg2.N, win2_15.index t (0 : Fin 2) = 0 ∧ win2_15.index t (1 : Fin 2) = t.val % 16 :=
  (by decide +kernel : ∀ t : Fin grid2.N, _)
theorem index2_16 : ∀ t : Fin cfg2.N, win2_16.index t (0 : Fin 2) = 0 ∧ win2_16.index t (1 : Fin 2) = t.val % 16 :=
  (by decide +kernel : ∀ t : Fin grid2.N, _)
theorem index2_17 : ∀ t : Fin cfg2.N, win2_17.index t (0 : Fin 2) = 0 ∧ win2_17.index t (1 : Fin 2) = t.val % 16 :=
  (by decide +kernel : ∀ t : Fin grid2.N, _)

/-! ## One entry of a stored tile, over blocks and arrays as variables -/

/-- A gate's pre-activation on the block is the specification's on the arrays: if row `p` of the two row blocks is
    row `r` of the arrays, column `q` of the upper and of the lower weight tile is column `s` of the upper and of the
    lower half of the gate matrix, and entry `q` of the bias tile is entry `s` of the bias row. -/
theorem gate_pt (pr hid : Vec Ideal S512x2048 .f32) (wt wb : Vec Ideal S2048x128 .bf16) (b : Vec Ideal S1x128 .f32)
    (PR HID : Cert.Spec.Mat 16384 2048) (W : Cert.Spec.Mat 4096 2048) (B : Cert.Spec.Mat 1 2048)
    (r : Fin 16384) (s : Fin 2048) (p : Fin 512) (q : Fin 128)
    (hpr : ∀ k : Fin 2048, pr (ix2 p k) = PR (ix2 r k)) (hhid : ∀ k : Fin 2048, hid (ix2 p k) = HID (ix2 r k))
    (hwt : ∀ k : Fin 2048, wt (ix2 k q) = W (ix2 (Cert.Spec.top k) s))
    (hwb : ∀ k : Fin 2048, wb (ix2 k q) = W (ix2 (Cert.Spec.bot k) s))
    (hb : b (ix2 0 q) = B (ix2 0 s)) :
    Cert.Spec.gate2At pr hid wt wb b p q = Cert.Spec.gateAt PR HID W B r s := by
  unfold Cert.Spec.gate2At Cert.Spec.gateAt
  rw [hb]
  exact congrArg (· + B (ix2 0 s)) (congrArg₂ (· + ·)
    (Finset.sum_congr rfl fun k _ => by rw [hpr k, hwt k])
    (Finset.sum_congr rfl fun k _ => by rw [hhid k, hwb k]))

/-- One entry of the stored cell tile is the specification's new cell state at `(r, s)`. -/
theorem cellTile_at (ts : Vec Ideal S1x1 .f32) (pr hid : Vec Ideal S512x2048 .f32) (cell err u : Vec Ideal S512x128 .f32)
    (wft wfb wit wib wct wcb : Vec Ideal S2048x128 .bf16) (bf bi bc : Vec Ideal S1x128 .f32)
    (PR HID CELL ERR U : Cert.Spec.Mat 16384 2048) (WF WI WC : Cert.Spec.Mat 4096 2048) (BF BI BC : Cert.Spec.Mat 1 2048)
    (TS : Cert.Spec.Mat 1 1) (r : Fin 16384) (s : Fin 2048) (p : Fin 512) (q : Fin 128)
    (hpr : ∀ k : Fin 2048, pr (ix2 p k) = PR (ix2 r k)) (hhid : ∀ k : Fin 2048, hid (ix2 p k) = HID (ix2 r k))
    (hcell : cell (ix2 p q) = CELL (ix2 r s)) (herr : err (ix2 p q) = ERR (ix2 r s)) (hu : u (ix2 p q) = U (ix2 r s))
    (hwft : ∀ k : Fin 2048, wft (ix2 k q) = WF (ix2 (Cert.Spec.top k) s))
    (hwfb : ∀ k : Fin 2048, wfb (ix2 k q) = WF (ix2 (Cert.Spec.bot k) s))
    (hwit : ∀ k : Fin 2048, wit (ix2 k q) = WI (ix2 (Cert.Spec.top k) s))
    (hwib : ∀ k : Fin 2048, wib (ix2 k q) = WI (ix2 (Cert.Spec.bot k) s))
    (hwct : ∀ k : Fin 2048, wct (ix2 k q) = WC (ix2 (Cert.Spec.top k) s))
    (hwcb : ∀ k : Fin 2048, wcb (ix2 k q) = WC (ix2 (Cert.Spec.bot k) s))
    (hbf : bf (ix2 0 q) = BF (ix2 0 s)) (hbi : bi (ix2 0 q) = BI (ix2 0 s)) (hbc : bc (ix2 0 q) = BC (ix2 0 s))
    (hts : ts (ix2 0 0) = TS (ix2 0 0)) :
    Hand.cellBlk (F := Ideal) ts pr hid cell err u wft wfb wit wib wct wcb bf bi bc (ix2 p q)
      = Cert.Spec.cellAt PR HID CELL ERR U WF WI WC BF BI BC TS r s := by
  rw [cellBlk_at]
  unfold Cert.Spec.cellAt
  rw [hcell, herr, hu, hts,
    gate_pt pr hid wft wfb bf PR HID WF BF r s p q hpr hhid hwft hwfb hbf,
    gate_pt pr hid wit wib bi PR HID WI BI r s p q hpr hhid hwit hwib hbi,
    gate_pt pr hid wct wcb bc PR HID WC BC r s p q hpr hhid hwct hwcb hbc]

/-- One entry of the stored hidden tile is the specification's new hidden state at `(r, s)`. -/
theorem hidTile_at (ts : Vec Ideal S1x1 .f32) (pr hid : Vec Ideal S512x2048 .f32) (cell err u : Vec Ideal S512x128 .f32)
    (wft wfb wit wib wct wcb wot wob : Vec Ideal S2048x128 .bf16) (bf bi bc bo : Vec Ideal S1x128 .f32)
    (PR HID CELL ERR U : Cert.Spec.Mat 16384 2048) (WF WI WC WO : Cert.Spec.Mat 4096 2048) (BF BI BC BO : Cert.Spec.Mat 1 2048)
    (TS : Cert.Spec.Mat 1 1) (r : Fin 16384) (s : Fin 2048) (p : Fin 512) (q : Fin 128)
    (hpr : ∀ k : Fin 2048, pr (ix2 p k) = PR (ix2 r k)) (hhid : ∀ k : Fin 2048, hid (ix2 p k) = HID (ix2 r k))
    (hcell : cell (ix2 p q) = CELL (ix2 r s)) (herr : err (ix2 p q) = ERR (ix2 r s)) (hu : u (ix2 p q) = U (ix2 r s))
    (hwft : ∀ k : Fin 2048, wft (ix2 k q) = WF (ix2 (Cert.Spec.top k) s))
    (hwfb : ∀ k : Fin 2048, wfb (ix2 k q) = WF (ix2 (Cert.Spec.bot k) s))
    (hwit : ∀ k : Fin 2048, wit (ix2 k q) = WI (ix2 (Cert.Spec.top k) s))
    (hwib : ∀ k : Fin 2048, wib (ix2 k q) = WI (ix2 (Cert.Spec.bot k) s))
    (hwct : ∀ k : Fin 2048, wct (ix2 k q) = WC (ix2 (Cert.Spec.top k) s))
    (hwcb : ∀ k : Fin 2048, wcb (ix2 k q) = WC (ix2 (Cert.Spec.bot k) s))
    (hwot : ∀ k : Fin 2048, wot (ix2 k q) = WO (ix2 (Cert.Spec.top k) s))
    (hwob : ∀ k : Fin 2048, wob (ix2 k q) = WO (ix2 (Cert.Spec.bot k) s))
    (hbf : bf (ix2 0 q) = BF (ix2 0 s)) (hbi : bi (ix2 0 q) = BI (ix2 0 s)) (hbc : bc (ix2 0 q) = BC (ix2 0 s))
    (hbo : bo (ix2 0 q) = BO (ix2 0 s)) (hts : ts (ix2 0 0) = TS (ix2 0 0)) :
    Hand.hidBlk (F := Ideal) ts pr hid cell err u wft wfb wit wib wct wcb wot wob bf bi bc bo (ix2 p q)
      = Cert.Spec.hidAt PR HID CELL ERR U WF WI WC WO BF BI BC BO TS r s := by
  unfold Cert.Spec.hidAt
  rw [hidBlk_at, ← cellBlk_at ts pr hid cell err u wft wfb wit wib wct wcb bf bi bc p q,
    cellTile_at ts pr hid cell err u wft wfb wit wib wct wcb bf bi bc PR HID CELL ERR U WF WI WC BF BI BC TS r s p q
      hpr hhid hcell herr hu hwft hwfb hwit hwib hwct hwcb hbf hbi hbc hts,
    gate_pt pr hid wot wob bo PR HID WO BO r s p q hpr hhid hwot hwob hbo]

variable (V : (c : Dev nD) → (b : Ref sig .tc) → Buf (Elt Ideal) ((c : Thread nD τ).loc b))

/-! ## Where each input block sits in its array -/

/-- The scaling scalar's block at any point is the 1 x 1 array. -/
theorem blk2_0_at (c : Dev nD) (t : Fin cfg2.N) (y z : Fin 1) :
    (Hand.iblk2 V c 0 t : Vec Ideal S1x1 .f32) (ix2 y z) = (V c main_v12 : S1x1.Idx → EReal) (ix2 y z) := by
  obtain ⟨e0, e1⟩ := index2_0 t
  unfold Hand.iblk2
  rw [View.read_apply]
  show V c main_v12 _ = V c main_v12 _
  congr 1
  funext a
  apply Fin.ext
  match a with
  | ⟨0, _⟩ => show win2_0.index t (0 : Fin 2) * 1 + 1 * y.val = y.val; omega
  | ⟨1, _⟩ => show win2_0.index t (1 : Fin 2) * 1 + 1 * z.val = z.val; omega

/-- Row `p` of point `t`'s row block of the projection is row `512 (t / 16) + p` of that array. -/
theorem blk2_1_at (c : Dev nD) (t : Fin cfg2.N) (r : Fin 16384) (p : Fin 512) (k : Fin 2048) (hr : r.val = 512 * (t.val / 16) + p.val) :
    (Hand.iblk2 V c 1 t : Vec Ideal S512x2048 .f32) (ix2 p k) = (V c main_v14 : S16384x2048.Idx → EReal) (ix2 r k) := by
  obtain ⟨e0, e1⟩ := index2_1 t
  unfold Hand.iblk2
  rw [View.read_apply]
  show V c main_v14 _ = V c main_v14 _
  congr 1
  funext a
  apply Fin.ext
  match a with
  | ⟨0, _⟩ => show win2_1.index t (0 : Fin 2) * 512 + 1 * p.val = r.val; omega
  | ⟨1, _⟩ => show win2_1.index t (1 : Fin 2) * 2048 + 1 * k.val = k.val; omega

/-- Likewise of the hidden state. -/
theorem blk2_2_at (c : Dev nD) (t : Fin cfg2.N) (r : Fin 16384) (p : Fin 512) (k : Fin 2048) (hr : r.val = 512 * (t.val / 16) + p.val) :
    (Hand.iblk2 V c 2 t : Vec Ideal S512x2048 .f32) (ix2 p k) = (V c main_arg1 : S16384x2048.Idx → EReal) (ix2 r k) := by
  obtain ⟨e0, e1⟩ := index2_2 t
  unfold Hand.iblk2
  rw [View.read_apply]
  show V c main_arg1 _ = V c main_arg1 _
  congr 1
  funext a
  apply Fin.ext
  match a with
  | ⟨0, _⟩ => show win2_2.index t (0 : Fin 2) * 512 + 1 * p.val = r.val; omega
  | ⟨1, _⟩ => show win2_2.index t (1 : Fin 2) * 2048 + 1 * k.val = k.val; omega

/-- Entry `(p, q)` of point `t`'s tile of the cell state is entry `(512 (t / 16) + p, 128 (t % 16) + q)` of that array. -/
theorem blk2_3_at (c : Dev nD) (t : Fin cfg2.N) (r : Fin 16384) (s : Fin 2048) (p : Fin 512) (q : Fin 128)
    (hr : r.val = 512 * (t.val / 16) + p.val) (hs : s.val = 128 * (t.val % 16) + q.val) :
    (Hand.iblk2 V c 3 t : Vec Ideal S512x128 .f32) (ix2 p q) = (V c main_arg2 : S16384x2048.Idx → EReal) (ix2 r s) := by
  obtain ⟨e0, e1⟩ := index2_3 t
  unfold Hand.iblk2
  rw [View.read_apply]
  show V c main_arg2 _ = V c main_arg2 _
  congr 1
  funext a
  apply Fin.ext
  match a with
  | ⟨0, _⟩ => show win2_3.index t (0 : Fin 2) * 512 + 1 * p.val = r.val; omega
  | ⟨1, _⟩ => show win2_3.index t (1 : Fin 2) * 128 + 1 * q.val = s.val; omega

/-- Likewise of the error term. -/
theorem blk2_4_at (c : Dev nD) (t : Fin cfg2.N) (r : Fin 16384) (s : Fin 2048) (p : Fin 512) (q : Fin 128)
    (hr : r.val = 512 * (t.val / 16) + p.val) (hs : s.val = 128 * (t.val % 16) + q.val) :
    (Hand.iblk2 V c 4 t : Vec Ideal S512x128 .f32) (ix2 p q) = (V c main_v15 : S16384x2048.Idx → EReal) (ix2 r s) := by
  obtain ⟨e0, e1⟩ := index2_4 t
  unfold Hand.iblk2
  rw [View.read_apply]
  show V c main_v15 _ = V c main_v15 _
  congr 1
  funext a
  apply Fin.ext
  match a with
  | ⟨0, _⟩ => show win2_4.index t (0 : Fin 2) * 512 + 1 * p.val = r.val; omega
  | ⟨1, _⟩ => show win2_4.index t (1 : Fin 2) * 128 + 1 * q.val = s.val; omega

/-- Likewise of the mixing term. -/
theorem blk2_5_at (c : Dev nD) (t : Fin cfg2.N) (r : Fin 16384) (s : Fin 2048) (p : Fin 512) (q : Fin 128)
    (hr : r.val = 512 * (t.val / 16) + p.val) (hs : s.val = 128 * (t.val % 16) + q.val) :
    (Hand.iblk2 V c 5 t : Vec Ideal S512x128 .f32) (ix2 p q) = (V c main_v13 : S16384x2048.Idx → EReal) (ix2 r s) := by
  obtain ⟨e0, e1⟩ := index2_5 t
  unfold Hand.iblk2
  rw [View.read_apply]
  show V c main_v13 _ = V c main_v13 _
  congr 1
  funext a
  apply Fin.ext
  match a with
  | ⟨0, _⟩ => show win2_5.index t (0 : Fin 2) * 512 + 1 * p.val = r.val; omega
  | ⟨1, _⟩ => show win2_5.index t (1 : Fin 2) * 128 + 1 * q.val = s.val; omega

/-- Row `k` of the forget gate's upper weight tile is row `k` of its matrix, at column `128 (t % 16) + q`. -/
theorem blk2_6_at (c : Dev nD) (t : Fin cfg2.N) (s : Fin 2048) (k : Fin 2048) (q : Fin 128) (hs : s.val = 128 * (t.val % 16) + q.val) :
    (Hand.iblk2 V c 6 t : Vec Ideal S2048x128 .bf16) (ix2 k q) = (V c main_v2 : S4096x2048.Idx → EReal) (ix2 (Cert.Spec.top k) s) := by
  obtain ⟨e0, e1⟩ := index2_6 t
  unfold Hand.iblk2
  rw [View.read_apply]
  show V c main_v2 _ = V c main_v2 _
  congr 1
  funext a
  apply Fin.ext
  match a with
  | ⟨0, _⟩ => show win2_6.index t (0 : Fin 2) * 2048 + 1 * k.val = k.val; omega
  | ⟨1, _⟩ => show win2_6.index t (1 : Fin 2) * 128 + 1 * q.val = s.val; omega

/-- Row `k` of its lower weight tile is row `2048 + k` of the matrix. -/
theorem blk2_7_at (c : Dev nD) (t : Fin cfg2.N) (s : Fin 2048) (k : Fin 2048) (q : Fin 128) (hs : s.val = 128 * (t.val % 16) + q.val) :
    (Hand.iblk2 V c 7 t : Vec Ideal S2048x128 .bf16) (ix2 k q) = (V c main_v2 : S4096x2048.Idx → EReal) (ix2 (Cert.Spec.bot k) s) := by
  obtain ⟨e0, e1⟩ := index2_7 t
  unfold Hand.iblk2
  rw [View.read_apply]
  show V c main_v2 _ = V c main_v2 _
  congr 1
  funext a
  apply Fin.ext
  match a with
  | ⟨0, _⟩ => show win2_7.index t (0 : Fin 2) * 2048 + 1 * k.val = 2048 + k.val; omega
  | ⟨1, _⟩ => show win2_7.index t (1 : Fin 2) * 128 + 1 * q.val = s.val; omega

/-- The input gate's two weight tiles. -/
theorem blk2_8_at (c : Dev nD) (t : Fin cfg2.N) (s : Fin 2048) (k : Fin 2048) (q : Fin 128) (hs : s.val = 128 * (t.val % 16) + q.val) :
    (Hand.iblk2 V c 8 t : Vec Ideal S2048x128 .bf16) (ix2 k q) = (V c main_v3 : S4096x2048.Idx → EReal) (ix2 (Cert.Spec.top k) s) := by
  obtain ⟨e0, e1⟩ := index2_8 t
  unfold Hand.iblk2
  rw [View.read_apply]
  show V c main_v3 _ = V c main_v3 _
  congr 1
  funext a
  apply Fin.ext
  match a with
  | ⟨0, _⟩ => show win2_8.index t (0 : Fin 2) * 2048 + 1 * k.val = k.val; omega
  | ⟨1, _⟩ => show win2_8.index t (1 : Fin 2) * 128 + 1 * q.val = s.val; omega
theorem blk2_9_at (c : Dev nD) (t : Fin cfg2.N) (s : Fin 2048) (k : Fin 2048) (q : Fin 128) (hs : s.val = 128 * (t.val % 16) + q.val) :
    (Hand.iblk2 V c 9 t : Vec Ideal S2048x128 .bf16) (ix2 k q) = (V c main_v3 : S4096x2048.Idx → EReal) (ix2 (Cert.Spec.bot k) s) := by
  obtain ⟨e0, e1⟩ := index2_9 t
  unfold Hand.iblk2
  rw [View.read_apply]
  show V c main_v3 _ = V c main_v3 _
  congr 1
  funext a
  apply Fin.ext
  match a with
  | ⟨0, _⟩ => show win2_9.index t (0 : Fin 2) * 2048 + 1 * k.val = 2048 + k.val; omega
  | ⟨1, _⟩ => show win2_9.index t (1 : Fin 2) * 128 + 1 * q.val = s.val; omega

/-- The candidate gate's two weight tiles. -/
theorem blk2_10_at (c : Dev nD) (t : Fin cfg2.N) (s : Fin 2048) (k : Fin 2048) (q : Fin 128) (hs : s.val = 128 * (t.val % 16) + q.val) :
    (Hand.iblk2 V c 10 t : Vec Ideal S2048x128 .bf16) (ix2 k q) = (V c main_v4 : S4096x2048.Idx → EReal) (ix2 (Cert.Spec.top k) s) := by
  obtain ⟨e0, e1⟩ := index2_10 t
  unfold Hand.iblk2
  rw [View.read_apply]
  show V c main_v4 _ = V c main_v4 _
  congr 1
  funext a
  apply Fin.ext
  match a with
  | ⟨0, _⟩ => show win2_10.index t (0 : Fin 2) * 2048 + 1 * k.val = k.val; omega
  | ⟨1, _⟩ => show win2_10.index t (1 : Fin 2) * 128 + 1 * q.val = s.val; omega
theorem blk2_11_at (c : Dev nD) (t : Fin cfg2.N) (s : Fin 2048) (k : Fin 2048) (q : Fin 128) (hs : s.val = 128 * (t.val % 16) + q.val) :
    (Hand.iblk2 V c 11 t : Vec Ideal S2048x128 .bf16) (ix2 k q) = (V c main_v4 : S4096x2048.Idx → EReal) (ix2 (Cert.Spec.bot k) s) := by
  obtain ⟨e0, e1⟩ := index2_11 t
  unfold Hand.iblk2
  rw [View.read_apply]
  show V c main_v4 _ = V c main_v4 _
  congr 1
  funext a
  apply Fin.ext
  match a with
  | ⟨0, _⟩ => show win2_11.index t (0 : Fin 2) * 2048 + 1 * k.val = 2048 + k.val; omega
  | ⟨1, _⟩ => show win2_11.index t (1 : Fin 2) * 128 + 1 * q.val = s.val; omega

/-- The output gate's two weight tiles. -/
theorem blk2_12_at (c : Dev nD) (t : Fin cfg2.N) (s : Fin 2048) (k : Fin 2048) (q : Fin 128) (hs : s.val = 128 * (t.val % 16) + q.val) :
    (Hand.iblk2 V c 12 t : Vec Ideal S2048x128 .bf16) (ix2 k q) = (V c main_v5 : S4096x2048.Idx → EReal) (ix2 (Cert.Spec.top k) s) := by
  obtain ⟨e0, e1⟩ := index2_12 t
  unfold Hand.iblk2
  rw [View.read_apply]
  show V c main_v5 _ = V c main_v5 _
  congr 1
  funext a
  apply Fin.ext
  match a with
  | ⟨0, _⟩ => show win2_12.index t (0 : Fin 2) * 2048 + 1 * k.val = k.val; omega
  | ⟨1, _⟩ => show win2_12.index t (1 : Fin 2) * 128 + 1 * q.val = s.val; omega
theorem blk2_13_at (c : Dev nD) (t : Fin cfg2.N) (s : Fin 2048) (k : Fin 2048) (q : Fin 128) (hs : s.val = 128 * (t.val % 16) + q.val) :
    (Hand.iblk2 V c 13 t : Vec Ideal S2048x128 .bf16) (ix2 k q) = (V c main_v5 : S4096x2048.Idx → EReal) (ix2 (Cert.Spec.bot k) s) := by
  obtain ⟨e0, e1⟩ := index2_13 t
  unfold Hand.iblk2
  rw [View.read_apply]
  show V c main_v5 _ = V c main_v5 _
  congr 1
  funext a
  apply Fin.ext
  match a with
  | ⟨0, _⟩ => show win2_13.index t (0 : Fin 2) * 2048 + 1 * k.val = 2048 + k.val; omega
  | ⟨1, _⟩ => show win2_13.index t (1 : Fin 2) * 128 + 1 * q.val = s.val; omega

/-- Entry `q` of a bias tile is entry `128 (t % 16) + q` of its bias row: the forget, input, candidate and output
    gates' in turn. -/
theorem blk2_14_at (c : Dev nD) (t : Fin cfg2.N) (s : Fin 2048) (z : Fin 1) (q : Fin 128) (hs : s.val = 128 * (t.val % 16) + q.val) :
    (Hand.iblk2 V c 14 t : Vec Ideal S1x128 .f32) (ix2 z q) = (V c main_v8 : S1x2048.Idx → EReal) (ix2 z s) := by
  obtain ⟨e0, e1⟩ := index2_14 t
  unfold Hand.iblk2
  rw [View.read_apply]
  show V c main_v8 _ = V c main_v8 _
  congr 1
  funext a
  apply Fin.ext
  match a with
  | ⟨0, _⟩ => show win2_14.index t (0 : Fin 2) * 1 + 1 * z.val = z.val; omega
  | ⟨1, _⟩ => show win2_14.index t (1 : Fin 2) * 128 + 1 * q.val = s.val; omega
theorem blk2_15_at (c : Dev nD) (t : Fin cfg2.N) (s : Fin 2048) (z : Fin 1) (q : Fin 128) (hs : s.val = 128 * (t.val % 16) + q.val) :
    (Hand.iblk2 V c 15 t : Vec Ideal S1x128 .f32) (ix2 z q) = (V c main_v9 : S1x2048.Idx → EReal) (ix2 z s) := by
  obtain ⟨e0, e1⟩ := index2_15 t
  unfold Hand.iblk2
  rw [View.read_apply]
  show V c main_v9 _ = V c main_v9 _
  congr 1
  funext a
  apply Fin.ext
  match a with
  | ⟨0, _⟩ => show win2_15.index t (0 : Fin 2) * 1 + 1 * z.val = z.val; omega
  | ⟨1, _⟩ => show win2_15.index t (1 : Fin 2) * 128 + 1 * q.val = s.val; omega
theorem blk2_16_at (c : Dev nD) (t : Fin cfg2.N) (s : Fin 2048) (z : Fin 1) (q : Fin 128) (hs : s.val = 128 * (t.val % 16) + q.val) :
    (Hand.iblk2 V c 16 t : Vec Ideal S1x128 .f32) (ix2 z q) = (V c main_v10 : S1x2048.Idx → EReal) (ix2 z s) := by
  obtain ⟨e0, e1⟩ := index2_16 t
  unfold Hand.iblk2
  rw [View.read_apply]
  show V c main_v10 _ = V c main_v10 _
  congr 1
  funext a
  apply Fin.ext
  match a with
  | ⟨0, _⟩ => show win2_16.index t (0 : Fin 2) * 1 + 1 * z.val = z.val; omega
  | ⟨1, _⟩ => show win2_16.index t (1 : Fin 2) * 128 + 1 * q.val = s.val; omega
theorem blk2_17_at (c : Dev nD) (t : Fin cfg2.N) (s : Fin 2048) (z : Fin 1) (q : Fin 128) (hs : s.val = 128 * (t.val % 16) + q.val) :
    (Hand.iblk2 V c 17 t : Vec Ideal S1x128 .f32) (ix2 z q) = (V c main_v11 : S1x2048.Idx → EReal) (ix2 z s) := by
  obtain ⟨e0, e1⟩ := index2_17 t
  unfold Hand.iblk2
  rw [View.read_apply]
  show V c main_v11 _ = V c main_v11 _
  congr 1
  funext a
  apply Fin.ext
  match a with
  | ⟨0, _⟩ => show win2_17.index t (0 : Fin 2) * 1 + 1 * z.val = z.val; omega
  | ⟨1, _⟩ => show win2_17.index t (1 : Fin 2) * 128 + 1 * q.val = s.val; omega

/-! ## The new cell state -/

/-- The specification's new cell state of the region-entry contents. -/
abbrev cell2 (c : Dev nD) : S16384x2048.Idx → EReal :=
  fun i => Cert.Spec.cellAt (V c main_v14) (V c main_arg1) (V c main_arg2) (V c main_v15) (V c main_v13)
    (V c main_v2) (V c main_v3) (V c main_v4) (V c main_v8) (V c main_v9) (V c main_v10) (V c main_v12) (i 0) (i 1)

/-- What point `t` writes back through the cell window is block `t` of the specification's array. -/
theorem flushed19_eq (c : Dev nD) (t : Fin cfg2.N) :
    (Hand.dat2 (F := Ideal) V c).flushed 19 t = ((cfg2.win 19).blk t).view.read (Elt Ideal) (cell2 V c) := by
  show (cfg2.win 19).cut (grid2.coords t) ((Hand.dat2 (F := Ideal) V c).after 19 t) = _
  rw [Hand.after2_19]
  unfold Hand.out2_19
  rw [View.canon_unit_zero Hand.zero2]
  simp only [View.ld_unit_zero (S := S1x1) Hand.zero2, View.ld_unit_zero (S := S512x2048) Hand.zero2,
    View.ld_unit_zero (S := S512x128) Hand.zero2, View.ld_unit_zero (S := S2048x128) Hand.zero2,
    View.ld_unit_zero (S := S1x128) Hand.zero2]
  funext j
  obtain ⟨p, q, rfl⟩ : ∃ (p : Fin 512) (q : Fin 128), j = ix2 p q := ⟨j 0, j 1, eq_ix2 j⟩
  obtain ⟨e0, e1⟩ := index2_19 t
  have ht : t.val < 512 := lt_of_lt_of_eq t.isLt (show cfg2.N = 512 from N_2)
  obtain ⟨r, hr⟩ : ∃ r : Fin 16384, r.val = 512 * (t.val / 16) + p.val := ⟨⟨512 * (t.val / 16) + p.val, by omega⟩, rfl⟩
  obtain ⟨s, hs⟩ : ∃ s : Fin 2048, s.val = 128 * (t.val % 16) + q.val := ⟨⟨128 * (t.val % 16) + q.val, by omega⟩, rfl⟩
  have hemb : ((cfg2.win 19).blk t).view.emb (ix2 p q) = (ix2 r s : S16384x2048.Idx) := by
    funext a
    apply Fin.ext
    match a with
    | ⟨0, _⟩ => show win2_19.index t (0 : Fin 2) * 512 + 1 * p.val = r.val; omega
    | ⟨1, _⟩ => show win2_19.index t (1 : Fin 2) * 128 + 1 * q.val = s.val; omega
  show Hand.cellBlk (F := Ideal) (Hand.iblk2 V c 0 t) (Hand.iblk2 V c 1 t) (Hand.iblk2 V c 2 t) (Hand.iblk2 V c 3 t)
      (Hand.iblk2 V c 4 t) (Hand.iblk2 V c 5 t) (Hand.iblk2 V c 6 t) (Hand.iblk2 V c 7 t) (Hand.iblk2 V c 8 t)
      (Hand.iblk2 V c 9 t) (Hand.iblk2 V c 10 t) (Hand.iblk2 V c 11 t) (Hand.iblk2 V c 14 t) (Hand.iblk2 V c 15 t)
      (Hand.iblk2 V c 16 t) (ix2 p q)
    = cell2 V c (((cfg2.win 19).blk t).view.emb (ix2 p q))
  rw [hemb]
  exact cellTile_at (Hand.iblk2 V c 0 t) (Hand.iblk2 V c 1 t) (Hand.iblk2 V c 2 t) (Hand.iblk2 V c 3 t)
    (Hand.iblk2 V c 4 t) (Hand.iblk2 V c 5 t) (Hand.iblk2 V c 6 t) (Hand.iblk2 V c 7 t) (Hand.iblk2 V c 8 t)
    (Hand.iblk2 V c 9 t) (Hand.iblk2 V c 10 t) (Hand.iblk2 V c 11 t) (Hand.iblk2 V c 14 t) (Hand.iblk2 V c 15 t)
    (Hand.iblk2 V c 16 t)
    (V c main_v14) (V c main_arg1) (V c main_arg2) (V c main_v15) (V c main_v13) (V c main_v2) (V c main_v3) (V c main_v4)
    (V c main_v8) (V c main_v9) (V c main_v10) (V c main_v12) r s p q
    (fun k => blk2_1_at V c t r p k hr) (fun k => blk2_2_at V c t r p k hr)
    (blk2_3_at V c t r s p q hr hs) (blk2_4_at V c t r s p q hr hs) (blk2_5_at V c t r s p q hr hs)
    (fun k => blk2_6_at V c t s k q hs) (fun k => blk2_7_at V c t s k q hs)
    (fun k => blk2_8_at V c t s k q hs) (fun k => blk2_9_at V c t s k q hs)
    (fun k => blk2_10_at V c t s k q hs) (fun k => blk2_11_at V c t s k q hs)
    (blk2_14_at V c t s 0 q hs) (blk2_15_at V c t s 0 q hs) (blk2_16_at V c t s 0 q hs)
    (blk2_0_at V c t 0 0)

/-- An index of the cell result is in point `t`'s block iff each coordinate is in the block's range on its axis. -/
theorem mem_blk19 (t : Fin cfg2.N) (i : S16384x2048.Idx) :
    i ∈ ((cfg2.win 19).blk t).view.set ↔ ∀ a : Fin 2, win2_19.index t a * S512x128.size a ≤ (i a).val ∧ (i a).val < win2_19.index t a * S512x128.size a + S512x128.size a := by
  show i ∈ ((View.whole main_v16_1).slice (win2_19.rect t)).set ↔ _
  rw [View.set_slice_whole, Rect.mem_set_unit]
  exact Iff.rfl

/-- Every index of the cell result is in the block of the point its row and column fall in: `(r, s)` in point
    `16 (r / 512) + s / 128`'s. -/
theorem cover19 (i : S16384x2048.Idx) : ∃ t : Fin cfg2.N, (cfg2.win 19).flush t = true ∧ i ∈ ((cfg2.win 19).blk t).view.set := by
  have hi0 : (i 0).val < 16384 := (i 0).isLt
  have hi1 : (i 1).val < 2048 := (i 1).isLt
  obtain ⟨t, ht⟩ : ∃ t : Fin cfg2.N, t.val = 16 * ((i 0).val / 512) + (i 1).val / 128 :=
    ⟨⟨16 * ((i 0).val / 512) + (i 1).val / 128, lt_of_lt_of_eq (by omega : 16 * ((i 0).val / 512) + (i 1).val / 128 < 512) (show cfg2.N = 512 from N_2).symm⟩, rfl⟩
  obtain ⟨e0, e1⟩ := index2_19 t
  refine ⟨t, flush2_19 t, ?_⟩
  rw [mem_blk19]
  intro a
  match a with
  | ⟨0, _⟩ => show win2_19.index t (0 : Fin 2) * 512 ≤ (i 0).val ∧ (i 0).val < win2_19.index t (0 : Fin 2) * 512 + 512; omega
  | ⟨1, _⟩ => show win2_19.index t (1 : Fin 2) * 128 ≤ (i 1).val ∧ (i 1).val < win2_19.index t (1 : Fin 2) * 128 + 128; omega

/-- The cell result after the stage: the specification's new cell state of the region-entry contents. -/
theorem arr2_cell (c : Dev nD) :
    (Hand.dat2 (F := Ideal) V c).arrAt 19 cfg2.N = fun i => Cert.Spec.cellAt (V c main_v14) (V c main_arg1) (V c main_arg2) (V c main_v15) (V c main_v13) (V c main_v2) (V c main_v3) (V c main_v4) (V c main_v8) (V c main_v9) (V c main_v10) (V c main_v12) (i 0) (i 1) :=
  (Hand.dat2 (F := Ideal) V c).arrAt_eq_of_cover 19 (cell2 V c) (fun t _ => flushed19_eq V c t) cover19

/-! ## The new hidden state -/

/-- The specification's new hidden state of the region-entry contents. -/
abbrev hid2 (c : Dev nD) : S16384x2048.Idx → EReal :=
  fun i => Cert.Spec.hidAt (V c main_v14) (V c main_arg1) (V c main_arg2) (V c main_v15) (V c main_v13)
    (V c main_v2) (V c main_v3) (V c main_v4) (V c main_v5) (V c main_v8) (V c main_v9) (V c main_v10) (V c main_v11)
    (V c main_v12) (i 0) (i 1)

/-- What point `t` writes back through the hidden window is block `t` of the specification's array. -/
theorem flushed18_eq (c : Dev nD) (t : Fin cfg2.N) :
    (Hand.dat2 (F := Ideal) V c).flushed 18 t = ((cfg2.win 18).blk t).view.read (Elt Ideal) (hid2 V c) := by
  show (cfg2.win 18).cut (grid2.coords t) ((Hand.dat2 (F := Ideal) V c).after 18 t) = _
  rw [Hand.after2_18]
  unfold Hand.out2_18
  rw [View.canon_unit_zero Hand.zero2]
  simp only [View.ld_unit_zero (S := S1x1) Hand.zero2, View.ld_unit_zero (S := S512x2048) Hand.zero2,
    View.ld_unit_zero (S := S512x128) Hand.zero2, View.ld_unit_zero (S := S2048x128) Hand.zero2,
    View.ld_unit_zero (S := S1x128) Hand.zero2]
  funext j
  obtain ⟨p, q, rfl⟩ : ∃ (p : Fin 512) (q : Fin 128), j = ix2 p q := ⟨j 0, j 1, eq_ix2 j⟩
  obtain ⟨e0, e1⟩ := index2_18 t
  have ht : t.val < 512 := lt_of_lt_of_eq t.isLt (show cfg2.N = 512 from N_2)
  obtain ⟨r, hr⟩ : ∃ r : Fin 16384, r.val = 512 * (t.val / 16) + p.val := ⟨⟨512 * (t.val / 16) + p.val, by omega⟩, rfl⟩
  obtain ⟨s, hs⟩ : ∃ s : Fin 2048, s.val = 128 * (t.val % 16) + q.val := ⟨⟨128 * (t.val % 16) + q.val, by omega⟩, rfl⟩
  have hemb : ((cfg2.win 18).blk t).view.emb (ix2 p q) = (ix2 r s : S16384x2048.Idx) := by
    funext a
    apply Fin.ext
    match a with
    | ⟨0, _⟩ => show win2_18.index t (0 : Fin 2) * 512 + 1 * p.val = r.val; omega
    | ⟨1, _⟩ => show win2_18.index t (1 : Fin 2) * 128 + 1 * q.val = s.val; omega
  show Hand.hidBlk (F := Ideal) (Hand.iblk2 V c 0 t) (Hand.iblk2 V c 1 t) (Hand.iblk2 V c 2 t) (Hand.iblk2 V c 3 t)
      (Hand.iblk2 V c 4 t) (Hand.iblk2 V c 5 t) (Hand.iblk2 V c 6 t) (Hand.iblk2 V c 7 t) (Hand.iblk2 V c 8 t)
      (Hand.iblk2 V c 9 t) (Hand.iblk2 V c 10 t) (Hand.iblk2 V c 11 t) (Hand.iblk2 V c 12 t) (Hand.iblk2 V c 13 t)
      (Hand.iblk2 V c 14 t) (Hand.iblk2 V c 15 t) (Hand.iblk2 V c 16 t) (Hand.iblk2 V c 17 t) (ix2 p q)
    = hid2 V c (((cfg2.win 18).blk t).view.emb (ix2 p q))
  rw [hemb]
  exact hidTile_at (Hand.iblk2 V c 0 t) (Hand.iblk2 V c 1 t) (Hand.iblk2 V c 2 t) (Hand.iblk2 V c 3 t)
    (Hand.iblk2 V c 4 t) (Hand.iblk2 V c 5 t) (Hand.iblk2 V c 6 t) (Hand.iblk2 V c 7 t) (Hand.iblk2 V c 8 t)
    (Hand.iblk2 V c 9 t) (Hand.iblk2 V c 10 t) (Hand.iblk2 V c 11 t) (Hand.iblk2 V c 12 t) (Hand.iblk2 V c 13 t)
    (Hand.iblk2 V c 14 t) (Hand.iblk2 V c 15 t) (Hand.iblk2 V c 16 t) (Hand.iblk2 V c 17 t)
    (V c main_v14) (V c main_arg1) (V c main_arg2) (V c main_v15) (V c main_v13) (V c main_v2) (V c main_v3) (V c main_v4)
    (V c main_v5) (V c main_v8) (V c main_v9) (V c main_v10) (V c main_v11) (V c main_v12) r s p q
    (fun k => blk2_1_at V c t r p k hr) (fun k => blk2_2_at V c t r p k hr)
    (blk2_3_at V c t r s p q hr hs) (blk2_4_at V c t r s p q hr hs) (blk2_5_at V c t r s p q hr hs)
    (fun k => blk2_6_at V c t s k q hs) (fun k => blk2_7_at V c t s k q hs)
    (fun k => blk2_8_at V c t s k q hs) (fun k => blk2_9_at V c t s k q hs)
    (fun k => blk2_10_at V c t s k q hs) (fun k => blk2_11_at V c t s k q hs)
    (fun k => blk2_12_at V c t s k q hs) (fun k => blk2_13_at V c t s k q hs)
    (blk2_14_at V c t s 0 q hs) (blk2_15_at V c t s 0 q hs) (blk2_16_at V c t s 0 q hs) (blk2_17_at V c t s 0 q hs)
    (blk2_0_at V c t 0 0)

/-- An index of the hidden result is in point `t`'s block iff each coordinate is in the block's range on its axis. -/
theorem mem_blk18 (t : Fin cfg2.N) (i : S16384x2048.Idx) :
    i ∈ ((cfg2.win 18).blk t).view.set ↔ ∀ a : Fin 2, win2_18.index t a * S512x128.size a ≤ (i a).val ∧ (i a).val < win2_18.index t a * S512x128.size a + S512x128.size a := by
  show i ∈ ((View.whole main_v16_0).slice (win2_18.rect t)).set ↔ _
  rw [View.set_slice_whole, Rect.mem_set_unit]
  exact Iff.rfl

/-- Every index of the hidden result is in the block of the point its row and column fall in. -/
theorem cover18 (i : S16384x2048.Idx) : ∃ t : Fin cfg2.N, (cfg2.win 18).flush t = true ∧ i ∈ ((cfg2.win 18).blk t).view.set := by
  have hi0 : (i 0).val < 16384 := (i 0).isLt
  have hi1 : (i 1).val < 2048 := (i 1).isLt
  obtain ⟨t, ht⟩ : ∃ t : Fin cfg2.N, t.val = 16 * ((i 0).val / 512) + (i 1).val / 128 :=
    ⟨⟨16 * ((i 0).val / 512) + (i 1).val / 128, lt_of_lt_of_eq (by omega : 16 * ((i 0).val / 512) + (i 1).val / 128 < 512) (show cfg2.N = 512 from N_2).symm⟩, rfl⟩
  obtain ⟨e0, e1⟩ := index2_18 t
  refine ⟨t, flush2_18 t, ?_⟩
  rw [mem_blk18]
  intro a
  match a with
  | ⟨0, _⟩ => show win2_18.index t (0 : Fin 2) * 512 ≤ (i 0).val ∧ (i 0).val < win2_18.index t (0 : Fin 2) * 512 + 512; omega
  | ⟨1, _⟩ => show win2_18.index t (1 : Fin 2) * 128 ≤ (i 1).val ∧ (i 1).val < win2_18.index t (1 : Fin 2) * 128 + 128; omega

/-- The hidden result after the stage: the specification's new hidden state of the region-entry contents. -/
theorem arr2_hid (c : Dev nD) :
    (Hand.dat2 (F := Ideal) V c).arrAt 18 cfg2.N = fun i => Cert.Spec.hidAt (V c main_v14) (V c main_arg1) (V c main_arg2) (V c main_v15) (V c main_v13) (V c main_v2) (V c main_v3) (V c main_v4) (V c main_v5) (V c main_v8) (V c main_v9) (V c main_v10) (V c main_v11) (V c main_v12) (i 0) (i 1) :=
  (Hand.dat2 (F := Ideal) V c).arrAt_eq_of_cover 18 (hid2 V c) (fun t _ => flushed18_eq V c t) cover18

end Cert.KernelIdeal.Val

end
-- ==== Proof.KI.KVal.lean ====
/-
  The kernel program's two result arrays at the end of its run, as the specification's two functions of the
  launch memory.

  The run passes through four named valuations of a core's buffers. The fused stage's two result arrays are what
  its write-backs leave when it is entered at the third valuation; there the `proj` array is what the projection
  stage left, `x · Wp + bp` of the launch arrays, the `err` array is what the error stage left,
  `σ (e · We + be)`, and every other array the fused stage reads is as the host operations left it (a weight
  matrix itself, a bias vector or the scaling scalar as one row, the uncertainty array with its unit axis
  dropped) or as launched. Substituting these into the stage's closed forms gives `finalHid` and `finalCell`.
-/
import proofs.«127285_j65532611002879_1_alg».proof.Proof.KI.Run
import proofs.«127285_j65532611002879_1_alg».proof.Proof.KI.Host
import proofs.«127285_j65532611002879_1_alg».proof.Proof.KI.Arr0
import proofs.«127285_j65532611002879_1_alg».proof.Proof.KI.Arr1
import proofs.«127285_j65532611002879_1_alg».proof.Proof.KI.Arr2
import proofs.«127285_j65532611002879_1_alg».proof.Proof.Spec

noncomputable section

namespace Cert.KernelIdeal.Val

open Idealize.ShloMosaic Idealize.ShloMosaic.TcCoe Idealize.ShloMosaic.ValueIdx Idealize.SL.Sem
open Cert.KernelIdeal Cert.KernelIdeal.Gen

/-! ## The closed forms respect equality of their array arguments -/

theorem affine_congr {M K N : Nat} {x x' : Cert.Spec.Mat M K} {w w' : Cert.Spec.Mat K N} {b b' : Cert.Spec.Mat 1 N}
    (hx : x = x') (hw : w = w') (hb : b = b') :
    (fun i : (⟨2, ![M, N]⟩ : Shape).Idx => Cert.Spec.affineAt x w b (i 0) (i 1))
      = fun i => Cert.Spec.affineAt x' w' b' (i 0) (i 1) := by
  subst hx hw hb; rfl

theorem logistic_affine_congr {M K N : Nat} {x x' : Cert.Spec.Mat M K} {w w' : Cert.Spec.Mat K N} {b b' : Cert.Spec.Mat 1 N}
    (hx : x = x') (hw : w = w') (hb : b = b') :
    (fun i : (⟨2, ![M, N]⟩ : Shape).Idx => Ideal.logistic (Cert.Spec.affineAt x w b (i 0) (i 1)))
      = fun i => Ideal.logistic (Cert.Spec.affineAt x' w' b' (i 0) (i 1)) := by
  subst hx hw hb; rfl

theorem cell_congr {pr pr' hid hid' cell cell' err err' u u' : Cert.Spec.Mat 16384 2048}
    {wf wf' wi wi' wc wc' : Cert.Spec.Mat 4096 2048} {bf bf' bi bi' bc bc' : Cert.Spec.Mat 1 2048} {ts ts' : Cert.Spec.Mat 1 1}
    (h1 : pr = pr') (h2 : hid = hid') (h3 : cell = cell') (h4 : err = err') (h5 : u = u')
    (h6 : wf = wf') (h7 : wi = wi') (h8 : wc = wc') (h9 : bf = bf') (h10 : bi = bi') (h11 : bc = bc') (h12 : ts = ts') :
    (fun i : (⟨2, ![16384, 2048]⟩ : Shape).Idx => Cert.Spec.cellAt pr hid cell err u wf wi wc bf bi bc ts (i 0) (i 1))
      = fun i => Cert.Spec.cellAt pr' hid' cell' err' u' wf' wi' wc' bf' bi' bc' ts' (i 0) (i 1) := by
  subst h1 h2 h3 h4 h5 h6 h7 h8 h9 h10 h11 h12; rfl

theorem hid_congr {pr pr' hid hid' cell cell' err err' u u' : Cert.Spec.Mat 16384 2048}
    {wf wf' wi wi' wc wc' wo wo' : Cert.Spec.Mat 4096 2048} {bf bf' bi bi' bc bc' bo bo' : Cert.Spec.Mat 1 2048}
    {ts ts' : Cert.Spec.Mat 1 1}
    (h1 : pr = pr') (h2 : hid = hid') (h3 : cell = cell') (h4 : err = err') (h5 : u = u')
    (h6 : wf = wf') (h7 : wi = wi') (h8 : wc = wc') (h9 : wo = wo') (h10 : bf = bf') (h11 : bi = bi') (h12 : bc = bc')
    (h13 : bo = bo') (h14 : ts = ts') :
    (fun i : (⟨2, ![16384, 2048]⟩ : Shape).Idx => Cert.Spec.hidAt pr hid cell err u wf wi wc wo bf bi bc bo ts (i 0) (i 1))
      = fun i => Cert.Spec.hidAt pr' hid' cell' err' u' wf' wi' wc' wo' bf' bi' bc' bo' ts' (i 0) (i 1) := by
  subst h1 h2 h3 h4 h5 h6 h7 h8 h9 h10 h11 h12 h13 h14; rfl

variable (m : (ℓ : Loc nD τ sig) → Buf (Elt Ideal) ℓ)

/-! ## The buffers the stages read, at the valuations they are entered from -/

/-- An argument no item writes: at the third valuation it is as launched. -/
theorem w3_arg (c : Dev nD) (r : Ref sig .tc) (h3 : r ∉ ([main_v15] : List (Ref sig .tc)))
    (h2 : r ∉ ([main_v14] : List (Ref sig .tc))) (h1 : r ∉ hostOps0_W) :
    Hand.W3 m c r = m ((c : Thread nD τ).loc r) :=
  (Hand.W3_of m c r h3).trans <| (Hand.W2_of m c r h2).trans <| (Hand.W1_of m c r h1).trans rfl

/-- A buffer the two first stages do not write: at the third valuation it is as the host operations left it. -/
theorem w3_host (c : Dev nD) (r : Ref sig .tc) (h3 : r ∉ ([main_v15] : List (Ref sig .tc)))
    (h2 : r ∉ ([main_v14] : List (Ref sig .tc))) : Hand.W3 m c r = H1 m c r :=
  (Hand.W3_of m c r h3).trans (Hand.W2_of m c r h2)

/-- The projection stage's result: `proj = x · Wp + bp` of the launch arrays. -/
theorem x2_eq (c : Dev nD) :
    (Hand.X2 m c : S16384x2048.Idx → EReal)
      = Cert.Spec.projM (m ((c : Thread nD τ).loc main_arg0)) (m ((c : Thread nD τ).loc main_arg5))
          (m ((c : Thread nD τ).loc main_arg6)) := by
  refine (arr0 (Hand.V1 m) c).trans ?_
  unfold Cert.Spec.projM Cert.Spec.projAt
  exact affine_congr ((Hand.W1_of m c main_arg0 (by decide)).trans rfl) (host_v0 m c) (host_v6 m c)

/-- The error stage's result: `err = σ (e · We + be)` of the launch arrays. -/
theorem x3_eq (c : Dev nD) :
    (Hand.X3 m c : S16384x2048.Idx → EReal)
      = Cert.Spec.errM (m ((c : Thread nD τ).loc main_arg3)) (m ((c : Thread nD τ).loc main_arg15))
          (m ((c : Thread nD τ).loc main_arg16)) := by
  refine (arr1 (Hand.V2 m) c).trans ?_
  unfold Cert.Spec.errM Cert.Spec.errAt
  exact logistic_affine_congr
    ((Hand.W2_of m c main_arg3 (by decide)).trans ((Hand.W1_of m c main_arg3 (by decide)).trans rfl))
    ((Hand.W2_of m c main_v1 (by decide)).trans (host_v1 m c))
    ((Hand.W2_of m c main_v7 (by decide)).trans (host_v7 m c))

theorem w3_v14 (c : Dev nD) :
    (Hand.W3 m c main_v14 : S16384x2048.Idx → EReal)
      = Cert.Spec.projM (m ((c : Thread nD τ).loc main_arg0)) (m ((c : Thread nD τ).loc main_arg5))
          (m ((c : Thread nD τ).loc main_arg6)) :=
  (Hand.W3_of m c main_v14 (by decide)).trans ((Hand.W2_v14 m c).trans (x2_eq m c))

theorem w3_v15 (c : Dev nD) :
    (Hand.W3 m c main_v15 : S16384x2048.Idx → EReal)
      = Cert.Spec.errM (m ((c : Thread nD τ).loc main_arg3)) (m ((c : Thread nD τ).loc main_arg15))
          (m ((c : Thread nD τ).loc main_arg16)) :=
  (Hand.W3_v15 m c).trans (x3_eq m c)

/-! ## The two results -/

theorem kernel_hid (c : Dev nD) :
    (Hand.W4 (F := Ideal) m c main_v16_0 : S16384x2048.Idx → EReal)
      = Cert.Spec.finalHid (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13))
          (m ((c : Thread nD τ).loc main_arg14)) (m ((c : Thread nD τ).loc main_arg15)) (m ((c : Thread nD τ).loc main_arg16))
          (m ((c : Thread nD τ).loc main_arg17)) := by
  refine (Hand.W4_v16_0 m c).trans ((arr2_hid (Hand.V3 m) c).trans ?_)
  unfold Cert.Spec.finalHid
  exact hid_congr (w3_v14 m c)
    (w3_arg m c main_arg1 (by decide) (by decide) (by decide))
    (w3_arg m c main_arg2 (by decide) (by decide) (by decide))
    (w3_v15 m c)
    ((w3_host m c main_v13 (by decide) (by decide)).trans (host_v13 m c))
    ((w3_host m c main_v2 (by decide) (by decide)).trans (host_v2 m c))
    ((w3_host m c main_v3 (by decide) (by decide)).trans (host_v3 m c))
    ((w3_host m c main_v4 (by decide) (by decide)).trans (host_v4 m c))
    ((w3_host m c main_v5 (by decide) (by decide)).trans (host_v5 m c))
    ((w3_host m c main_v8 (by decide) (by decide)).trans (host_v8 m c))
    ((w3_host m c main_v9 (by decide) (by decide)).trans (host_v9 m c))
    ((w3_host m c main_v10 (by decide) (by decide)).trans (host_v10 m c))
    ((w3_host m c main_v11 (by decide) (by decide)).trans (host_v11 m c))
    ((w3_host m c main_v12 (by decide) (by decide)).trans (host_v12 m c))

theorem kernel_cell (c : Dev nD) :
    (Hand.W4 (F := Ideal) m c main_v16_1 : S16384x2048.Idx → EReal)
      = Cert.Spec.finalCell (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg15))
          (m ((c : Thread nD τ).loc main_arg16)) (m ((c : Thread nD τ).loc main_arg17)) := by
  refine (Hand.W4_v16_1 m c).trans ((arr2_cell (Hand.V3 m) c).trans ?_)
  unfold Cert.Spec.finalCell
  exact cell_congr (w3_v14 m c)
    (w3_arg m c main_arg1 (by decide) (by decide) (by decide))
    (w3_arg m c main_arg2 (by decide) (by decide) (by decide))
    (w3_v15 m c)
    ((w3_host m c main_v13 (by decide) (by decide)).trans (host_v13 m c))
    ((w3_host m c main_v2 (by decide) (by decide)).trans (host_v2 m c))
    ((w3_host m c main_v3 (by decide) (by decide)).trans (host_v3 m c))
    ((w3_host m c main_v4 (by decide) (by decide)).trans (host_v4 m c))
    ((w3_host m c main_v8 (by decide) (by decide)).trans (host_v8 m c))
    ((w3_host m c main_v9 (by decide) (by decide)).trans (host_v9 m c))
    ((w3_host m c main_v10 (by decide) (by decide)).trans (host_v10 m c))
    ((w3_host m c main_v12 (by decide) (by decide)).trans (host_v12 m c))

end Cert.KernelIdeal.Val

end
-- ==== Proof.Ref.lean ====
/-
  The reference program's two results are the specification's two functions.

  The reference forms all four gates at once: it lays `proj = x · Wp + bp` and the hidden state side by side into one
  row of 4096 entries, lays the four gate matrices side by side into one matrix of 4096 rows and 8192 columns and the
  four gate biases end to end, takes ONE product over the 4096 terms and adds the stacked bias; the gates are then the
  four column blocks of 2048 of the result. The specification forms each gate from two products over 2048 terms: the
  `proj` row against the upper half of the gate's matrix, the hidden row against its lower half.

  Read at one entry `(p, g · 2048 + q)`, the reference's sum over `k < 4096` splits at `k = 2048`
  (`Spec.sum_split`: associativity of addition only, no finiteness). For `k < 2048` the row entry is `proj (p, k)`
  and the matrix entry is `W_g (k, q)`; for `k ≥ 2048` the row entry is `hid (p, k − 2048)` and the matrix entry
  is `W_g (k, q)` still, `W_g` being 4096 rows tall. The stacked bias at `g · 2048 + q` is `b_g (q)`. That is
  `Spec.gateAt`. Everything after the gates is pointwise and is spelt the same on both sides, the logistic function as
  `1 / (1 + exp (−y))` with the number one given by its word `0x3F800000`.
-/
import proofs.«127285_j65532611002879_1_alg».proof.Proof.Gen.ReferenceIdeal.Run
import proofs.«127285_j65532611002879_1_alg».proof.Proof.Gen.ReferenceIdeal.Read
import proofs.«127285_j65532611002879_1_alg».proof.Proof.Spec
import proofs.«127285_j65532611002879_1_alg».proof.Proof.LibPlainDot
import Idealize.ShloMosaic.Lib.Pipeline.Value
import Idealize.ShloMosaic.Lib.ValueIdx
import Idealize.ShloMosaic.PureOps.Ideal.Laws

open scoped BigOperators

noncomputable section

namespace Cert.ReferenceIdeal.RefVal

open Cert.ReferenceIdeal Cert.ReferenceIdeal.Gen Cert.ReferenceIdeal.Read Idealize.ShloMosaic Idealize.ShloMosaic.ValueIdx
  Idealize.ShloMosaic.TcCoe Idealize.SL.Sem

/-- The word `0x3F800000` is the number one. -/
theorem one_word : Ideal.ofBits .f32 0x3F800000#32 = (1 : EReal) := by
  simp [Ideal.ofBits, Ideal.ieee]
  norm_cast
  norm_num

/-- The host's spelling of the logistic function, `1 / (1 + exp (−y))` with its two ones as words, is the logistic
    function. -/
theorem sigmoid_eq (y : EReal) :
    Ideal.div (Ideal.ofBits .f32 0x3F800000#32) (Ideal.ofBits .f32 0x3F800000#32 + Ideal.exp (-y)) = Ideal.logistic y := by
  rw [one_word]; rfl

/-- `proj = x · Wp + bp` at `(p, q)`: row `p` of `x` against column `q` of `Wp`, plus the bias entry `q`. -/
theorem proj_at (a0 : (⟨S16384x1024, .f32⟩ : BufTy).Contents (Elt Ideal)) (a5 : (⟨S1024x2048, .f32⟩ : BufTy).Contents (Elt Ideal)) (a6 : (⟨S2048, .f32⟩ : BufTy).Contents (Elt Ideal)) (p : Fin 16384) (q : Fin 2048) :
    val_main_v3 (F := Ideal) a0 a5 a6 (ix2 p q) = Cert.Spec.projM a0 a5 a6 (ix2 p q) := by
  have el : ∀ k : Fin 1024, lidx_main_v0 (ix2 p q) k = ix2 p k := fun k =>
    funext fun a => Fin.ext (by match a with | ⟨0, _⟩ => rfl | ⟨1, _⟩ => rfl)
  have er : ∀ k : Fin 1024, ridx_main_v0 (ix2 p q) k = ix2 k q := fun k =>
    funext fun a => Fin.ext (by match a with | ⟨0, _⟩ => rfl | ⟨1, _⟩ => rfl)
  have eb : idx_main_v1 (idx_main_v2 (ix2 p q)) = ix1 q :=
    funext fun a => Fin.ext (by match a with | ⟨0, _⟩ => rfl)
  rw [val_main_v3_apply, val_main_v0_apply, val_main_v2_apply, val_main_v1_apply]
  simp only [el, er, eb, Ideal.addf_def]
  rfl

/-- The row `[proj, hid]` at a column of its first half is `proj` there. -/
theorem row_top (a0 : (⟨S16384x1024, .f32⟩ : BufTy).Contents (Elt Ideal)) (a1 : (⟨S16384x2048, .f32⟩ : BufTy).Contents (Elt Ideal)) (a5 : (⟨S1024x2048, .f32⟩ : BufTy).Contents (Elt Ideal)) (a6 : (⟨S2048, .f32⟩ : BufTy).Contents (Elt Ideal)) (p : Fin 16384) (k : Fin 2048) :
    val_main_v4 (F := Ideal) a0 a1 a5 a6 (ix2 p (Cert.Spec.top k)) = val_main_v3 (F := Ideal) a0 a5 a6 (ix2 p k) := by
  unfold val_main_v4
  exact concatenate_pair_apply_left 1 _ _ concatenates_S16384x2048_S16384x2048_S16384x4096_d1 (ix2 p (Cert.Spec.top k)) rfl
    (ix2 p k) (fun b => by match b with | ⟨0, _⟩ => rfl | ⟨1, _⟩ => rfl)

/-- The row `[proj, hid]` at a column of its second half is `hid` at that column less 2048. -/
theorem row_bot (a0 : (⟨S16384x1024, .f32⟩ : BufTy).Contents (Elt Ideal)) (a1 : (⟨S16384x2048, .f32⟩ : BufTy).Contents (Elt Ideal)) (a5 : (⟨S1024x2048, .f32⟩ : BufTy).Contents (Elt Ideal)) (a6 : (⟨S2048, .f32⟩ : BufTy).Contents (Elt Ideal)) (p : Fin 16384) (k : Fin 2048) :
    val_main_v4 (F := Ideal) a0 a1 a5 a6 (ix2 p (Cert.Spec.bot k)) = a1 (ix2 p k) := by
  unfold val_main_v4
  exact concatenate_pair_apply_right 1 _ _ concatenates_S16384x2048_S16384x2048_S16384x4096_d1 (ix2 p (Cert.Spec.bot k)) rfl rfl
    (ix2 p k) (fun b hb => by match b with | ⟨0, _⟩ => rfl | ⟨1, _⟩ => exact absurd rfl hb)
    (by show k.val + 2048 = 2048 + k.val; omega)

/-- The stacked matrix `[W_f | W_i | W_c | W_o]` at a column of its first block is `W_f` there. -/
theorem mat_f (a7 : (⟨S4096x2048, .f32⟩ : BufTy).Contents (Elt Ideal)) (a9 : (⟨S4096x2048, .f32⟩ : BufTy).Contents (Elt Ideal)) (a11 : (⟨S4096x2048, .f32⟩ : BufTy).Contents (Elt Ideal)) (a13 : (⟨S4096x2048, .f32⟩ : BufTy).Contents (Elt Ideal)) (r : Fin 4096) (q : Fin 2048) (c : Fin 8192) (hc : c.val = q.val) :
    val_main_v5 (F := Ideal) a7 a9 a11 a13 (ix2 r c) = a7 (ix2 r q) := by
  unfold val_main_v5
  exact concatenate_apply_piece (t := S4096x8192) 1
    [⟨S4096x2048, a7⟩, ⟨S4096x2048, a9⟩, ⟨S4096x2048, a11⟩, ⟨S4096x2048, a13⟩]
    concatenates_S4096x2048_S4096x2048_S4096x2048_S4096x2048_S4096x8192_d1 (ix2 r c)
    0 (by show 0 < 4; omega) S4096x2048 a7 rfl rfl 0 rfl (ix2 r q)
    (fun b hb => by match b with | ⟨0, _⟩ => rfl | ⟨1, _⟩ => exact absurd rfl hb)
    (by show 0 + q.val = c.val; omega)

/-- At a column of its second block it is `W_i` at that column less 2048. -/
theorem mat_i (a7 : (⟨S4096x2048, .f32⟩ : BufTy).Contents (Elt Ideal)) (a9 : (⟨S4096x2048, .f32⟩ : BufTy).Contents (Elt Ideal)) (a11 : (⟨S4096x2048, .f32⟩ : BufTy).Contents (Elt Ideal)) (a13 : (⟨S4096x2048, .f32⟩ : BufTy).Contents (Elt Ideal)) (r : Fin 4096) (q : Fin 2048) (c : Fin 8192) (hc : c.val = 2048 + q.val) :
    val_main_v5 (F := Ideal) a7 a9 a11 a13 (ix2 r c) = a9 (ix2 r q) := by
  unfold val_main_v5
  exact concatenate_apply_piece (t := S4096x8192) 1
    [⟨S4096x2048, a7⟩, ⟨S4096x2048, a9⟩, ⟨S4096x2048, a11⟩, ⟨S4096x2048, a13⟩]
    concatenates_S4096x2048_S4096x2048_S4096x2048_S4096x2048_S4096x8192_d1 (ix2 r c)
    1 (by show 1 < 4; omega) S4096x2048 a9 rfl rfl 2048 rfl (ix2 r q)
    (fun b hb => by match b with | ⟨0, _⟩ => rfl | ⟨1, _⟩ => exact absurd rfl hb)
    (by show 2048 + q.val = c.val; omega)

/-- At a column of its third block it is `W_c` at that column less 4096. -/
theorem mat_c (a7 : (⟨S4096x2048, .f32⟩ : BufTy).Contents (Elt Ideal)) (a9 : (⟨S4096x2048, .f32⟩ : BufTy).Contents (Elt Ideal)) (a11 : (⟨S4096x2048, .f32⟩ : BufTy).Contents (Elt Ideal)) (a13 : (⟨S4096x2048, .f32⟩ : BufTy).Contents (Elt Ideal)) (r : Fin 4096) (q : Fin 2048) (c : Fin 8192) (hc : c.val = 4096 + q.val) :
    val_main_v5 (F := Ideal) a7 a9 a11 a13 (ix2 r c) = a11 (ix2 r q) := by
  unfold val_main_v5
  exact concatenate_apply_piece (t := S4096x8192) 1
    [⟨S4096x2048, a7⟩, ⟨S4096x2048, a9⟩, ⟨S4096x2048, a11⟩, ⟨S4096x2048, a13⟩]
    concatenates_S4096x2048_S4096x2048_S4096x2048_S4096x2048_S4096x8192_d1 (ix2 r c)
    2 (by show 2 < 4; omega) S4096x2048 a11 rfl rfl 4096 rfl (ix2 r q)
    (fun b hb => by match b with | ⟨0, _⟩ => rfl | ⟨1, _⟩ => exact absurd rfl hb)
    (by show 4096 + q.val = c.val; omega)

/-- At a column of its fourth block it is `W_o` at that column less 6144. -/
theorem mat_o (a7 : (⟨S4096x2048, .f32⟩ : BufTy).Contents (Elt Ideal)) (a9 : (⟨S4096x2048, .f32⟩ : BufTy).Contents (Elt Ideal)) (a11 : (⟨S4096x2048, .f32⟩ : BufTy).Contents (Elt Ideal)) (a13 : (⟨S4096x2048, .f32⟩ : BufTy).Contents (Elt Ideal)) (r : Fin 4096) (q : Fin 2048) (c : Fin 8192) (hc : c.val = 6144 + q.val) :
    val_main_v5 (F := Ideal) a7 a9 a11 a13 (ix2 r c) = a13 (ix2 r q) := by
  unfold val_main_v5
  exact concatenate_apply_piece (t := S4096x8192) 1
    [⟨S4096x2048, a7⟩, ⟨S4096x2048, a9⟩, ⟨S4096x2048, a11⟩, ⟨S4096x2048, a13⟩]
    concatenates_S4096x2048_S4096x2048_S4096x2048_S4096x2048_S4096x8192_d1 (ix2 r c)
    3 (by show 3 < 4; omega) S4096x2048 a13 rfl rfl 6144 rfl (ix2 r q)
    (fun b hb => by match b with | ⟨0, _⟩ => rfl | ⟨1, _⟩ => exact absurd rfl hb)
    (by show 6144 + q.val = c.val; omega)

/-- The stacked bias `[b_f, b_i, b_c, b_o]` at a position of its first block is `b_f` there. -/
theorem bias_f (a8 : (⟨S2048, .f32⟩ : BufTy).Contents (Elt Ideal)) (a10 : (⟨S2048, .f32⟩ : BufTy).Contents (Elt Ideal)) (a12 : (⟨S2048, .f32⟩ : BufTy).Contents (Elt Ideal)) (a14 : (⟨S2048, .f32⟩ : BufTy).Contents (Elt Ideal)) (q : Fin 2048) (c : Fin 8192) (hc : c.val = q.val) :
    val_main_v6 (F := Ideal) a8 a10 a12 a14 (ix1 c) = a8 (ix1 q) := by
  unfold val_main_v6
  exact concatenate_apply_piece (t := S8192) 0
    [⟨S2048, a8⟩, ⟨S2048, a10⟩, ⟨S2048, a12⟩, ⟨S2048, a14⟩]
    concatenates_S2048_S2048_S2048_S2048_S8192_d0 (ix1 c)
    0 (by show 0 < 4; omega) S2048 a8 rfl rfl 0 rfl (ix1 q)
    (fun b hb => by match b with | ⟨0, _⟩ => exact absurd rfl hb)
    (by show 0 + q.val = c.val; omega)

/-- At a position of its second block it is `b_i` at that position less 2048. -/
theorem bias_i (a8 : (⟨S2048, .f32⟩ : BufTy).Contents (Elt Ideal)) (a10 : (⟨S2048, .f32⟩ : BufTy).Contents (Elt Ideal)) (a12 : (⟨S2048, .f32⟩ : BufTy).Contents (Elt Ideal)) (a14 : (⟨S2048, .f32⟩ : BufTy).Contents (Elt Ideal)) (q : Fin 2048) (c : Fin 8192) (hc : c.val = 2048 + q.val) :
    val_main_v6 (F := Ideal) a8 a10 a12 a14 (ix1 c) = a10 (ix1 q) := by
  unfold val_main_v6
  exact concatenate_apply_piece (t := S8192) 0
    [⟨S2048, a8⟩, ⟨S2048, a10⟩, ⟨S2048, a12⟩, ⟨S2048, a14⟩]
    concatenates_S2048_S2048_S2048_S2048_S8192_d0 (ix1 c)
    1 (by show 1 < 4; omega) S2048 a10 rfl rfl 2048 rfl (ix1 q)
    (fun b hb => by match b with | ⟨0, _⟩ => exact absurd rfl hb)
    (by show 2048 + q.val = c.val; omega)

/-- At a position of its third block it is `b_c` at that position less 4096. -/
theorem bias_c (a8 : (⟨S2048, .f32⟩ : BufTy).Contents (Elt Ideal)) (a10 : (⟨S2048, .f32⟩ : BufTy).Contents (Elt Ideal)) (a12 : (⟨S2048, .f32⟩ : BufTy).Contents (Elt Ideal)) (a14 : (⟨S2048, .f32⟩ : BufTy).Contents (Elt Ideal)) (q : Fin 2048) (c : Fin 8192) (hc : c.val = 4096 + q.val) :
    val_main_v6 (F := Ideal) a8 a10 a12 a14 (ix1 c) = a12 (ix1 q) := by
  unfold val_main_v6
  exact concatenate_apply_piece (t := S8192) 0
    [⟨S2048, a8⟩, ⟨S2048, a10⟩, ⟨S2048, a12⟩, ⟨S2048, a14⟩]
    concatenates_S2048_S2048_S2048_S2048_S8192_d0 (ix1 c)
    2 (by show 2 < 4; omega) S2048 a12 rfl rfl 4096 rfl (ix1 q)
    (fun b hb => by match b with | ⟨0, _⟩ => exact absurd rfl hb)
    (by show 4096 + q.val = c.val; omega)

/-- At a position of its fourth block it is `b_o` at that position less 6144. -/
theorem bias_o (a8 : (⟨S2048, .f32⟩ : BufTy).Contents (Elt Ideal)) (a10 : (⟨S2048, .f32⟩ : BufTy).Contents (Elt Ideal)) (a12 : (⟨S2048, .f32⟩ : BufTy).Contents (Elt Ideal)) (a14 : (⟨S2048, .f32⟩ : BufTy).Contents (Elt Ideal)) (q : Fin 2048) (c : Fin 8192) (hc : c.val = 6144 + q.val) :
    val_main_v6 (F := Ideal) a8 a10 a12 a14 (ix1 c) = a14 (ix1 q) := by
  unfold val_main_v6
  exact concatenate_apply_piece (t := S8192) 0
    [⟨S2048, a8⟩, ⟨S2048, a10⟩, ⟨S2048, a12⟩, ⟨S2048, a14⟩]
    concatenates_S2048_S2048_S2048_S2048_S8192_d0 (ix1 c)
    3 (by show 3 < 4; omega) S2048 a14 rfl rfl 6144 rfl (ix1 q)
    (fun b hb => by match b with | ⟨0, _⟩ => exact absurd rfl hb)
    (by show 6144 + q.val = c.val; omega)

/-- **The one law.** The reference's single product over 4096 terms of the row `[proj(p,·), hid(p,·)]` against column `c` of
    the stacked matrix, plus the stacked bias at `c`, is the gate's two sums over 2048 terms plus its bias at `q`, whenever
    column `c` of the stacked matrix is column `q` of the gate's matrix `W` and position `c` of the stacked bias is position
    `q` of the gate's bias `b`. Only the sum's splitting in two halves is used. -/
theorem gate_at (a0 : (⟨S16384x1024, .f32⟩ : BufTy).Contents (Elt Ideal)) (a1 : (⟨S16384x2048, .f32⟩ : BufTy).Contents (Elt Ideal)) (a5 : (⟨S1024x2048, .f32⟩ : BufTy).Contents (Elt Ideal)) (a6 : (⟨S2048, .f32⟩ : BufTy).Contents (Elt Ideal)) (a7 : (⟨S4096x2048, .f32⟩ : BufTy).Contents (Elt Ideal)) (a8 : (⟨S2048, .f32⟩ : BufTy).Contents (Elt Ideal)) (a9 : (⟨S4096x2048, .f32⟩ : BufTy).Contents (Elt Ideal)) (a10 : (⟨S2048, .f32⟩ : BufTy).Contents (Elt Ideal)) (a11 : (⟨S4096x2048, .f32⟩ : BufTy).Contents (Elt Ideal)) (a12 : (⟨S2048, .f32⟩ : BufTy).Contents (Elt Ideal)) (a13 : (⟨S4096x2048, .f32⟩ : BufTy).Contents (Elt Ideal)) (a14 : (⟨S2048, .f32⟩ : BufTy).Contents (Elt Ideal))
    (W : (⟨S4096x2048, .f32⟩ : BufTy).Contents (Elt Ideal)) (b : (⟨S2048, .f32⟩ : BufTy).Contents (Elt Ideal))
    (p : Fin 16384) (q : Fin 2048) (c : Fin 8192)
    (hW : ∀ r : Fin 4096, val_main_v5 (F := Ideal) a7 a9 a11 a13 (ix2 r c) = W (ix2 r q))
    (hb : val_main_v6 (F := Ideal) a8 a10 a12 a14 (ix1 c) = b (ix1 q)) :
    val_main_v10 (F := Ideal) a0 a1 a5 a6 a7 a8 a9 a10 a11 a12 a13 a14 (ix2 p c)
      = Cert.Spec.gateAt (Cert.Spec.projM a0 a5 a6) a1 W (Cert.Spec.row b) p q := by
  have el : ∀ k : Fin 4096, lidx_main_v7 (ix2 p c) k = ix2 p k := fun k =>
    funext fun a => Fin.ext (by match a with | ⟨0, _⟩ => rfl | ⟨1, _⟩ => rfl)
  have er : ∀ k : Fin 4096, ridx_main_v7 (ix2 p c) k = ix2 k c := fun k =>
    funext fun a => Fin.ext (by match a with | ⟨0, _⟩ => rfl | ⟨1, _⟩ => rfl)
  have eb : idx_main_v8 (idx_main_v9 (ix2 p c)) = ix1 c :=
    funext fun a => Fin.ext (by match a with | ⟨0, _⟩ => rfl)
  rw [val_main_v10_apply, val_main_v7_apply, val_main_v9_apply, val_main_v8_apply]
  simp only [el, er, eb, Ideal.addf_def]
  rw [Cert.Spec.sum_split]
  simp only [row_top, row_bot, proj_at, hW, hb]
  rfl

/-- `err = σ(e · We + be)` at `(p, q)`. -/
theorem err_at (a3 : (⟨S16384x2048, .f32⟩ : BufTy).Contents (Elt Ideal)) (a15 : (⟨S2048x2048, .f32⟩ : BufTy).Contents (Elt Ideal)) (a16 : (⟨S2048, .f32⟩ : BufTy).Contents (Elt Ideal)) (p : Fin 16384) (q : Fin 2048) :
    val_main_v43 (F := Ideal) a3 a15 a16 (ix2 p q) = Cert.Spec.errM a3 a15 a16 (ix2 p q) := by
  have el : ∀ k : Fin 2048, lidx_main_v34 (ix2 p q) k = ix2 p k := fun k =>
    funext fun a => Fin.ext (by match a with | ⟨0, _⟩ => rfl | ⟨1, _⟩ => rfl)
  have er : ∀ k : Fin 2048, ridx_main_v34 (ix2 p q) k = ix2 k q := fun k =>
    funext fun a => Fin.ext (by match a with | ⟨0, _⟩ => rfl | ⟨1, _⟩ => rfl)
  have eb : idx_main_v35 (idx_main_v36 (ix2 p q)) = ix1 q :=
    funext fun a => Fin.ext (by match a with | ⟨0, _⟩ => rfl)
  rw [val_main_v43_apply, val_main_v42_apply, val_main_cst_6_apply, val_main_v41_apply, val_main_v40_apply, val_main_cst_5_apply,
    val_main_v39_apply, val_main_v38_apply, val_main_v37_apply, val_main_v34_apply, val_main_v36_apply, val_main_v35_apply]
  simp only [el, er, eb, Ideal.addf_def, Ideal.hostDivf_def, Ideal.hostUnary_exp_def, Ideal.hostNegf_def, Ideal.negf_def,
    Ideal.ofBits_def]
  rw [sigmoid_eq]
  rfl

/-- The first slice, columns `0 … 2047` of the stacked pre-activation, is the forget gate's. -/
theorem gate_f_at (a0 : (⟨S16384x1024, .f32⟩ : BufTy).Contents (Elt Ideal)) (a1 : (⟨S16384x2048, .f32⟩ : BufTy).Contents (Elt Ideal)) (a5 : (⟨S1024x2048, .f32⟩ : BufTy).Contents (Elt Ideal)) (a6 : (⟨S2048, .f32⟩ : BufTy).Contents (Elt Ideal)) (a7 : (⟨S4096x2048, .f32⟩ : BufTy).Contents (Elt Ideal)) (a8 : (⟨S2048, .f32⟩ : BufTy).Contents (Elt Ideal)) (a9 : (⟨S4096x2048, .f32⟩ : BufTy).Contents (Elt Ideal)) (a10 : (⟨S2048, .f32⟩ : BufTy).Contents (Elt Ideal)) (a11 : (⟨S4096x2048, .f32⟩ : BufTy).Contents (Elt Ideal)) (a12 : (⟨S2048, .f32⟩ : BufTy).Contents (Elt Ideal)) (a13 : (⟨S4096x2048, .f32⟩ : BufTy).Contents (Elt Ideal)) (a14 : (⟨S2048, .f32⟩ : BufTy).Contents (Elt Ideal)) (p : Fin 16384) (q : Fin 2048) :
    val_main_v11 (F := Ideal) a0 a1 a5 a6 a7 a8 a9 a10 a11 a12 a13 a14 (ix2 p q)
      = Cert.Spec.gateAt (Cert.Spec.projM a0 a5 a6) a1 a7 (Cert.Spec.row a8) p q := by
  have e : idx_main_v11 (ix2 p q) = ix2 p (⟨q.val, by omega⟩ : Fin 8192) :=
    funext fun a => Fin.ext (by match a with | ⟨0, _⟩ => rfl | ⟨1, _⟩ => rfl)
  rw [val_main_v11_apply, e]
  exact gate_at a0 a1 a5 a6 a7 a8 a9 a10 a11 a12 a13 a14 a7 a8 p q _ (fun r => mat_f a7 a9 a11 a13 r q _ rfl) (bias_f a8 a10 a12 a14 q _ rfl)

/-- The second slice, columns `2048 … 4095`, is the input gate's. -/
theorem gate_i_at (a0 : (⟨S16384x1024, .f32⟩ : BufTy).Contents (Elt Ideal)) (a1 : (⟨S16384x2048, .f32⟩ : BufTy).Contents (Elt Ideal)) (a5 : (⟨S1024x2048, .f32⟩ : BufTy).Contents (Elt Ideal)) (a6 : (⟨S2048, .f32⟩ : BufTy).Contents (Elt Ideal)) (a7 : (⟨S4096x2048, .f32⟩ : BufTy).Contents (Elt Ideal)) (a8 : (⟨S2048, .f32⟩ : BufTy).Contents (Elt Ideal)) (a9 : (⟨S4096x2048, .f32⟩ : BufTy).Contents (Elt Ideal)) (a10 : (⟨S2048, .f32⟩ : BufTy).Contents (Elt Ideal)) (a11 : (⟨S4096x2048, .f32⟩ : BufTy).Contents (Elt Ideal)) (a12 : (⟨S2048, .f32⟩ : BufTy).Contents (Elt Ideal)) (a13 : (⟨S4096x2048, .f32⟩ : BufTy).Contents (Elt Ideal)) (a14 : (⟨S2048, .f32⟩ : BufTy).Contents (Elt Ideal)) (p : Fin 16384) (q : Fin 2048) :
    val_main_v12 (F := Ideal) a0 a1 a5 a6 a7 a8 a9 a10 a11 a12 a13 a14 (ix2 p q)
      = Cert.Spec.gateAt (Cert.Spec.projM a0 a5 a6) a1 a9 (Cert.Spec.row a10) p q := by
  have e : idx_main_v12 (ix2 p q) = ix2 p (⟨2048 + q.val, by omega⟩ : Fin 8192) :=
    funext fun a => Fin.ext (by match a with | ⟨0, _⟩ => rfl | ⟨1, _⟩ => rfl)
  rw [val_main_v12_apply, e]
  exact gate_at a0 a1 a5 a6 a7 a8 a9 a10 a11 a12 a13 a14 a9 a10 p q _ (fun r => mat_i a7 a9 a11 a13 r q _ rfl) (bias_i a8 a10 a12 a14 q _ rfl)

/-- The third slice, columns `4096 … 6143`, is the candidate's. -/
theorem gate_c_at (a0 : (⟨S16384x1024, .f32⟩ : BufTy).Contents (Elt Ideal)) (a1 : (⟨S16384x2048, .f32⟩ : BufTy).Contents (Elt Ideal)) (a5 : (⟨S1024x2048, .f32⟩ : BufTy).Contents (Elt Ideal)) (a6 : (⟨S2048, .f32⟩ : BufTy).Contents (Elt Ideal)) (a7 : (⟨S4096x2048, .f32⟩ : BufTy).Contents (Elt Ideal)) (a8 : (⟨S2048, .f32⟩ : BufTy).Contents (Elt Ideal)) (a9 : (⟨S4096x2048, .f32⟩ : BufTy).Contents (Elt Ideal)) (a10 : (⟨S2048, .f32⟩ : BufTy).Contents (Elt Ideal)) (a11 : (⟨S4096x2048, .f32⟩ : BufTy).Contents (Elt Ideal)) (a12 : (⟨S2048, .f32⟩ : BufTy).Contents (Elt Ideal)) (a13 : (⟨S4096x2048, .f32⟩ : BufTy).Contents (Elt Ideal)) (a14 : (⟨S2048, .f32⟩ : BufTy).Contents (Elt Ideal)) (p : Fin 16384) (q : Fin 2048) :
    val_main_v13 (F := Ideal) a0 a1 a5 a6 a7 a8 a9 a10 a11 a12 a13 a14 (ix2 p q)
      = Cert.Spec.gateAt (Cert.Spec.projM a0 a5 a6) a1 a11 (Cert.Spec.row a12) p q := by
  have e : idx_main_v13 (ix2 p q) = ix2 p (⟨4096 + q.val, by omega⟩ : Fin 8192) :=
    funext fun a => Fin.ext (by match a with | ⟨0, _⟩ => rfl | ⟨1, _⟩ => rfl)
  rw [val_main_v13_apply, e]
  exact gate_at a0 a1 a5 a6 a7 a8 a9 a10 a11 a12 a13 a14 a11 a12 p q _ (fun r => mat_c a7 a9 a11 a13 r q _ rfl) (bias_c a8 a10 a12 a14 q _ rfl)

/-- The fourth slice, columns `6144 … 8191`, is the output gate's. -/
theorem gate_o_at (a0 : (⟨S16384x1024, .f32⟩ : BufTy).Contents (Elt Ideal)) (a1 : (⟨S16384x2048, .f32⟩ : BufTy).Contents (Elt Ideal)) (a5 : (⟨S1024x2048, .f32⟩ : BufTy).Contents (Elt Ideal)) (a6 : (⟨S2048, .f32⟩ : BufTy).Contents (Elt Ideal)) (a7 : (⟨S4096x2048, .f32⟩ : BufTy).Contents (Elt Ideal)) (a8 : (⟨S2048, .f32⟩ : BufTy).Contents (Elt Ideal)) (a9 : (⟨S4096x2048, .f32⟩ : BufTy).Contents (Elt Ideal)) (a10 : (⟨S2048, .f32⟩ : BufTy).Contents (Elt Ideal)) (a11 : (⟨S4096x2048, .f32⟩ : BufTy).Contents (Elt Ideal)) (a12 : (⟨S2048, .f32⟩ : BufTy).Contents (Elt Ideal)) (a13 : (⟨S4096x2048, .f32⟩ : BufTy).Contents (Elt Ideal)) (a14 : (⟨S2048, .f32⟩ : BufTy).Contents (Elt Ideal)) (p : Fin 16384) (q : Fin 2048) :
    val_main_v14 (F := Ideal) a0 a1 a5 a6 a7 a8 a9 a10 a11 a12 a13 a14 (ix2 p q)
      = Cert.Spec.gateAt (Cert.Spec.projM a0 a5 a6) a1 a13 (Cert.Spec.row a14) p q := by
  have e : idx_main_v14 (ix2 p q) = ix2 p (⟨6144 + q.val, by omega⟩ : Fin 8192) :=
    funext fun a => Fin.ext (by match a with | ⟨0, _⟩ => rfl | ⟨1, _⟩ => rfl)
  rw [val_main_v14_apply, e]
  exact gate_at a0 a1 a5 a6 a7 a8 a9 a10 a11 a12 a13 a14 a13 a14 p q _ (fun r => mat_o a7 a9 a11 a13 r q _ rfl) (bias_o a8 a10 a12 a14 q _ rfl)

/-- The reshape that drops the uncertainty's unit axis reads entry `(p, q, 0)`. -/
theorem unc_idx (p : Fin 16384) (q : Fin 2048) : idx_main_v44 (ix2 p q) = ix3 p q (0 : Fin 1) :=
  funext fun a => Fin.ext (by
    have hp := p.isLt; have hq := q.isLt
    match a with
    | ⟨0, _⟩ => show (p.val * 2048 + q.val) / 2048 = p.val; omega
    | ⟨1, _⟩ => show (p.val * 2048 + q.val) / 1 % 2048 = q.val; omega
    | ⟨2, _⟩ => rfl)

/-- The time scale, broadcast from its one entry. -/
theorem ts_idx (p : Fin 16384) (q : Fin 2048) : idx_main_v57 (idx_main_v58 (ix2 p q)) = ix1 (0 : Fin 1) :=
  funext fun a => Fin.ext (by match a with | ⟨0, _⟩ => rfl)

/-- The new cell state at `(p, q)`: the pointwise update over the three gates, the uncertainty, the old cell state, the
    error signal and the time scale. -/
theorem cell_at (a0 : (⟨S16384x1024, .f32⟩ : BufTy).Contents (Elt Ideal)) (a1 : (⟨S16384x2048, .f32⟩ : BufTy).Contents (Elt Ideal)) (a2 : (⟨S16384x2048, .f32⟩ : BufTy).Contents (Elt Ideal)) (a3 : (⟨S16384x2048, .f32⟩ : BufTy).Contents (Elt Ideal)) (a4 : (⟨S16384x2048x1, .f32⟩ : BufTy).Contents (Elt Ideal)) (a5 : (⟨S1024x2048, .f32⟩ : BufTy).Contents (Elt Ideal)) (a6 : (⟨S2048, .f32⟩ : BufTy).Contents (Elt Ideal)) (a7 : (⟨S4096x2048, .f32⟩ : BufTy).Contents (Elt Ideal)) (a8 : (⟨S2048, .f32⟩ : BufTy).Contents (Elt Ideal)) (a9 : (⟨S4096x2048, .f32⟩ : BufTy).Contents (Elt Ideal)) (a10 : (⟨S2048, .f32⟩ : BufTy).Contents (Elt Ideal)) (a11 : (⟨S4096x2048, .f32⟩ : BufTy).Contents (Elt Ideal)) (a12 : (⟨S2048, .f32⟩ : BufTy).Contents (Elt Ideal)) (a13 : (⟨S4096x2048, .f32⟩ : BufTy).Contents (Elt Ideal)) (a14 : (⟨S2048, .f32⟩ : BufTy).Contents (Elt Ideal)) (a15 : (⟨S2048x2048, .f32⟩ : BufTy).Contents (Elt Ideal)) (a16 : (⟨S2048, .f32⟩ : BufTy).Contents (Elt Ideal)) (a17 : (⟨S1, .f32⟩ : BufTy).Contents (Elt Ideal)) (p : Fin 16384) (q : Fin 2048) :
    val_main_v59 (F := Ideal) a0 a1 a2 a3 a4 a5 a6 a7 a8 a9 a10 a11 a12 a13 a14 a15 a16 a17 (ix2 p q)
      = Cert.Spec.finalCell a0 a1 a2 a3 a4 a5 a6 a7 a8 a9 a10 a11 a12 a15 a16 a17 (ix2 p q) := by
  simp only [val_main_v59_apply, val_main_v56_apply, val_main_v53_apply, val_main_v52_apply, val_main_v20_apply,
    val_main_v19_apply, val_main_cst_0_apply, val_main_v18_apply, val_main_v17_apply, val_main_cst_apply,
    val_main_v16_apply, val_main_v15_apply, gate_f_at, val_main_v51_apply, val_main_v50_apply, val_main_cst_9_apply,
    val_main_v49_apply, val_main_v44_apply, val_main_v48_apply, val_main_cst_8_apply, val_main_v55_apply,
    val_main_v54_apply, val_main_v47_apply, val_main_v26_apply, val_main_v25_apply, val_main_cst_2_apply,
    val_main_v24_apply, val_main_v23_apply, val_main_cst_1_apply, val_main_v22_apply, val_main_v21_apply, gate_i_at,
    val_main_v46_apply, val_main_v45_apply, val_main_cst_7_apply, val_main_v27_apply, gate_c_at, err_at,
    val_main_v58_apply, val_main_v57_apply, unc_idx, ts_idx,
    Ideal.addf_def, Ideal.subf_def, Ideal.mulf_def, Ideal.hostDivf_def, Ideal.hostUnary_exp_def, Ideal.hostUnary_tanh_def,
    Ideal.hostNegf_def, Ideal.negf_def, Ideal.ofBits_def, sigmoid_eq]
  rfl

/-- The new hidden state at `(p, q)`: the output gate times `tanh` of the new cell state. -/
theorem hid_at (a0 : (⟨S16384x1024, .f32⟩ : BufTy).Contents (Elt Ideal)) (a1 : (⟨S16384x2048, .f32⟩ : BufTy).Contents (Elt Ideal)) (a2 : (⟨S16384x2048, .f32⟩ : BufTy).Contents (Elt Ideal)) (a3 : (⟨S16384x2048, .f32⟩ : BufTy).Contents (Elt Ideal)) (a4 : (⟨S16384x2048x1, .f32⟩ : BufTy).Contents (Elt Ideal)) (a5 : (⟨S1024x2048, .f32⟩ : BufTy).Contents (Elt Ideal)) (a6 : (⟨S2048, .f32⟩ : BufTy).Contents (Elt Ideal)) (a7 : (⟨S4096x2048, .f32⟩ : BufTy).Contents (Elt Ideal)) (a8 : (⟨S2048, .f32⟩ : BufTy).Contents (Elt Ideal)) (a9 : (⟨S4096x2048, .f32⟩ : BufTy).Contents (Elt Ideal)) (a10 : (⟨S2048, .f32⟩ : BufTy).Contents (Elt Ideal)) (a11 : (⟨S4096x2048, .f32⟩ : BufTy).Contents (Elt Ideal)) (a12 : (⟨S2048, .f32⟩ : BufTy).Contents (Elt Ideal)) (a13 : (⟨S4096x2048, .f32⟩ : BufTy).Contents (Elt Ideal)) (a14 : (⟨S2048, .f32⟩ : BufTy).Contents (Elt Ideal)) (a15 : (⟨S2048x2048, .f32⟩ : BufTy).Contents (Elt Ideal)) (a16 : (⟨S2048, .f32⟩ : BufTy).Contents (Elt Ideal)) (a17 : (⟨S1, .f32⟩ : BufTy).Contents (Elt Ideal)) (p : Fin 16384) (q : Fin 2048) :
    val_main_v61 (F := Ideal) a0 a1 a2 a3 a4 a5 a6 a7 a8 a9 a10 a11 a12 a13 a14 a15 a16 a17 (ix2 p q)
      = Cert.Spec.finalHid a0 a1 a2 a3 a4 a5 a6 a7 a8 a9 a10 a11 a12 a13 a14 a15 a16 a17 (ix2 p q) := by
  simp only [val_main_v61_apply, val_main_v33_apply, val_main_v32_apply, val_main_cst_4_apply, val_main_v31_apply,
    val_main_v30_apply, val_main_cst_3_apply, val_main_v29_apply, val_main_v28_apply, gate_o_at, val_main_v60_apply,
    cell_at,
    Ideal.addf_def, Ideal.mulf_def, Ideal.hostDivf_def, Ideal.hostUnary_exp_def, Ideal.hostUnary_tanh_def,
    Ideal.hostNegf_def, Ideal.negf_def, Ideal.ofBits_def, sigmoid_eq]
  rfl

/-- **The reference's hidden state is the specification's.** -/
theorem ref_hid (a0 : (⟨S16384x1024, .f32⟩ : BufTy).Contents (Elt Ideal)) (a1 : (⟨S16384x2048, .f32⟩ : BufTy).Contents (Elt Ideal)) (a2 : (⟨S16384x2048, .f32⟩ : BufTy).Contents (Elt Ideal)) (a3 : (⟨S16384x2048, .f32⟩ : BufTy).Contents (Elt Ideal)) (a4 : (⟨S16384x2048x1, .f32⟩ : BufTy).Contents (Elt Ideal)) (a5 : (⟨S1024x2048, .f32⟩ : BufTy).Contents (Elt Ideal)) (a6 : (⟨S2048, .f32⟩ : BufTy).Contents (Elt Ideal)) (a7 : (⟨S4096x2048, .f32⟩ : BufTy).Contents (Elt Ideal)) (a8 : (⟨S2048, .f32⟩ : BufTy).Contents (Elt Ideal)) (a9 : (⟨S4096x2048, .f32⟩ : BufTy).Contents (Elt Ideal)) (a10 : (⟨S2048, .f32⟩ : BufTy).Contents (Elt Ideal)) (a11 : (⟨S4096x2048, .f32⟩ : BufTy).Contents (Elt Ideal)) (a12 : (⟨S2048, .f32⟩ : BufTy).Contents (Elt Ideal)) (a13 : (⟨S4096x2048, .f32⟩ : BufTy).Contents (Elt Ideal)) (a14 : (⟨S2048, .f32⟩ : BufTy).Contents (Elt Ideal)) (a15 : (⟨S2048x2048, .f32⟩ : BufTy).Contents (Elt Ideal)) (a16 : (⟨S2048, .f32⟩ : BufTy).Contents (Elt Ideal)) (a17 : (⟨S1, .f32⟩ : BufTy).Contents (Elt Ideal)) :
    val_main_v61 (F := Ideal) a0 a1 a2 a3 a4 a5 a6 a7 a8 a9 a10 a11 a12 a13 a14 a15 a16 a17 = Cert.Spec.finalHid a0 a1 a2 a3 a4 a5 a6 a7 a8 a9 a10 a11 a12 a13 a14 a15 a16 a17 := by
  funext i
  obtain ⟨p, q, rfl⟩ : ∃ (p : Fin 16384) (q : Fin 2048), i = ix2 p q := ⟨i 0, i 1, eq_ix2 i⟩
  exact hid_at a0 a1 a2 a3 a4 a5 a6 a7 a8 a9 a10 a11 a12 a13 a14 a15 a16 a17 p q

/-- **The reference's cell state is the specification's.** -/
theorem ref_cell (a0 : (⟨S16384x1024, .f32⟩ : BufTy).Contents (Elt Ideal)) (a1 : (⟨S16384x2048, .f32⟩ : BufTy).Contents (Elt Ideal)) (a2 : (⟨S16384x2048, .f32⟩ : BufTy).Contents (Elt Ideal)) (a3 : (⟨S16384x2048, .f32⟩ : BufTy).Contents (Elt Ideal)) (a4 : (⟨S16384x2048x1, .f32⟩ : BufTy).Contents (Elt Ideal)) (a5 : (⟨S1024x2048, .f32⟩ : BufTy).Contents (Elt Ideal)) (a6 : (⟨S2048, .f32⟩ : BufTy).Contents (Elt Ideal)) (a7 : (⟨S4096x2048, .f32⟩ : BufTy).Contents (Elt Ideal)) (a8 : (⟨S2048, .f32⟩ : BufTy).Contents (Elt Ideal)) (a9 : (⟨S4096x2048, .f32⟩ : BufTy).Contents (Elt Ideal)) (a10 : (⟨S2048, .f32⟩ : BufTy).Contents (Elt Ideal)) (a11 : (⟨S4096x2048, .f32⟩ : BufTy).Contents (Elt Ideal)) (a12 : (⟨S2048, .f32⟩ : BufTy).Contents (Elt Ideal)) (a13 : (⟨S4096x2048, .f32⟩ : BufTy).Contents (Elt Ideal)) (a14 : (⟨S2048, .f32⟩ : BufTy).Contents (Elt Ideal)) (a15 : (⟨S2048x2048, .f32⟩ : BufTy).Contents (Elt Ideal)) (a16 : (⟨S2048, .f32⟩ : BufTy).Contents (Elt Ideal)) (a17 : (⟨S1, .f32⟩ : BufTy).Contents (Elt Ideal)) :
    val_main_v59 (F := Ideal) a0 a1 a2 a3 a4 a5 a6 a7 a8 a9 a10 a11 a12 a13 a14 a15 a16 a17 = Cert.Spec.finalCell a0 a1 a2 a3 a4 a5 a6 a7 a8 a9 a10 a11 a12 a15 a16 a17 := by
  funext i
  obtain ⟨p, q, rfl⟩ : ∃ (p : Fin 16384) (q : Fin 2048), i = ix2 p q := ⟨i 0, i 1, eq_ix2 i⟩
  exact cell_at a0 a1 a2 a3 a4 a5 a6 a7 a8 a9 a10 a11 a12 a13 a14 a15 a16 a17 p q

/-! The same two statements about a run's two results, the arguments read from the memory the run started in. -/

/-- The hidden-state result of a run from memory `m` is the specification's function of `m`'s arguments. -/
theorem res_hid (m : (ℓ : Loc nD τ sig) → Buf (Elt Ideal) ℓ) (c : Dev nD) :
    Cert.ReferenceIdeal.Value.res_main_v61 (F := Ideal) m c
      = Cert.Spec.finalHid (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17)) :=
  (val_main_v61_eq (F := Ideal) m c).trans (ref_hid _ _ _ _ _ _ _ _ _ _ _ _ _ _ _ _ _ _)

/-- The cell-state result of a run from memory `m` is the specification's function of `m`'s arguments. -/
theorem res_cell (m : (ℓ : Loc nD τ sig) → Buf (Elt Ideal) ℓ) (c : Dev nD) :
    Cert.ReferenceIdeal.Value.res_main_v59 (F := Ideal) m c
      = Cert.Spec.finalCell (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
          (m ((c.tc : Thread nD τ).loc main_arg15))
          (m ((c.tc : Thread nD τ).loc main_arg16))
          (m ((c.tc : Thread nD τ).loc main_arg17)) :=
  (val_main_v59_eq (F := Ideal) m c).trans (ref_cell _ _ _ _ _ _ _ _ _ _ _ _ _ _ _ _ _ _)

end Cert.ReferenceIdeal.RefVal

end
-- ==== Proof.lean ====
/-
  The certificate's five claims.

  Both printed programs (the word-level one and its idealization, whose texts agree: the ideal pass rewrote nothing)
  run as host operations followed by three pipelined kernel stages; `Hand.run_all` carries either from the launch to
  a final state whose every unscoped buffer is named, and the frames read the arguments off it. The reference is a
  host program whose run is read back operation by operation. At the ideal values both end with the hidden state
  `Spec.finalHid` and the cell state `Spec.finalCell` of the argument arrays: the kernel side because each stage's
  result array is its tiles' values laid side by side (the projection `x · Wp + bp`, the error attention
  `σ(e · We + be)`, then per tile the four gates and the pointwise update), the reference side by reading its single
  product over the concatenated row [proj, hid] and the stacked gate matrices as the kernel's two products per gate
  (a sum over 4096 terms split into its halves), its spelled-out sigmoid `1 / (1 + exp (−y))` being the kernel's
  logistic by definition. No finiteness of the inputs is used.
-/
import proofs.«127285_j65532611002879_1_alg».proof.Defs
import proofs.«127285_j65532611002879_1_alg».proof.Proof.Gen.Kernel
import proofs.«127285_j65532611002879_1_alg».proof.Proof.Gen.KernelIdeal
import proofs.«127285_j65532611002879_1_alg».proof.Proof.Gen.ReferenceIdeal
import proofs.«127285_j65532611002879_1_alg».proof.Proof.Gen.Pre_finite_inputs
import proofs.«127285_j65532611002879_1_alg».proof.Proof.Gen.ReferenceIdeal.Run
import proofs.«127285_j65532611002879_1_alg».proof.Proof.Gen.ReferenceIdeal.Read
import proofs.«127285_j65532611002879_1_alg».proof.Proof.K.Frame
import proofs.«127285_j65532611002879_1_alg».proof.Proof.KI.Frame
import proofs.«127285_j65532611002879_1_alg».proof.Proof.KI.KVal
import proofs.«127285_j65532611002879_1_alg».proof.Proof.Ref
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k [hKernel : Cert.Kernel.Facts] [hPre_finite_inputs : Cert.Pre_finite_inputs.Facts] : Cert.frame_Kernel :=
  fun m ρ _ => Cert.Kernel.Hand.frame m ρ

/-- So does its idealization. -/
theorem frame_ki [hKernelIdeal : Cert.KernelIdeal.Facts] [hPre_finite_inputs : Cert.Pre_finite_inputs.Facts] : Cert.frame_KernelIdeal :=
  fun m ρ _ => Cert.KernelIdeal.Hand.frame m ρ

/-- The reference's frame is its run with the two results dropped. -/
theorem frame_ri [hReferenceIdeal : Cert.ReferenceIdeal.Facts] [hPre_finite_inputs : Cert.Pre_finite_inputs.Facts] : Cert.frame_ReferenceIdeal :=
  fun m ρ _ => (θ_run Cert.ReferenceIdeal.defs _ _).mono (fun _ h c => (h c).2.2) (Cert.ReferenceIdeal.Value.run (F := Ideal) m ρ)

/-- At the ideal values both programs end with the hidden state `Spec.finalHid` and the cell state `Spec.finalCell`
    of their argument arrays, which agree. -/
theorem algebraic [hKernelIdeal : Cert.KernelIdeal.Facts] [hReferenceIdeal : Cert.ReferenceIdeal.Facts] [hPre_finite_inputs : Cert.Pre_finite_inputs.Facts] :
    Cert.algebraic_KernelIdeal_ReferenceIdeal := by
  intro m ρ m' ρ' _ hagree
  refine ⟨fun c => Cert.KernelIdeal.Hand.W4 (F := Ideal) m c Cert.KernelIdeal.main_v16_0,
    fun c => Cert.KernelIdeal.Hand.W4 (F := Ideal) m c Cert.KernelIdeal.main_v16_1,
    Cert.KernelIdeal.Hand.run_results m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17⟩ := hagree c
  refine ⟨(h c).1.trans ?_, (h c).2.1.trans ?_, (h c).2.2⟩
  · rw [Cert.ReferenceIdeal.RefVal.res_hid, h0, h1, h2, h3, h4, h5, h6, h7, h8, h9, h10, h11, h12, h13, h14, h15, h16, h17]
    exact (Cert.KernelIdeal.Val.kernel_hid m c).symm
  · rw [Cert.ReferenceIdeal.RefVal.res_cell, h0, h1, h2, h3, h4, h5, h6, h7, h8, h9, h10, h11, h12, h15, h16, h17]
    exact (Cert.KernelIdeal.Val.kernel_cell m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
